-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3072x512 : Shape := ⟨2, ![3072, 512]⟩
abbrev S2x98304 : Shape := ⟨2, ![2, 98304]⟩
abbrev S512x512 : Shape := ⟨2, ![512, 512]⟩
abbrev S512 : Shape := ⟨1, ![512]⟩
abbrev S_ : Shape := ⟨0, ![]⟩

class Facts : Prop where
  bcast_S_S3072x512 : S_.BroadcastsInDim S3072x512 (![] : Fin 0 → Fin S3072x512.rank)
  reducesTo_S3072x512_S_d0_1 : S3072x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg5 : FVec F S512 .f32) (main_arg6 : FVec F S512 .f32) (main_arg7 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S3072x512 .f32) (main_arg1 : IVec S2x98304 32) (main_arg2 : FVec F S512x512 .f32) (main_arg3 : FVec F S512x512 .f32) (main_arg4 : FVec F S512x512 .f32) (main_arg5 : FVec F S512 .f32) (main_arg6 : FVec F S512 .f32) (main_arg7 : FVec F S512 .f32) : IVec S_ 1 :=
  let main_v0 : FVec F S3072x512 .f32 := Host.absf main_arg0
  let main_cst : FVec F S_ .f32 := constant S_ .f32 0x7F800000#32
  let main_v1 : FVec F S3072x512 .f32 := broadcastInDim S3072x512 ![] bcast_S_S3072x512 main_cst
  let main_v2 : IVec S3072x512 1 := cmpf .olt main_v0 main_v1
  let main_c : IVec S_ 1 := constantI S_ 1 1#1
  let main_v3 : IVec S_ 1 := (fun x v => Host.reduce IntOp.andi x v reducesTo_S3072x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512x512 .f32 := Host.absf main_arg3
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_v13 main_v16
-- ==== Kernel.lean ====
abbrev S3072x512 : Shape := ⟨2, ![3072, 512]⟩
abbrev S2x98304 : Shape := ⟨2, ![2, 98304]⟩
abbrev S512x512 : Shape := ⟨2, ![512, 512]⟩
abbrev S512 : Shape := ⟨1, ![512]⟩
abbrev S512x64 : Shape := ⟨2, ![512, 64]⟩
abbrev S512x640 : Shape := ⟨2, ![512, 640]⟩
abbrev S64 : Shape := ⟨1, ![64]⟩
abbrev S640 : Shape := ⟨1, ![640]⟩
abbrev S1x640 : Shape := ⟨2, ![1, 640]⟩
abbrev S3072x640 : Shape := ⟨2, ![3072, 640]⟩
abbrev S3072x64 : Shape := ⟨2, ![3072, 64]⟩
abbrev S3072x448 : Shape := ⟨2, ![3072, 448]⟩
abbrev S_ : Shape := ⟨0, ![]⟩
abbrev S448 : Shape := ⟨1, ![448]⟩
abbrev S1x448 : Shape := ⟨2, ![1, 448]⟩
abbrev S1x98304 : Shape := ⟨2, ![1, 98304]⟩
abbrev S98304 : Shape := ⟨1, ![98304]⟩
abbrev S3072x3072 : Shape := ⟨2, ![3072, 3072]⟩
abbrev S98304x1 : Shape := ⟨2, ![98304, 1]⟩
abbrev S98304x2 : Shape := ⟨2, ![98304, 2]⟩
abbrev S384x64 : Shape := ⟨2, ![384, 64]⟩
abbrev S384x3072 : Shape := ⟨2, ![384, 3072]⟩
abbrev S384x512 : Shape := ⟨2, ![384, 512]⟩
abbrev S384 : Shape := ⟨1, ![384]⟩
abbrev S384x1 : Shape := ⟨2, ![384, 1]⟩
abbrev S384x448 : Shape := ⟨2, ![384, 448]⟩

abbrev nBuf : Space → Nat
  | .hbm => 54
  | .vmem => 15
  | .smem => 0
  | _ => 0

abbrev bufTy : (tb : Table) → Fin (tcTables nBuf tb) → BufTy
  | .hbm, ⟨0, _⟩ => ⟨S3072x512, .f32⟩
  | .hbm, ⟨1, _⟩ => ⟨S2x98304, .i32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512x64, .f32⟩
  | .hbm, ⟨9, _⟩ => ⟨S512x64, .f32⟩
  | .hbm, ⟨10, _⟩ => ⟨S512x640, .f32⟩
  | .hbm, ⟨11, _⟩ => ⟨S64, .f32⟩
  | .hbm, ⟨12, _⟩ => ⟨S64, .f32⟩
  | .hbm, ⟨13, _⟩ => ⟨S640, .f32⟩
  | .hbm, ⟨14, _⟩ => ⟨S1x640, .f32⟩
  | .hbm, ⟨15, _⟩ => ⟨S3072x640, .f32⟩
  | .hbm, ⟨16, _⟩ => ⟨S3072x64, .f32⟩
  | .hbm, ⟨17, _⟩ => ⟨S3072x64, .f32⟩
  | .hbm, ⟨18, _⟩ => ⟨S3072x512, .f32⟩
  | .hbm, ⟨19, _⟩ => ⟨S3072x448, .f32⟩
  | .hbm, ⟨20, _⟩ => ⟨S3072x64, .f32⟩
  | .hbm, ⟨21, _⟩ => ⟨S_, .f32⟩
  | .hbm, ⟨22, _⟩ => ⟨S448, .f32⟩
  | .hbm, ⟨23, _⟩ => ⟨S1x448, .f32⟩
  | .hbm, ⟨24, _⟩ => ⟨S_, .f32⟩
  | .hbm, ⟨25, _⟩ => ⟨S1x448, .f32⟩
  | .hbm, ⟨26, _⟩ => ⟨S1x448, .f32⟩
  | .hbm, ⟨27, _⟩ => ⟨S1x98304, .i32⟩
  | .hbm, ⟨28, _⟩ => ⟨S98304, .i32⟩
  | .hbm, ⟨29, _⟩ => ⟨S1x98304, .i32⟩
  | .hbm, ⟨30, _⟩ => ⟨S98304, .i32⟩
  | .hbm, ⟨31, _⟩ => ⟨S_, .bf16⟩
  | .hbm, ⟨32, _⟩ => ⟨S3072x3072, .bf16⟩
  | .hbm, ⟨33, _⟩ => ⟨S_, .i32⟩
  | .hbm, ⟨34, _⟩ => ⟨S98304, .i32⟩
  | .hbm, ⟨35, _⟩ => ⟨S98304, .i1⟩
  | .hbm, ⟨36, _⟩ => ⟨S_, .i32⟩
  | .hbm, ⟨37, _⟩ => ⟨S98304, .i32⟩
  | .hbm, ⟨38, _⟩ => ⟨S98304, .i32⟩
  | .hbm, ⟨39, _⟩ => ⟨S98304, .i32⟩
  | .hbm, ⟨40, _⟩ => ⟨S_, .i32⟩
  | .hbm, ⟨41, _⟩ => ⟨S98304, .i32⟩
  | .hbm, ⟨42, _⟩ => ⟨S98304, .i1⟩
  | .hbm, ⟨43, _⟩ => ⟨S_, .i32⟩
  | .hbm, ⟨44, _⟩ => ⟨S98304, .i32⟩
  | .hbm, ⟨45, _⟩ => ⟨S98304, .i32⟩
  | .hbm, ⟨46, _⟩ => ⟨S98304, .i32⟩
  | .hbm, ⟨47, _⟩ => ⟨S98304x1, .i32⟩
  | .hbm, ⟨48, _⟩ => ⟨S98304x1, .i32⟩
  | .hbm, ⟨49, _⟩ => ⟨S98304x2, .i32⟩
  | .hbm, ⟨50, _⟩ => ⟨S_, .bf16⟩
  | .hbm, ⟨51, _⟩ => ⟨S98304, .bf16⟩
  | .hbm, ⟨52, _⟩ => ⟨S3072x3072, .bf16⟩
  | .hbm, ⟨53, _⟩ => ⟨S3072x512, .f32⟩
  | .local _ .vmem, ⟨0, _⟩ => ⟨S512x512, .f32⟩
  | .local _ .vmem, ⟨1, _⟩ => ⟨S512x512, .f32⟩
  | .local _ .vmem, ⟨2, _⟩ => ⟨S512x640, .f32⟩
  | .local _ .vmem, ⟨3, _⟩ => ⟨S1x640, .f32⟩
  | .local _ .vmem, ⟨4, _⟩ => ⟨S512x640, .f32⟩
  | .local _ .vmem, ⟨5, _⟩ => ⟨S512x640, .f32⟩
  | .local _ .vmem, ⟨6, _⟩ => ⟨S384x64, .f32⟩
  | .local _ .vmem, ⟨7, _⟩ => ⟨S384x64, .f32⟩
  | .local _ .vmem, ⟨8, _⟩ => ⟨S3072x64, .f32⟩
  | .local _ .vmem, ⟨9, _⟩ => ⟨S3072x64, .f32⟩
  | .local _ .vmem, ⟨10, _⟩ => ⟨S1x448, .f32⟩
  | .local _ .vmem, ⟨11, _⟩ => ⟨S384x3072, .bf16⟩
  | .local _ .vmem, ⟨12, _⟩ => ⟨S384x3072, .bf16⟩
  | .local _ .vmem, ⟨13, _⟩ => ⟨S384x512, .f32⟩
  | .local _ .vmem, ⟨14, _⟩ => ⟨S384x512, .f32⟩
  | _, _ => ⟨S3072x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_c : Ref sig .tc := ⟨.hbm, 33, rfl⟩
abbrev main_v22 : Ref sig .tc := ⟨.hbm, 34, rfl⟩
abbrev main_v23 : Ref sig .tc := ⟨.hbm, 35, rfl⟩
abbrev main_c_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_3 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x640 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S384x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3072x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3072x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x448 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S384x3072 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S384x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S512x512_S512x64_0_448 : S512x512.Slices ![0, 448] S512x64
  concatenates_S512x64_S512x64_S512x512_S512x640_d1 : Shape.Concatenates [S512x64, S512x64, S512x512] S512x640 1
  slices_S512_S64_448 : S512.Slices ![448] S64
  concatenates_S64_S64_S512_S640_d0 : Shape.Concatenates [S64, S64, S512] S640 0
  shapeCasts_S640_S1x640 : S640.ShapeCasts S1x640
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S512x640_S512x640_0_0 : ∀ a, (![0, 0] : Fin 2 → Nat) a + S512x640.size a ≤ S512x640.size a
  h_S512x640 : 0 < S512x640.numel
  shapeCasts_S512x640_S512x640 : S512x640.ShapeCasts S512x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  broadcasts_S1x640_S512x640 : S1x640.Broadcasts S512x640
  slices_S3072x640_S3072x64_0_0 : S3072x640.Slices ![0, 0] S3072x64
  slices_S3072x640_S3072x64_0_64 : S3072x640.Slices ![0, 64] S3072x64
  slices_S3072x640_S3072x512_0_128 : S3072x640.Slices ![0, 128] S3072x512
  slices_S3072x512_S3072x448_0_0 : S3072x512.Slices ![0, 0] S3072x448
  slices_S3072x512_S3072x64_0_448 : S3072x512.Slices ![0, 448] S3072x64
  reducesTo_S3072x448_S448_d0 : S3072x448.ReducesTo [0] S448
  h_S_ : 0 < S_.numel
  bcast_S448_S1x448_1 : S448.BroadcastsInDim S1x448 (![1] : Fin 1 → Fin S1x448.rank)
  bcast_S_S1x448 : S_.BroadcastsInDim S1x448 (![] : Fin 0 → Fin S1x448.rank)
  slices_S2x98304_S1x98304_0_0 : S2x98304.Slices ![0, 0] S1x98304
  shapeCasts_S1x98304_S98304 : S1x98304.ShapeCasts S98304
  slices_S2x98304_S1x98304_1_0 : S2x98304.Slices ![1, 0] S1x98304
  bcast_S_S3072x3072 : S_.BroadcastsInDim S3072x3072 (![] : Fin 0 → Fin S3072x3072.rank)
  bcast_S_S98304 : S_.BroadcastsInDim S98304 (![] : Fin 0 → Fin S98304.rank)
  bcast_S98304_S98304x1_0 : S98304.BroadcastsInDim S98304x1 (![0] : Fin 1 → Fin S98304x1.rank)
  concatenates_S98304x1_S98304x1_S98304x2_d1 : Shape.Concatenates [S98304x1, S98304x1] S98304x2 1
  inb_S384x64_S384x64_0_0 : ∀ a, (![0, 0] : Fin 2 → Nat) a + S384x64.size a ≤ S384x64.size a
  h_S384x64 : 0 < S384x64.numel
  shapeCasts_S384x64_S384x64 : S384x64.ShapeCasts S384x64
  inb_S3072x64_S3072x64_0_0 : ∀ a, (![0, 0] : Fin 2 → Nat) a + S3072x64.size a ≤ S3072x64.size a
  h_S3072x64 : 0 < S3072x64.numel
  shapeCasts_S3072x64_S3072x64 : S3072x64.ShapeCasts S3072x64
  inb_S384x3072_S384x3072_0_0 : ∀ a, (![0, 0] : Fin 2 → Nat) a + S384x3072.size a ≤ S384x3072.size a
  h_S384x3072 : 0 < S384x3072.numel
  shapeCasts_S384x3072_S384x3072 : S384x3072.ShapeCasts S384x3072
  reduces_S384x3072_S384 : S384x3072.Reduces [1] S384
  shapeCasts_S384_S384x1 : S384.ShapeCasts S384x1
  broadcasts_S384x1_S384x3072 : S384x1.Broadcasts S384x3072
  inb_S1x448_S1x448_0_0 : ∀ a, (![0, 0] : Fin 2 → Nat) a + S1x448.size a ≤ S1x448.size a
  h_S1x448 : 0 < S1x448.numel
  shapeCasts_S1x448_S1x448 : S1x448.ShapeCasts S1x448
  broadcasts_S1x448_S384x448 : S1x448.Broadcasts S384x448
  inb_S384x512_S384x448_0_0 : ∀ a, (![0, 0] : Fin 2 → Nat) a + S384x448.size a ≤ S384x512.size a
  h_S384x448 : 0 < S384x448.numel
  inb_S384x512_S384x64_0_448 : ∀ a, (![0, 448] : Fin 2 → Nat) a + S384x64.size a ≤ S384x512.size a
  dot_S512x512_S512x640_S512x640_1_0_0_1_n_n_wf : DotDims.WF S512x512 S512x640 S512x640 [1] [0] [0] [1] [] []
  scatter_S3072x3072_S98304x2_S98304_n_01_01_1_wf : ScatterDims.WF S3072x3072 S98304x2 S98304 [] [0, 1] [0, 1] 1
  dot_S384x64_S3072x64_S384x3072_1_1_0_0_n_n_wf : DotDims.WF S384x64 S3072x64 S384x3072 [1] [1] [0] [0] [] []
  dot_S384x3072_S3072x64_S384x64_1_0_0_1_n_n_wf : DotDims.WF S384x3072 S3072x64 S384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S3072x512.size a
  hwx0_0 : ∀ i : grid0.Coords, EltTy.bits .f32 = 32 ∨ (Rect.block (s := S3072x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x640.size a ≤ S512x640.size a
  hwx0_1 : ∀ i : grid0.Coords, EltTy.bits .f32 = 32 ∨ (Rect.block (s := S512x640) S512x640.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x640.size a ≤ S1x640.size a
  hwx0_2 : ∀ i : grid0.Coords, EltTy.bits .f32 = 32 ∨ (Rect.block (s := S1x640) S1x640.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x640.size a ≤ S3072x640.size a
  hwx0_3 : ∀ i : grid0.Coords, EltTy.bits .f32 = 32 ∨ (Rect.block (s := S3072x640) S512x640.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S384x64.size a ≤ S3072x64.size a
  hwx1_0 : ∀ i : grid1.Coords, EltTy.bits .f32 = 32 ∨ (Rect.block (s := S3072x64) S384x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3072x64.size a ≤ S3072x64.size a
  hwx1_1 : ∀ i : grid1.Coords, EltTy.bits .f32 = 32 ∨ (Rect.block (s := S3072x64) S3072x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3072x64.size a ≤ S3072x64.size a
  hwx1_2 : ∀ i : grid1.Coords, EltTy.bits .f32 = 32 ∨ (Rect.block (s := S3072x64) S3072x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x448.size a ≤ S1x448.size a
  hwx1_3 : ∀ i : grid1.Coords, EltTy.bits .f32 = 32 ∨ (Rect.block (s := S1x448) S1x448.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S384x3072.size a ≤ S3072x3072.size a
  hwx1_4 : ∀ i : grid1.Coords, EltTy.bits .bf16 = 32 ∨ (Rect.block (s := S3072x3072) S384x3072.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S384x512.size a ≤ S3072x512.size a
  hwx1_5 : ∀ i : grid1.Coords, EltTy.bits .f32 = 32 ∨ (Rect.block (s := S3072x512) S384x512.size (cc1_transform_5 i) (hinb1_5 i)).WholeWords (EltTy.packing .f32)

variable [Facts₀]

def dot_S512x512_S512x640_S512x640_1_0_0_1_n_n : DotDims S512x512 S512x640 S512x640 where
  lhsContracting := [1]
  rhsContracting := [0]
  lhsNonContracting := [0]
  rhsNonContracting := [1]
  lhsBatch := []
  rhsBatch := []
  wf := dot_S512x512_S512x640_S512x640_1_0_0_1_n_n_wf
def scatter_S3072x3072_S98304x2_S98304_n_01_01_1 : ScatterDims S3072x3072 S98304x2 S98304 where
  updateWindowDims := []
  insertedWindowDims := [0, 1]
  scatterDimsToOperandDims := [0, 1]
  indexVectorDim := 1
  wf := scatter_S3072x3072_S98304x2_S98304_n_01_01_1_wf
def dot_S384x64_S3072x64_S384x3072_1_1_0_0_n_n : DotDims S384x64 S3072x64 S384x3072 where
  lhsContracting := [1]
  rhsContracting := [1]
  lhsNonContracting := [0]
  rhsNonContracting := [0]
  lhsBatch := []
  rhsBatch := []
  wf := dot_S384x64_S3072x64_S384x3072_1_1_0_0_n_n_wf
def dot_S384x3072_S3072x64_S384x64_1_0_0_1_n_n : DotDims S384x3072 S3072x64 S384x64 where
  lhsContracting := [1]
  rhsContracting := [0]
  lhsNonContracting := [0]
  rhsNonContracting := [1]
  lhsBatch := []
  rhsBatch := []
  wf := dot_S384x3072_S3072x64_S384x64_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S512x640.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x640.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v8) S384x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S3072x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S3072x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x448.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S384x3072.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v37) S384x512.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S3072x512 : Shape := ⟨2, ![3072, 512]⟩
abbrev S2x98304 : Shape := ⟨2, ![2, 98304]⟩
abbrev S512x512 : Shape := ⟨2, ![512, 512]⟩
abbrev S512 : Shape := ⟨1, ![512]⟩
abbrev S1x512 : Shape := ⟨2, ![1, 512]⟩
abbrev S3072x8x64 : Shape := ⟨3, ![3072, 8, 64]⟩
abbrev S8x3072x64 : Shape := ⟨3, ![8, 3072, 64]⟩
abbrev S8x3072x3072 : Shape := ⟨3, ![8, 3072, 3072]⟩
abbrev S_ : Shape := ⟨0, ![]⟩
abbrev S1x98304 : Shape := ⟨2, ![1, 98304]⟩
abbrev S98304 : Shape := ⟨1, ![98304]⟩
abbrev S98304x1 : Shape := ⟨2, ![98304, 1]⟩
abbrev S98304x3 : Shape := ⟨2, ![98304, 3]⟩
abbrev S8x3072 : Shape := ⟨2, ![8, 3072]⟩
abbrev S8x3072x1 : Shape := ⟨3, ![8, 3072, 1]⟩

abbrev nBuf : Space → Nat
  | .hbm => 98
  | .vmem => 0
  | .smem => 0
  | _ => 0

abbrev bufTy : (tb : Table) → Fin (tcTables nBuf tb) → BufTy
  | .hbm, ⟨0, _⟩ => ⟨S3072x512, .f32⟩
  | .hbm, ⟨1, _⟩ => ⟨S2x98304, .i32⟩
  | .hbm, ⟨2, _⟩ => ⟨S512x512, .f32⟩
  | .hbm, ⟨3, _⟩ => ⟨S512x512, .f32⟩
  | .hbm, ⟨4, _⟩ => ⟨S512x512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S3072x512, .f32⟩
  | .hbm, ⟨9, _⟩ => ⟨S1x512, .f32⟩
  | .hbm, ⟨10, _⟩ => ⟨S3072x512, .f32⟩
  | .hbm, ⟨11, _⟩ => ⟨S3072x512, .f32⟩
  | .hbm, ⟨12, _⟩ => ⟨S3072x8x64, .f32⟩
  | .hbm, ⟨13, _⟩ => ⟨S8x3072x64, .f32⟩
  | .hbm, ⟨14, _⟩ => ⟨S3072x512, .f32⟩
  | .hbm, ⟨15, _⟩ => ⟨S1x512, .f32⟩
  | .hbm, ⟨16, _⟩ => ⟨S3072x512, .f32⟩
  | .hbm, ⟨17, _⟩ => ⟨S3072x512, .f32⟩
  | .hbm, ⟨18, _⟩ => ⟨S3072x8x64, .f32⟩
  | .hbm, ⟨19, _⟩ => ⟨S8x3072x64, .f32⟩
  | .hbm, ⟨20, _⟩ => ⟨S3072x512, .f32⟩
  | .hbm, ⟨21, _⟩ => ⟨S1x512, .f32⟩
  | .hbm, ⟨22, _⟩ => ⟨S3072x512, .f32⟩
  | .hbm, ⟨23, _⟩ => ⟨S3072x512, .f32⟩
  | .hbm, ⟨24, _⟩ => ⟨S3072x8x64, .f32⟩
  | .hbm, ⟨25, _⟩ => ⟨S8x3072x64, .f32⟩
  | .hbm, ⟨26, _⟩ => ⟨S8x3072x3072, .f32⟩
  | .hbm, ⟨27, _⟩ => ⟨S_, .f32⟩
  | .hbm, ⟨28, _⟩ => ⟨S_, .f32⟩
  | .hbm, ⟨29, _⟩ => ⟨S8x3072x3072, .f32⟩
  | .hbm, ⟨30, _⟩ => ⟨S8x3072x3072, .f32⟩
  | .hbm, ⟨31, _⟩ => ⟨S1x98304, .i32⟩
  | .hbm, ⟨32, _⟩ => ⟨S98304, .i32⟩
  | .hbm, ⟨33, _⟩ => ⟨S1x98304, .i32⟩
  | .hbm, ⟨34, _⟩ => ⟨S98304, .i32⟩
  | .hbm, ⟨35, _⟩ => ⟨S_, .f32⟩
  | .hbm, ⟨36, _⟩ => ⟨S8x3072x3072, .f32⟩
  | .hbm, ⟨37, _⟩ => ⟨S_, .i32⟩
  | .hbm, ⟨38, _⟩ => ⟨S98304, .i32⟩
  | .hbm, ⟨39, _⟩ => ⟨S98304, .i1⟩
  | .hbm, ⟨40, _⟩ => ⟨S_, .i32⟩
  | .hbm, ⟨41, _⟩ => ⟨S98304, .i32⟩
  | .hbm, ⟨42, _⟩ => ⟨S98304, .i32⟩
  | .hbm, ⟨43, _⟩ => ⟨S98304, .i32⟩
  | .hbm, ⟨44, _⟩ => ⟨S_, .i32⟩
  | .hbm, ⟨45, _⟩ => ⟨S98304, .i32⟩
  | .hbm, ⟨46, _⟩ => ⟨S98304, .i1⟩
  | .hbm, ⟨47, _⟩ => ⟨S_, .i32⟩
  | .hbm, ⟨48, _⟩ => ⟨S98304, .i32⟩
  | .hbm, ⟨49, _⟩ => ⟨S98304, .i32⟩
  | .hbm, ⟨50, _⟩ => ⟨S98304, .i32⟩
  | .hbm, ⟨51, _⟩ => ⟨S_, .i32⟩
  | .hbm, ⟨52, _⟩ => ⟨S98304, .i32⟩
  | .hbm, ⟨53, _⟩ => ⟨S98304, .i32⟩
  | .hbm, ⟨54, _⟩ => ⟨S98304x1, .i32⟩
  | .hbm, ⟨55, _⟩ => ⟨S98304x1, .i32⟩
  | .hbm, ⟨56, _⟩ => ⟨S98304x1, .i32⟩
  | .hbm, ⟨57, _⟩ => ⟨S98304x3, .i32⟩
  | .hbm, ⟨58, _⟩ => ⟨S98304, .f32⟩
  | .hbm, ⟨59, _⟩ => ⟨S_, .i32⟩
  | .hbm, ⟨60, _⟩ => ⟨S98304, .i32⟩
  | .hbm, ⟨61, _⟩ => ⟨S98304, .i1⟩
  | .hbm, ⟨62, _⟩ => ⟨S_, .i32⟩
  | .hbm, ⟨63, _⟩ => ⟨S98304, .i32⟩
  | .hbm, ⟨64, _⟩ => ⟨S98304, .i32⟩
  | .hbm, ⟨65, _⟩ => ⟨S98304, .i32⟩
  | .hbm, ⟨66, _⟩ => ⟨S_, .i32⟩
  | .hbm, ⟨67, _⟩ => ⟨S98304, .i32⟩
  | .hbm, ⟨68, _⟩ => ⟨S98304, .i1⟩
  | .hbm, ⟨69, _⟩ => ⟨S_, .i32⟩
  | .hbm, ⟨70, _⟩ => ⟨S98304, .i32⟩
  | .hbm, ⟨71, _⟩ => ⟨S98304, .i32⟩
  | .hbm, ⟨72, _⟩ => ⟨S98304, .i32⟩
  | .hbm, ⟨73, _⟩ => ⟨S_, .i32⟩
  | .hbm, ⟨74, _⟩ => ⟨S98304, .i32⟩
  | .hbm, ⟨75, _⟩ => ⟨S98304, .i32⟩
  | .hbm, ⟨76, _⟩ => ⟨S98304x1, .i32⟩
  | .hbm, ⟨77, _⟩ => ⟨S98304x1, .i32⟩
  | .hbm, ⟨78, _⟩ => ⟨S98304x1, .i32⟩
  | .hbm, ⟨79, _⟩ => ⟨S98304x3, .i32⟩
  | .hbm, ⟨80, _⟩ => ⟨S8x3072x3072, .f32⟩
  | .hbm, ⟨81, _⟩ => ⟨S_, .f32⟩
  | .hbm, ⟨82, _⟩ => ⟨S8x3072, .f32⟩
  | .hbm, ⟨83, _⟩ => ⟨S_, .f32⟩
  | .hbm, ⟨84, _⟩ => ⟨S8x3072, .f32⟩
  | .hbm, ⟨85, _⟩ => ⟨S8x3072, .f32⟩
  | .hbm, ⟨86, _⟩ => ⟨S8x3072x1, .f32⟩
  | .hbm, ⟨87, _⟩ => ⟨S8x3072x3072, .f32⟩
  | .hbm, ⟨88, _⟩ => ⟨S8x3072x3072, .f32⟩
  | .hbm, ⟨89, _⟩ => ⟨S8x3072x3072, .f32⟩
  | .hbm, ⟨90, _⟩ => ⟨S_, .f32⟩
  | .hbm, ⟨91, _⟩ => ⟨S8x3072, .f32⟩
  | .hbm, ⟨92, _⟩ => ⟨S8x3072x1, .f32⟩
  | .hbm, ⟨93, _⟩ => ⟨S8x3072x3072, .f32⟩
  | .hbm, ⟨94, _⟩ => ⟨S8x3072x3072, .f32⟩
  | .hbm, ⟨95, _⟩ => ⟨S8x3072x64, .f32⟩
  | .hbm, ⟨96, _⟩ => ⟨S3072x8x64, .f32⟩
  | .hbm, ⟨97, _⟩ => ⟨S3072x512, .f32⟩
  | _, _ => ⟨S3072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_c : Ref sig .tc := ⟨.hbm, 37, rfl⟩
abbrev main_v27 : Ref sig .tc := ⟨.hbm, 38, rfl⟩
abbrev main_v28 : Ref sig .tc := ⟨.hbm, 39, rfl⟩
abbrev main_c_1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c_2 : Ref sig .tc := ⟨.hbm, 44, rfl⟩
abbrev main_v32 : Ref sig .tc := ⟨.hbm, 45, rfl⟩
abbrev main_v33 : Ref sig .tc := ⟨.hbm, 46, rfl⟩
abbrev main_c_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_4 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_5 : Ref sig .tc := ⟨.hbm, 59, rfl⟩
abbrev main_v44 : Ref sig .tc := ⟨.hbm, 60, rfl⟩
abbrev main_v45 : Ref sig .tc := ⟨.hbm, 61, rfl⟩
abbrev main_c_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_7 : Ref sig .tc := ⟨.hbm, 66, rfl⟩
abbrev main_v49 : Ref sig .tc := ⟨.hbm, 67, rfl⟩
abbrev main_v50 : Ref sig .tc := ⟨.hbm, 68, rfl⟩
abbrev main_c_8 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_10 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_12 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S3072x512_0_1 : S1x512.BroadcastsInDim S3072x512 (![0, 1] : Fin 2 → Fin S3072x512.rank)
  shapeCasts_S3072x512_S3072x8x64 : S3072x512.ShapeCasts S3072x8x64
  transposes_S3072x8x64_S8x3072x64_1_0_2 : S3072x8x64.Transposes [1, 0, 2] S8x3072x64
  bcast_S_S8x3072x3072 : S_.BroadcastsInDim S8x3072x3072 (![] : Fin 0 → Fin S8x3072x3072.rank)
  slices_S2x98304_S1x98304_0_0 : S2x98304.Slices ![0, 0] S1x98304
  shapeCasts_S1x98304_S98304 : S1x98304.ShapeCasts S98304
  slices_S2x98304_S1x98304_1_0 : S2x98304.Slices ![1, 0] S1x98304
  bcast_S_S98304 : S_.BroadcastsInDim S98304 (![] : Fin 0 → Fin S98304.rank)
  bcast_S98304_S98304x1_0 : S98304.BroadcastsInDim S98304x1 (![0] : Fin 1 → Fin S98304x1.rank)
  concatenates_S98304x1_S98304x1_S98304x1_S98304x3_d1 : Shape.Concatenates [S98304x1, S98304x1, S98304x1] S98304x3 1
  reducesTo_S8x3072x3072_S8x3072_d2 : S8x3072x3072.ReducesTo [2] S8x3072
  h_S_ : 0 < S_.numel
  bcast_S_S8x3072 : S_.BroadcastsInDim S8x3072 (![] : Fin 0 → Fin S8x3072.rank)
  bcast_S8x3072_S8x3072x1_0_1 : S8x3072.BroadcastsInDim S8x3072x1 (![0, 1] : Fin 2 → Fin S8x3072x1.rank)
  bcast_S8x3072x1_S8x3072x3072_0_1_2 : S8x3072x1.BroadcastsInDim S8x3072x3072 (![0, 1, 2] : Fin 3 → Fin S8x3072x3072.rank)
  transposes_S8x3072x64_S3072x8x64_1_0_2 : S8x3072x64.Transposes [1, 0, 2] S3072x8x64
  shapeCasts_S3072x8x64_S3072x512 : S3072x8x64.ShapeCasts S3072x512
  dot_S3072x512_S512x512_S3072x512_1_0_0_1_n_n_wf : DotDims.WF S3072x512 S512x512 S3072x512 [1] [0] [0] [1] [] []
  dot_S8x3072x64_S8x3072x64_S8x3072x3072_2_2_1_1_0_0_wf : DotDims.WF S8x3072x64 S8x3072x64 S8x3072x3072 [2] [2] [1] [1] [0] [0]
  gather_S8x3072x3072_S98304x3_S98304_n_012_n_n_012_1_111_wf : GatherDims.WF S8x3072x3072 S98304x3 S98304 [] [0, 1, 2] [] [0, 1, 2] [] 1 ![1, 1, 1]
  scatter_S8x3072x3072_S98304x3_S98304_n_012_012_1_wf : ScatterDims.WF S8x3072x3072 S98304x3 S98304 [] [0, 1, 2] [0, 1, 2] 1
  dot_S8x3072x3072_S8x3072x64_S8x3072x64_2_1_1_2_0_0_wf : DotDims.WF S8x3072x3072 S8x3072x64 S8x3072x64 [2] [1] [1] [2] [0] [0]

variable [Facts₀]

def dot_S3072x512_S512x512_S3072x512_1_0_0_1_n_n : DotDims S3072x512 S512x512 S3072x512 where
  lhsContracting := [1]
  rhsContracting := [0]
  lhsNonContracting := [0]
  rhsNonContracting := [1]
  lhsBatch := []
  rhsBatch := []
  wf := dot_S3072x512_S512x512_S3072x512_1_0_0_1_n_n_wf
def dot_S8x3072x64_S8x3072x64_S8x3072x3072_2_2_1_1_0_0 : DotDims S8x3072x64 S8x3072x64 S8x3072x3072 where
  lhsContracting := [2]
  rhsContracting := [2]
  lhsNonContracting := [1]
  rhsNonContracting := [1]
  lhsBatch := [0]
  rhsBatch := [0]
  wf := dot_S8x3072x64_S8x3072x64_S8x3072x3072_2_2_1_1_0_0_wf
def gather_S8x3072x3072_S98304x3_S98304_n_012_n_n_012_1_111 : GatherDims S8x3072x3072 S98304x3 S98304 where
  offsetDims := []
  collapsedSliceDims := [0, 1, 2]
  operandBatchingDims := []
  startIndicesBatchingDims := []
  startIndexMap := [0, 1, 2]
  indexVectorDim := 1
  sliceSizes := ![1, 1, 1]
  wf := gather_S8x3072x3072_S98304x3_S98304_n_012_n_n_012_1_111_wf
def scatter_S8x3072x3072_S98304x3_S98304_n_012_012_1 : ScatterDims S8x3072x3072 S98304x3 S98304 where
  updateWindowDims := []
  insertedWindowDims := [0, 1, 2]
  scatterDimsToOperandDims := [0, 1, 2]
  indexVectorDim := 1
  wf := scatter_S8x3072x3072_S98304x3_S98304_n_012_012_1_wf
def dot_S8x3072x3072_S8x3072x64_S8x3072x64_2_1_1_2_0_0 : DotDims S8x3072x3072 S8x3072x64 S8x3072x64 where
  lhsContracting := [2]
  rhsContracting := [1]
  lhsNonContracting := [1]
  rhsNonContracting := [2]
  lhsBatch := [0]
  rhsBatch := [0]
  wf := dot_S8x3072x3072_S8x3072x64_S8x3072x64_2_1_1_2_0_0_wf

class Facts : Prop extends Facts₀ where

variable [Facts]
-- ==== Proof.Region0K.lean ====
/-
  The first pallas_call (the dense layer x·W + b over 640 columns, on a grid of six row blocks), at the buffer
  contents `V` the region is entered with: each window's block at a grid point, the contents the kernel body leaves
  in the output window's staging buffer as a function of the three input blocks, and the body's obligation to the
  pipeline that calls it at every point.
-/
import proofs.«424312_j34505767256362_2_alg».proof.Proof.Gen.Kernel.Launch
import proofs.«424312_j34505767256362_2_alg».proof.Proof.Gen.Kernel.Skeleton
import proofs.«424312_j34505767256362_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each of the four staging buffers whole -/

abbrev r0_0 : Rect S512x512 := Rect.unit (s := S512x512) ![0, 0] S512x512.size inb_S512x512_S512x512_0_0
abbrev r0_1 : Rect S512x640 := Rect.unit (s := S512x640) ![0, 0] S512x640.size inb_S512x640_S512x640_0_0
abbrev r0_2 : Rect S1x640 := Rect.unit (s := S1x640) ![0, 0] S1x640.size inb_S1x640_S1x640_0_0

/-! ## What the body leaves in the output window's buffer -/

/-- The output window's staging buffer after the body, from the three input blocks: its one store, of the whole
    rectangle, of the dense layer's value on the loaded blocks. -/
def out0_3 (x0 : Vec F S512x512 .f32) (x1 : Vec F S512x640 .f32) (x2 : Vec F S1x640 .f32) : Vec F S512x640 .f32 :=
  View.canon [⟨r0_1, k0_pay1 (View.ld x0 r0_0) (View.ld x1 r0_1) (View.ld x2 r0_2)⟩]

/-! ## The pipeline's proof data -/

/-- The proof data of the first pipeline on core `c`: the arrays as the region finds them; after the body at point
    `t` each input's buffer still at its block and the output's at `out0_3` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- An input window's current staging buffer holds its block at every point, fetched there or not: where it is not
    fetched its block index has not moved since the point before. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body's triple -/

/-- The one store is of the whole buffer, so it covers it. -/
theorem cover0_3 (p0 : Vec F S512x640 .f32) (y : S512x640.Idx) :
    ∃ pc ∈ ([⟨r0_1, p0⟩] : List (View.Piece (Elt F) S512x640 .f32)), y ∈ pc.1.set :=
  View.cover_of_tiled [⟨r0_1, p0⟩] S512x640.size (by rfl) y

set_option maxHeartbeats 1000000 in
/-- The kernel body on whole staging memrefs, the inputs' at read contents `x0 x1 x2` and the output's at anything,
    runs to the continuation holding the inputs' as they were and the output's at `out0_3` of the inputs': three
    loads of whole blocks, a load of the output buffer whose value is not used, and one store of the whole output
    rectangle. -/
theorem sound_kernel0 (c : Dev nD) (E : Set ℕ) (i : grid0.Coords)
    (arg1 : Memref sig .tc .vmem S512x512 .f32) (harg1 : arg1.IsWhole)
    (arg2 : Memref sig .tc .vmem S512x640 .f32) (harg2 : arg2.IsWhole)
    (arg3 : Memref sig .tc .vmem S1x640 .f32) (harg3 : arg3.IsWhole)
    (arg4 : Memref sig .tc .vmem S512x640 .f32) (harg4 : arg4.IsWhole)
    (x0 : Vec F S512x512 .f32) (x1 : Vec F S512x640 .f32) (x2 : Vec F S1x640 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Region1K.lean ====
/-
  The second pallas_call (per block of 384 nodes: the column mean it is handed, spread over the first 448 columns,
  and the softmax-weighted sum of the last head's v in the last 64), at the buffer contents `V` the region is entered
  with: each window's block at a grid point, the contents the kernel body leaves in the output window's staging
  buffer as a function of the five input blocks, and the body's obligation to the pipeline that calls it at every
  point.
-/
import proofs.«424312_j34505767256362_2_alg».proof.Proof.Gen.Kernel.Launch
import proofs.«424312_j34505767256362_2_alg».proof.Proof.Gen.Kernel.Skeleton
import proofs.«424312_j34505767256362_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: the five input staging buffers whole; the output's in two column bands -/

abbrev r1_0 : Rect S384x64 := Rect.unit (s := S384x64) ![0, 0] S384x64.size inb_S384x64_S384x64_0_0
abbrev r1_1 : Rect S3072x64 := Rect.unit (s := S3072x64) ![0, 0] S3072x64.size inb_S3072x64_S3072x64_0_0
abbrev r1_2 : Rect S3072x64 := Rect.unit (s := S3072x64) ![0, 0] S3072x64.size inb_S3072x64_S3072x64_0_0
abbrev r1_3 : Rect S1x448 := Rect.unit (s := S1x448) ![0, 0] S1x448.size inb_S1x448_S1x448_0_0
abbrev r1_4 : Rect S384x3072 := Rect.unit (s := S384x3072) ![0, 0] S384x3072.size inb_S384x3072_S384x3072_0_0
/-- Columns [0, 448) of the output block. -/
abbrev r1_A : Rect S384x512 := Rect.unit (s := S384x512) ![0, 0] S384x448.size inb_S384x512_S384x448_0_0
/-- Columns [448, 512) of the output block. -/
abbrev r1_B : Rect S384x512 := Rect.unit (s := S384x512) ![0, 448] S384x64.size inb_S384x512_S384x64_0_448

/-! ## What the body leaves in the output window's buffer -/

/-- The output window's staging buffer after the body, from the five input blocks: its two stores as pieces, the
    LAST store first — the attention value into columns [448, 512), over the mean row spread into columns [0, 448). -/
def out1_5 (x0 : Vec F S384x64 .f32) (x1 x2 : Vec F S3072x64 .f32) (x3 : Vec F S1x448 .f32) (x4 : Vec F S384x3072 .bf16) :
    Vec F S384x512 .f32 :=
  View.canon [⟨r1_B, k1_pay1 (View.ld x0 r1_0) (View.ld x1 r1_1) (View.ld x2 r1_2) (View.ld x4 r1_4)⟩,
    ⟨r1_A, k1_pay2 (View.ld x3 r1_3)⟩]

/-! ## The pipeline's proof data -/

/-- The proof data of the second pipeline on core `c`: the arrays as the region finds them; after the body at point
    `t` each input's buffer still at its block and the output's at `out1_5` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-- An input window's current staging buffer holds its block at every point, fetched there or not: where it is not
    fetched its block index has not moved since the point before. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body's triple -/

/-- The two stores' rectangles, cut into bands of 64 columns, are the eight bands of the 512 columns: they cover the
    buffer. -/
theorem cover1_5 (p0 : Vec F S384x64 .f32) (p1 : Vec F S384x448 .f32) (y : S384x512.Idx) :
    ∃ pc ∈ ([⟨r1_B, p0⟩, ⟨r1_A, p1⟩] : List (View.Piece (Elt F) S384x512 .f32)), y ∈ pc.1.set :=
  View.cover_of_tiledBy [⟨r1_B, p0⟩, ⟨r1_A, p1⟩] ![384, 64] (by sl_kernel_rfl) y

set_option maxHeartbeats 1000000 in
/-- The kernel body on whole staging memrefs, the inputs' at read contents `x0 … x4` and the output's at anything,
    runs to the continuation holding the inputs' as they were and the output's at `out1_5` of the inputs': five loads
    of whole blocks, and for each of the two column bands a load of the band whose value is not used and then a store
    of the band. -/
theorem sound_kernel1 (c : Dev nD) (E : Set ℕ) (i : grid1.Coords)
    (arg1 : Memref sig .tc .vmem S384x64 .f32) (harg1 : arg1.IsWhole)
    (arg2 : Memref sig .tc .vmem S3072x64 .f32) (harg2 : arg2.IsWhole)
    (arg3 : Memref sig .tc .vmem S3072x64 .f32) (harg3 : arg3.IsWhole)
    (arg4 : Memref sig .tc .vmem S1x448 .f32) (harg4 : arg4.IsWhole)
    (arg5 : Memref sig .tc .vmem S384x3072 .bf16) (harg5 : arg5.IsWhole)
    (arg6 : Memref sig .tc .vmem S384x512 .f32) (harg6 : arg6.IsWhole)
    (x0 : Vec F S384x64 .f32) (x1 x2 : Vec F S3072x64 .f32) (x3 : Vec F S1x448 .f32) (x4 : Vec F S384x3072 .bf16)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__attn_out_kernel i arg1 harg1 arg2 harg2 arg3 harg3 arg4 harg4 arg5 harg5 arg6 harg6) K := by
  simp only [cc1__attn_out_kernel_eq_skeleton]; unfold cc1__attn_out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _ _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.RunK.lean ====
/-
  The run of the whole program: a stretch of host operations (the weight and bias slices and concatenations), the
  first pallas_call, a second stretch of host operations (the slices of its result, the column mean, the edge
  indicator), the second pallas_call.  The buffer contents at each of the five boundaries are written as a fold from
  the launch memory: a host stretch leaves what its operations compute, a call leaves each of its windowed arrays at
  what the pipeline's write-backs fold into it and every other buffer as it was.  The theorem `run_main` says that
  every weakly fair execution terminates and that the final memory holds, in EVERY unscoped buffer of every core,
  the last boundary's contents `W4`; `frame` reads the eight argument arrays off it, each as launched.
-/
import proofs.«424312_j34505767256362_2_alg».proof.Proof.Gen.Kernel.Launch
import proofs.«424312_j34505767256362_2_alg».proof.Proof.Gen.Kernel.Skeleton
import proofs.«424312_j34505767256362_2_alg».proof.Proof.Gen.Kernel.Points
import proofs.«424312_j34505767256362_2_alg».proof.Proof.Gen.Kernel.Regions
import proofs.«424312_j34505767256362_2_alg».proof.Proof.Region0K
import proofs.«424312_j34505767256362_2_alg».proof.Proof.Region1K
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- The launch state: memory `m`, every semaphore counter at zero, the generator registers at `ρ`. -/
abbrev s₀ : MemSt nD τ sig (Elt F) := ⟨m, fun _ => 0, ρ⟩
/-- Core `c`'s buffers at launch. -/
abbrev W0 : Dev nD → Valuation τ sig (Elt F) := fun c b => (s₀ m ρ).mem ((c : Dev nD), b)
/-- After the first host stretch (the first call's entry). -/
abbrev W1 : Dev nD → Valuation τ sig (Elt F) := fun c => StableHlo.after hostOps0 (W0 m ρ c)
/-- The same read at the TensorCore's references (what the first call's proof data take). -/
abbrev V1 : (c : Dev nD) → (b : Ref sig .tc) → Buf (Elt F) ((c : Thread nD τ).loc b) := fun c b => W1 m ρ c b
/-- At the first call's exit: its four windowed arrays at what the pipeline leaves (the three inputs as entered, the
    output's write-backs folded over the six grid points), every other buffer as entered. -/
def W2 (c : Dev nD) : Valuation τ sig (Elt F) :=
  Pipeline.withArrays spec0 c (W1 m ρ c) fun w => (dat0 (V1 m ρ) c).arrAt w cfg0.N
/-- At the first call's exit a windowed array holds what the pipeline leaves in it, -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- and a buffer that is no windowed array of the call holds what it held at entry. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the first call's exit contents). -/
abbrev V2 : (c : Dev nD) → (b : Ref sig .tc) → Buf (Elt F) ((c : Thread nD τ).loc b) := fun c b => W2 m ρ c b
/-- The two facts above in the form the exit of the call takes them: the arrays, -/
theorem hF0 (c : Dev nD) (w : Fin cfg0.W) : (dat0 (V1 m ρ) c).arrAt w cfg0.N = V2 m ρ c (Pipeline.arrRef spec0 w) :=
  (W2_arr m ρ c w).symm
/-- and the rest. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second call's entry). -/
abbrev W3 : Dev nD → Valuation τ sig (Elt F) := fun c => StableHlo.after hostOps1 (W2 m ρ c)
/-- The same read at the TensorCore's references (what the second call's proof data take). -/
abbrev V3 : (c : Dev nD) → (b : Ref sig .tc) → Buf (Elt F) ((c : Thread nD τ).loc b) := fun c b => W3 m ρ c b
/-- At the second call's exit: its six windowed arrays at what the pipeline leaves (the five inputs as entered, the
    output's write-backs folded over the eight grid points), every other buffer as entered. -/
def W4 (c : Dev nD) : Valuation τ sig (Elt F) :=
  Pipeline.withArrays spec1 c (W3 m ρ c) fun w => (dat1 (V3 m ρ) c).arrAt w cfg1.N
/-- At the second call's exit a windowed array holds what the pipeline leaves in it, -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- and a buffer that is no windowed array of the call holds what it held at entry. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (the second call's exit contents). -/
abbrev V4 : (c : Dev nD) → (b : Ref sig .tc) → Buf (Elt F) ((c : Thread nD τ).loc b) := fun c b => W4 m ρ c b
/-- The two facts above in the form the exit of the call takes them: the arrays, -/
theorem hF1 (c : Dev nD) (w : Fin cfg1.W) : (dat1 (V3 m ρ) c).arrAt w cfg1.N = V4 m ρ c (Pipeline.arrRef spec1 w) :=
  (W4_arr m ρ c w).symm
/-- and the rest. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched

No host operation writes an argument (each writes its own result buffer, and the two lists of results are decided
not to contain it), the second call windows no argument, and the first windows only the node features, as an
INPUT, which a pipeline leaves as it found it.  So the fold read at an argument walks back to the launch memory. -/

/-- The node features `x`: input window 0 of the first call. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
/-- The edge list: windowed by neither call. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
/-- The query layer's weights: windowed by neither call. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
/-- The key layer's weights: windowed by neither call. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
/-- The value layer's weights: windowed by neither call. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
/-- The query layer's bias: windowed by neither call. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
/-- The key layer's bias: windowed by neither call. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
/-- The value layer's bias: windowed by neither call. -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-! ## The proof data family and the thread state -/

/-- The prefetched tables' admissible contents: neither call has a table. -/
abbrev adm : (p : Fin 2) → (pcfgs (F := F) p).Adm := fun p => (cfgs p).toPCfg_adm
/-- Both calls' proof data, each at its call's entry contents (a literal `match`, so that at a numeral it reduces
    to the call's own). -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (each call's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along: it leaves them
    at what its operations compute from `W`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, beside the core owing nothing: every unscoped buffer at the last boundary's contents
    `W4`, the generator register at some state. -/
abbrev Tₙ (c : Dev nD) : sProp 𝕄 := iprop(StableHlo.held (c : Thread nD τ) (Pipeline.ucRefs τ sig) (W4 m ρ c) ∗ ∃ r, prngReg c r)

/-! ## The calls as segments -/

-- a lemma stated over the pinned configuration at `p` unifies with the call's own configuration only when
-- unification may unfold plain definitions in a metavariable's type
set_option backward.isDefEq.respectTransparency.types false in
/-- THE FIRST CALL over the thread state: entered from every unscoped buffer at `W1`, left at `W2`.  Its four
    arrays are split out of the unscoped buffers at entry and put back at their exit contents; the generator
    register goes into the call's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND CALL over the thread state: entered from every unscoped buffer at `W3`, left at `W4`, which is what
    the final memory is read against.  Its six arrays are split out of the unscoped buffers at entry and put back at
    their exit contents; the generator register goes into the call's invariant and comes out; nothing is owed; the
    kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program IS the run of the segments: it is the chain of its four items, and the segments' run unfolds to that
    chain. -/
theorem main_run (c : Dev nD) : main (F := F) c = Pipeline.Seg.run (segs m ρ) := (main_chain c).trans (by chain_rfl)

set_option backward.isDefEq.respectTransparency.types false in
/-- THE RUN, at any `F`: from any memory `m` with zero counters, every weakly fair execution of the program on the
    TensorCores terminates, nothing faulting, and the final memory holds in every unscoped buffer of every core the
    last boundary's contents `W4`.  The thread states chain by name (each segment is entered from exactly what the one
    before it left); the launch deals the unscoped buffers at `W0`, the generator register and an empty debt; the
    last thread state is read against the final state buffer by buffer. -/
theorem run_main : θ_run defs (onTc (τ := τ) (main (F := F))) ⟨m, fun _ => 0, ρ⟩
    (fun r => ∀ c : Dev nD, ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME, at any `F`: every weakly fair execution terminates and every final memory has the eight argument
    arrays as launched — each is an unscoped buffer, read off `run_main`'s post at its reference and walked back
    through the fold (`W4_main_arg0` … `W4_main_arg7`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_main m ρ)

/-- info: 'Cert.Kernel.Hand.frame' depends on axioms: [propext, Classical.choice, Quot.sound] -/
#guard_msgs in #print axioms frame

end Cert.Kernel.Hand

end
-- ==== Proof.Region0.lean ====
/-
  The first pallas_call (the dense layer x·W + b over 640 columns, on a grid of six row blocks), at the buffer
  contents `V` the region is entered with: each window's block at a grid point, the contents the kernel body leaves
  in the output window's staging buffer as a function of the three input blocks, and the body's obligation to the
  pipeline that calls it at every point.
-/
import proofs.«424312_j34505767256362_2_alg».proof.Proof.Gen.KernelIdeal.Launch
import proofs.«424312_j34505767256362_2_alg».proof.Proof.Gen.KernelIdeal.Skeleton
import proofs.«424312_j34505767256362_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: each of the four staging buffers whole -/

abbrev r0_0 : Rect S512x512 := Rect.unit (s := S512x512) ![0, 0] S512x512.size inb_S512x512_S512x512_0_0
abbrev r0_1 : Rect S512x640 := Rect.unit (s := S512x640) ![0, 0] S512x640.size inb_S512x640_S512x640_0_0
abbrev r0_2 : Rect S1x640 := Rect.unit (s := S1x640) ![0, 0] S1x640.size inb_S1x640_S1x640_0_0

/-! ## What the body leaves in the output window's buffer -/

/-- The output window's staging buffer after the body, from the three input blocks: its one store, of the whole
    rectangle, of the dense layer's value on the loaded blocks. -/
def out0_3 (x0 : Vec F S512x512 .f32) (x1 : Vec F S512x640 .f32) (x2 : Vec F S1x640 .f32) : Vec F S512x640 .f32 :=
  View.canon [⟨r0_1, k0_pay1 (View.ld x0 r0_0) (View.ld x1 r0_1) (View.ld x2 r0_2)⟩]

/-! ## The pipeline's proof data -/

/-- The proof data of the first pipeline on core `c`: the arrays as the region finds them; after the body at point
    `t` each input's buffer still at its block and the output's at `out0_3` of the input blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- An input window's current staging buffer holds its block at every point, fetched there or not: where it is not
    fetched its block index has not moved since the point before. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

/-! ## The body's triple -/

/-- The one store is of the whole buffer, so it covers it. -/
theorem cover0_3 (p0 : Vec F S512x640 .f32) (y : S512x640.Idx) :
    ∃ pc ∈ ([⟨r0_1, p0⟩] : List (View.Piece (Elt F) S512x640 .f32)), y ∈ pc.1.set :=
  View.cover_of_tiled [⟨r0_1, p0⟩] S512x640.size (by rfl) y

set_option maxHeartbeats 1000000 in
/-- The kernel body on whole staging memrefs, the inputs' at read contents `x0 x1 x2` and the output's at anything,
    runs to the continuation holding the inputs' as they were and the output's at `out0_3` of the inputs': three
    loads of whole blocks, a load of the output buffer whose value is not used, and one store of the whole output
    rectangle. -/
theorem sound_kernel0 (c : Dev nD) (E : Set ℕ) (i : grid0.Coords)
    (arg1 : Memref sig .tc .vmem S512x512 .f32) (harg1 : arg1.IsWhole)
    (arg2 : Memref sig .tc .vmem S512x640 .f32) (harg2 : arg2.IsWhole)
    (arg3 : Memref sig .tc .vmem S1x640 .f32) (harg3 : arg3.IsWhole)
    (arg4 : Memref sig .tc .vmem S512x640 .f32) (harg4 : arg4.IsWhole)
    (x0 : Vec F S512x512 .f32) (x1 : Vec F S512x640 .f32) (x2 : Vec F S1x640 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region1.lean ====
/-
  The second pallas_call (per block of 384 nodes: the column mean it is handed, spread over the first 448 columns,
  and the softmax-weighted sum of the last head's v in the last 64), at the buffer contents `V` the region is entered
  with: each window's block at a grid point, the contents the kernel body leaves in the output window's staging
  buffer as a function of the five input blocks, and the body's obligation to the pipeline that calls it at every
  point.
-/
import proofs.«424312_j34505767256362_2_alg».proof.Proof.Gen.KernelIdeal.Launch
import proofs.«424312_j34505767256362_2_alg».proof.Proof.Gen.KernelIdeal.Skeleton
import proofs.«424312_j34505767256362_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of these extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: the five input staging buffers whole; the output's in two column bands -/

abbrev r1_0 : Rect S384x64 := Rect.unit (s := S384x64) ![0, 0] S384x64.size inb_S384x64_S384x64_0_0
abbrev r1_1 : Rect S3072x64 := Rect.unit (s := S3072x64) ![0, 0] S3072x64.size inb_S3072x64_S3072x64_0_0
abbrev r1_2 : Rect S3072x64 := Rect.unit (s := S3072x64) ![0, 0] S3072x64.size inb_S3072x64_S3072x64_0_0
abbrev r1_3 : Rect S1x448 := Rect.unit (s := S1x448) ![0, 0] S1x448.size inb_S1x448_S1x448_0_0
abbrev r1_4 : Rect S384x3072 := Rect.unit (s := S384x3072) ![0, 0] S384x3072.size inb_S384x3072_S384x3072_0_0
/-- Columns [0, 448) of the output block. -/
abbrev r1_A : Rect S384x512 := Rect.unit (s := S384x512) ![0, 0] S384x448.size inb_S384x512_S384x448_0_0
/-- Columns [448, 512) of the output block. -/
abbrev r1_B : Rect S384x512 := Rect.unit (s := S384x512) ![0, 448] S384x64.size inb_S384x512_S384x64_0_448

/-! ## What the body leaves in the output window's buffer -/

/-- The output window's staging buffer after the body, from the five input blocks: its two stores as pieces, the
    LAST store first — the attention value into columns [448, 512), over the mean row spread into columns [0, 448). -/
def out1_5 (x0 : Vec F S384x64 .f32) (x1 x2 : Vec F S3072x64 .f32) (x3 : Vec F S1x448 .f32) (x4 : Vec F S384x3072 .bf16) :
    Vec F S384x512 .f32 :=
  View.canon [⟨r1_B, k1_pay1 (View.ld x0 r1_0) (View.ld x1 r1_1) (View.ld x2 r1_2) (View.ld x4 r1_4)⟩,
    ⟨r1_A, k1_pay2 (View.ld x3 r1_3)⟩]

/-! ## The pipeline's proof data -/

/-- The proof data of the second pipeline on core `c`: the arrays as the region finds them; after the body at point
    `t` each input's buffer still at its block and the output's at `out1_5` of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by
  dsimp only [dat1]

/-- An input window's current staging buffer holds its block at every point, fetched there or not: where it is not
    fetched its block index has not moved since the point before. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body's triple -/

/-- The two stores' rectangles, cut into bands of 64 columns, are the eight bands of the 512 columns: they cover the
    buffer. -/
theorem cover1_5 (p0 : Vec F S384x64 .f32) (p1 : Vec F S384x448 .f32) (y : S384x512.Idx) :
    ∃ pc ∈ ([⟨r1_B, p0⟩, ⟨r1_A, p1⟩] : List (View.Piece (Elt F) S384x512 .f32)), y ∈ pc.1.set :=
  View.cover_of_tiledBy [⟨r1_B, p0⟩, ⟨r1_A, p1⟩] ![384, 64] (by sl_kernel_rfl) y

set_option maxHeartbeats 1000000 in
/-- The kernel body on whole staging memrefs, the inputs' at read contents `x0 … x4` and the output's at anything,
    runs to the continuation holding the inputs' as they were and the output's at `out1_5` of the inputs': five loads
    of whole blocks, and for each of the two column bands a load of the band whose value is not used and then a store
    of the band. -/
theorem sound_kernel1 (c : Dev nD) (E : Set ℕ) (i : grid1.Coords)
    (arg1 : Memref sig .tc .vmem S384x64 .f32) (harg1 : arg1.IsWhole)
    (arg2 : Memref sig .tc .vmem S3072x64 .f32) (harg2 : arg2.IsWhole)
    (arg3 : Memref sig .tc .vmem S3072x64 .f32) (harg3 : arg3.IsWhole)
    (arg4 : Memref sig .tc .vmem S1x448 .f32) (harg4 : arg4.IsWhole)
    (arg5 : Memref sig .tc .vmem S384x3072 .bf16) (harg5 : arg5.IsWhole)
    (arg6 : Memref sig .tc .vmem S384x512 .f32) (harg6 : arg6.IsWhole)
    (x0 : Vec F S384x64 .f32) (x1 x2 : Vec F S3072x64 .f32) (x3 : Vec F S1x448 .f32) (x4 : Vec F S384x3072 .bf16)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E
          (cc1__attn_out_kernel i arg1 harg1 arg2 harg2 arg3 harg3 arg4 harg4 arg5 harg5 arg6 harg6) K := by
  simp only [cc1__attn_out_kernel_eq_skeleton]; unfold cc1__attn_out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _ _)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.RunKI.lean ====
/-
  The run of the whole program: a stretch of host operations (the weight and bias slices and concatenations), the
  first pallas_call, a second stretch of host operations (the slices of its result, the column mean, the edge
  indicator), the second pallas_call.  The buffer contents at each of the five boundaries are written as a fold from
  the launch memory: a host stretch leaves what its operations compute, a call leaves each of its windowed arrays at
  what the pipeline's write-backs fold into it and every other buffer as it was.  The theorem `run_main` says that
  every weakly fair execution terminates and that the final memory holds, in EVERY unscoped buffer of every core,
  the last boundary's contents `W4`; `frame` reads the eight argument arrays off it, each as launched.
-/
import proofs.«424312_j34505767256362_2_alg».proof.Proof.Gen.KernelIdeal.Launch
import proofs.«424312_j34505767256362_2_alg».proof.Proof.Gen.KernelIdeal.Skeleton
import proofs.«424312_j34505767256362_2_alg».proof.Proof.Gen.KernelIdeal.Points
import proofs.«424312_j34505767256362_2_alg».proof.Proof.Gen.KernelIdeal.Regions
import proofs.«424312_j34505767256362_2_alg».proof.Proof.Region0
import proofs.«424312_j34505767256362_2_alg».proof.Proof.Region1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary: a fold through the program -/

/-- The launch state: memory `m`, every semaphore counter at zero, the generator registers at `ρ`. -/
abbrev s₀ : MemSt nD τ sig (Elt F) := ⟨m, fun _ => 0, ρ⟩
/-- Core `c`'s buffers at launch. -/
abbrev W0 : Dev nD → Valuation τ sig (Elt F) := fun c b => (s₀ m ρ).mem ((c : Dev nD), b)
/-- After the first host stretch (the first call's entry). -/
abbrev W1 : Dev nD → Valuation τ sig (Elt F) := fun c => StableHlo.after hostOps0 (W0 m ρ c)
/-- The same read at the TensorCore's references (what the first call's proof data take). -/
abbrev V1 : (c : Dev nD) → (b : Ref sig .tc) → Buf (Elt F) ((c : Thread nD τ).loc b) := fun c b => W1 m ρ c b
/-- At the first call's exit: its four windowed arrays at what the pipeline leaves (the three inputs as entered, the
    output's write-backs folded over the six grid points), every other buffer as entered. -/
def W2 (c : Dev nD) : Valuation τ sig (Elt F) :=
  Pipeline.withArrays spec0 c (W1 m ρ c) fun w => (dat0 (V1 m ρ) c).arrAt w cfg0.N
/-- At the first call's exit a windowed array holds what the pipeline leaves in it, -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- and a buffer that is no windowed array of the call holds what it held at entry. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the first call's exit contents). -/
abbrev V2 : (c : Dev nD) → (b : Ref sig .tc) → Buf (Elt F) ((c : Thread nD τ).loc b) := fun c b => W2 m ρ c b
/-- The two facts above in the form the exit of the call takes them: the arrays, -/
theorem hF0 (c : Dev nD) (w : Fin cfg0.W) : (dat0 (V1 m ρ) c).arrAt w cfg0.N = V2 m ρ c (Pipeline.arrRef spec0 w) :=
  (W2_arr m ρ c w).symm
/-- and the rest. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the second call's entry). -/
abbrev W3 : Dev nD → Valuation τ sig (Elt F) := fun c => StableHlo.after hostOps1 (W2 m ρ c)
/-- The same read at the TensorCore's references (what the second call's proof data take). -/
abbrev V3 : (c : Dev nD) → (b : Ref sig .tc) → Buf (Elt F) ((c : Thread nD τ).loc b) := fun c b => W3 m ρ c b
/-- At the second call's exit: its six windowed arrays at what the pipeline leaves (the five inputs as entered, the
    output's write-backs folded over the eight grid points), every other buffer as entered. -/
def W4 (c : Dev nD) : Valuation τ sig (Elt F) :=
  Pipeline.withArrays spec1 c (W3 m ρ c) fun w => (dat1 (V3 m ρ) c).arrAt w cfg1.N
/-- At the second call's exit a windowed array holds what the pipeline leaves in it, -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- and a buffer that is no windowed array of the call holds what it held at entry. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (the second call's exit contents). -/
abbrev V4 : (c : Dev nD) → (b : Ref sig .tc) → Buf (Elt F) ((c : Thread nD τ).loc b) := fun c b => W4 m ρ c b
/-- The two facts above in the form the exit of the call takes them: the arrays, -/
theorem hF1 (c : Dev nD) (w : Fin cfg1.W) : (dat1 (V3 m ρ) c).arrAt w cfg1.N = V4 m ρ c (Pipeline.arrRef spec1 w) :=
  (W4_arr m ρ c w).symm
/-- and the rest. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The arguments end as launched

No host operation writes an argument (each writes its own result buffer, and the two lists of results are decided
not to contain it), the second call windows no argument, and the first windows only the node features, as an
INPUT, which a pipeline leaves as it found it.  So the fold read at an argument walks back to the launch memory. -/

/-- The node features `x`: input window 0 of the first call. -/
theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
/-- The edge list: windowed by neither call. -/
theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_writes_sub hostOps1 _ hostOps1_writes (by decide)
    _ = W1 m ρ c (Proc.devRef .tc main_arg1) := W2_of_ne m ρ c main_arg1 (by decide)
    _ = W0 m ρ c (Proc.devRef .tc main_arg1) := StableHlo.after_of_writes_sub hostOps0 _ hostOps0_writes (by decide)
    _ = m ((c : Thread nD τ).loc main_arg1) := rfl
/-- The query layer's weights: windowed by neither call. -/
theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
/-- The key layer's weights: windowed by neither call. -/
theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := W2_of_ne m ρ c main_arg3 (by decide)
    _ = W0 m ρ c (Proc.devRef .tc main_arg3) := StableHlo.after_of_writes_sub hostOps0 _ hostOps0_writes (by decide)
    _ = m ((c : Thread nD τ).loc main_arg3) := rfl
/-- The value layer's weights: windowed by neither call. -/
theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
/-- The query layer's bias: windowed by neither call. -/
theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := W2_of_ne m ρ c main_arg5 (by decide)
    _ = W0 m ρ c (Proc.devRef .tc main_arg5) := StableHlo.after_of_writes_sub hostOps0 _ hostOps0_writes (by decide)
    _ = m ((c : Thread nD τ).loc main_arg5) := rfl
/-- The key layer's bias: windowed by neither call. -/
theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := W2_of_ne m ρ c main_arg6 (by decide)
    _ = W0 m ρ c (Proc.devRef .tc main_arg6) := StableHlo.after_of_writes_sub hostOps0 _ hostOps0_writes (by decide)
    _ = m ((c : Thread nD τ).loc main_arg6) := rfl
/-- The value layer's bias: windowed by neither call. -/
theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-! ## The proof data family and the thread state -/

/-- The prefetched tables' admissible contents: neither call has a table. -/
abbrev adm : (p : Fin 2) → (pcfgs (F := F) p).Adm := fun p => (cfgs p).toPCfg_adm
/-- Both calls' proof data, each at its call's entry contents (a literal `match`, so that at a numeral it reduces
    to the call's own). -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (each call's
    invariant takes it in and gives it back) and the core owing nothing. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along: it leaves them
    at what its operations compute from `W`, the next boundary's contents by name. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, beside the core owing nothing: every unscoped buffer at the last boundary's contents
    `W4`, the generator register at some state. -/
abbrev Tₙ (c : Dev nD) : sProp 𝕄 := iprop(StableHlo.held (c : Thread nD τ) (Pipeline.ucRefs τ sig) (W4 m ρ c) ∗ ∃ r, prngReg c r)

/-! ## The calls as segments -/

-- a lemma stated over the pinned configuration at `p` unifies with the call's own configuration only when
-- unification may unfold plain definitions in a metavariable's type
set_option backward.isDefEq.respectTransparency.types false in
/-- THE FIRST CALL over the thread state: entered from every unscoped buffer at `W1`, left at `W2`.  Its four
    arrays are split out of the unscoped buffers at entry and put back at their exit contents; the generator
    register goes into the call's invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- THE SECOND CALL over the thread state: entered from every unscoped buffer at `W3`, left at `W4`, which is what
    the final memory is read against.  Its six arrays are split out of the unscoped buffers at entry and put back at
    their exit contents; the generator register goes into the call's invariant and comes out; nothing is owed; the
    kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order: a host segment per stretch from its boundary's contents, a region per call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program IS the run of the segments: it is the chain of its four items, and the segments' run unfolds to that
    chain. -/
theorem main_run (c : Dev nD) : main (F := F) c = Pipeline.Seg.run (segs m ρ) := (main_chain c).trans (by chain_rfl)

set_option backward.isDefEq.respectTransparency.types false in
/-- THE RUN, at any `F`: from any memory `m` with zero counters, every weakly fair execution of the program on the
    TensorCores terminates, nothing faulting, and the final memory holds in every unscoped buffer of every core the
    last boundary's contents `W4`.  The thread states chain by name (each segment is entered from exactly what the one
    before it left); the launch deals the unscoped buffers at `W0`, the generator register and an empty debt; the
    last thread state is read against the final state buffer by buffer. -/
theorem run_main : θ_run defs (onTc (τ := τ) (main (F := F))) ⟨m, fun _ => 0, ρ⟩
    (fun r => ∀ c : Dev nD, ∀ b ∈ Pipeline.ucRefs τ sig, r.2.mem ((c : Thread nD τ).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- THE FRAME, at any `F`: every weakly fair execution terminates and every final memory has the eight argument
    arrays as launched — each is an unscoped buffer, read off `run_main`'s post at its reference and walked back
    through the fold (`W4_main_arg0` … `W4_main_arg7`). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c)⟩) (run_main m ρ)

/-- info: 'Cert.KernelIdeal.Hand.frame' depends on axioms: [propext, Classical.choice, Quot.sound] -/
#guard_msgs in #print axioms frame

end Cert.KernelIdeal.Hand

end
-- ==== Proof.Pay0.lean ====
/-
  The first call's body at an index.  The body loads its block of x, the whole weight matrix and the bias row,
  contracts x's columns against the weights' rows into a zero accumulator and adds the bias row to every row; the
  format changes on the way are the identity on the extended reals.  So entry (r, j) of what it stores is row r of
  the x-block against column j of the weights, plus the bias row's entry j.
-/
import proofs.«424312_j34505767256362_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx Idealize.SL.Sem

/-- The left operand's row coordinate is the result's row. -/
theorem lhs_0 (i : S512x640.Idx) (q : dot_S512x512_S512x640_S512x640_1_0_0_1_n_n.contr.Idx) :
    (dot_S512x512_S512x640_S512x640_1_0_0_1_n_n.lhsIdx i q 0).val = (i 0).val := by
  unfold DotDims.lhsIdx
  rw [dif_neg (show ¬(0 : Fin S512x512.rank) ∈ dot_S512x512_S512x640_S512x640_1_0_0_1_n_n.lhsBatch by decide), dif_pos (show (0 : Fin S512x512.rank) ∈ dot_S512x512_S512x640_S512x640_1_0_0_1_n_n.lhsNonContracting by decide)]
  rfl
/-- The left operand's column coordinate is the contraction index. -/
theorem lhs_1 (i : S512x640.Idx) (q : dot_S512x512_S512x640_S512x640_1_0_0_1_n_n.contr.Idx) :
    (dot_S512x512_S512x640_S512x640_1_0_0_1_n_n.lhsIdx i q 1).val = (q ⟨0, by decide⟩).val :=
  dot_S512x512_S512x640_S512x640_1_0_0_1_n_n.lhsIdx_val_of_single rfl i q
/-- The right operand's row coordinate is the contraction index. -/
theorem rhs_0 (i : S512x640.Idx) (q : dot_S512x512_S512x640_S512x640_1_0_0_1_n_n.contr.Idx) :
    (dot_S512x512_S512x640_S512x640_1_0_0_1_n_n.rhsIdx i q 0).val = (q ⟨0, by decide⟩).val :=
  dot_S512x512_S512x640_S512x640_1_0_0_1_n_n.rhsIdx_val_of_single rfl i q
/-- The right operand's column coordinate is the result's column. -/
theorem rhs_1 (i : S512x640.Idx) (q : dot_S512x512_S512x640_S512x640_1_0_0_1_n_n.contr.Idx) :
    (dot_S512x512_S512x640_S512x640_1_0_0_1_n_n.rhsIdx i q 1).val = (i 1).val := by
  unfold DotDims.rhsIdx
  rw [dif_neg (show ¬(1 : Fin S512x640.rank) ∈ dot_S512x512_S512x640_S512x640_1_0_0_1_n_n.rhsBatch by decide), dif_pos (show (1 : Fin S512x640.rank) ∈ dot_S512x512_S512x640_S512x640_1_0_0_1_n_n.rhsNonContracting by decide)]
  rfl

/-- The contraction into a zero accumulator at (r, j): the sum over k of the left operand at (r, k) times the right
    at (k, j). -/
theorem mm0_apply (a : FVec Ideal S512x512 .bf16) (b : FVec Ideal S512x640 .bf16) (r : Fin 512) (j : Fin 640) :
    matmul (F := Ideal) dot_S512x512_S512x640_S512x640_1_0_0_1_n_n none a b (constant (F := Ideal) S512x640 .f32 0x00000000#32) (ix2 r j)
      = ∑ k : Fin 512, a (ix2 r k) * b (ix2 k j) := by
  refine (Ideal.matmul_constant_zero_apply dot_S512x512_S512x640_S512x640_1_0_0_1_n_n none a b (ix2 r j)).trans ?_
  rw [← Equiv.sum_comp (contrEquiv1 dot_S512x512_S512x640_S512x640_1_0_0_1_n_n 512 rfl rfl).symm]
  refine Finset.sum_congr rfl fun k _ => ?_
  have hk := contrEquiv1_symm_val dot_S512x512_S512x640_S512x640_1_0_0_1_n_n 512 rfl rfl k
  have el : dot_S512x512_S512x640_S512x640_1_0_0_1_n_n.lhsIdx (ix2 r j) ((contrEquiv1 dot_S512x512_S512x640_S512x640_1_0_0_1_n_n 512 rfl rfl).symm k) = ix2 r k := funext fun a => Fin.ext (by
    match a with
    | ⟨0, _⟩ => exact lhs_0 _ _
    | ⟨1, _⟩ => exact (lhs_1 _ _).trans hk)
  have er : dot_S512x512_S512x640_S512x640_1_0_0_1_n_n.rhsIdx (ix2 r j) ((contrEquiv1 dot_S512x512_S512x640_S512x640_1_0_0_1_n_n 512 rfl rfl).symm k) = ix2 k j := funext fun a => Fin.ext (by
    match a with
    | ⟨0, _⟩ => exact (rhs_0 _ _).trans hk
    | ⟨1, _⟩ => exact rhs_1 _ _)
  rw [el, er]

/-- THE BODY AT (r, j): row r of the x-block against column j of the weights, plus the bias row's entry j. -/
theorem pay0_apply (v0 : Vec Ideal S512x512 .f32) (v2 : Vec Ideal S512x640 .f32) (v6 : Vec Ideal S1x640 .f32) (r : Fin 512) (j : Fin 640) :
    k0_pay1 (F := Ideal) v0 v2 v6 (ix2 r j) = (∑ k : Fin 512, v0 (ix2 r k) * v2 (ix2 k j)) + v6 (ix2 (0 : Fin 1) j) := by
  unfold k0_pay1
  rw [addf_apply, mm0_apply, shapeCast_self, shapeCast_self, broadcastTo_1b_ab_apply]
  rfl

end Cert.KernelIdeal.Hand

end
-- ==== Proof.Spec.lean ====
/-
  The mathematics of this certificate, stated once and free of both programs.

  A graph-attention layer over N = 3072 nodes, eight heads of width 64, 512 input features: three dense layers
  q, k, v = x·W + b, per-head scores q·kᵀ/√64, and a mask that keeps a score only on the LAST head and only where the
  edge list names the pair (row, column); every other score is replaced by zero; then a row softmax and the
  attention-weighted sum of v.  On the seven heads whose scores are all zero the softmax is uniform, so the output
  there is the column mean of v.  The kernel computes exactly that shortcut; the reference computes the general
  formula.  `Gk` is the result array in the kernel's arrangement, `Gr` in the reference's, both index by index over
  the extended reals; `Gk_eq_Gr` (module Math) joins them when every float input is a real number.
-/
import Idealize.ShloMosaic.PureOps.Ideal
import Idealize.ShloMosaic.Lib.ValueIdx

noncomputable section

open scoped BigOperators

namespace Cert.Spec

open Idealize.ShloMosaic Idealize.ShloMosaic.ValueIdx

/-- Nodes × features: the input `x`, and the result. -/
abbrev SX : Shape := ⟨2, ![3072, 512]⟩
/-- A dense layer's weight matrix. -/
abbrev SW : Shape := ⟨2, ![512, 512]⟩
/-- A dense layer's bias. -/
abbrev SB : Shape := ⟨1, ![512]⟩
/-- The edge list: row 0 the sources, row 1 the destinations. -/
abbrev SE : Shape := ⟨2, ![2, 98304]⟩

/-- Entry (n, j) of a dense layer `x·W + b`: row `n` of `x` against column `j` of `W`, plus the bias. -/
def lin (x : SX.Idx → EReal) (W : SW.Idx → EReal) (b : SB.Idx → EReal) (n : Fin 3072) (j : Fin 512) : EReal :=
  (∑ k : Fin 512, x (ix2 n k) * W (ix2 k j)) + b (ix1 j)

/-- Column `d` of the last head (head 7 of 8, width 64) among a layer's 512 columns. -/
def col7 (d : Fin 64) : Fin 512 := ⟨448 + d.val, by have := d.isLt; omega⟩

/-- jnp's normalisation of an index word against an axis of extent 3072: a negative word has the extent added
    (in 32-bit arithmetic), any other word is kept. -/
def wrapw (w : BitVec 32) : BitVec 32 := if w.toInt < 0 then w + 3072#32 else w

/-- The pair (n, m) is named by some edge: its normalised source word reads `n` and its normalised destination
    word reads `m`, as signed integers.  An edge whose normalised words fall outside the axes names no pair. -/
def hit (ei : SE.Idx → BitVec 32) (n m : Fin 3072) : Prop :=
  ∃ e : Fin 98304, (wrapw (ei (ix2 (0 : Fin 2) e))).toInt = (n.val : Int)
    ∧ (wrapw (ei (ix2 (1 : Fin 2) e))).toInt = (m.val : Int)

/-- A row's maximum as both programs take it: the fold of `max` from the f32 pattern of −∞. -/
def rowMax (r : Fin 3072 → EReal) : EReal :=
  (Finset.univ : Finset (Fin 3072)).fold max (Ideal.ofBits .f32 0xFF800000#32) r

/-- The softmax of a row of 3072 extended reals, entry `m`: subtract the row's maximum, exponentiate, divide by the
    row's sum of exponentials. -/
def smax (r : Fin 3072 → EReal) (m : Fin 3072) : EReal :=
  Ideal.div (Ideal.exp (r m - rowMax r)) (∑ m' : Fin 3072, Ideal.exp (r m' - rowMax r))

section
variable (x : SX.Idx → EReal) (ei : SE.Idx → BitVec 32) (Wq Wk Wv : SW.Idx → EReal) (bq bk bv : SB.Idx → EReal)

open Classical in
/-- The kernel's masked score of the last head at (n, m): the query row scaled by the f32 word of 1/8 BEFORE the
    contraction with the key row, times the edge indicator (one where an edge names the pair, zero elsewhere). -/
def rowK (n m : Fin 3072) : EReal :=
  (∑ d : Fin 64, (lin x Wq bq n (col7 d) * Ideal.ofBits .f32 0x3E000000#32) * lin x Wk bk m (col7 d))
    * (if hit ei n m then 1 else 0)

/-- The result in the kernel's arrangement.  Columns below 448 (heads 0 to 6): the column mean of `v`, the sum
    over the nodes divided by the f32 word of 3072.  Columns from 448 on (head 7): the softmax of the masked
    scores against `v`. -/
def Gk (i : SX.Idx) : EReal :=
  if (i 1).val < 448 then
    Ideal.div (∑ m : Fin 3072, lin x Wv bv m (i 1)) (Ideal.ofBits .f32 0x45400000#32)
  else ∑ m : Fin 3072, smax (rowK x ei Wq Wk bq bk (i 0)) m * lin x Wv bv m (i 1)

/-- The reference's score of the last head at (n, m): the contraction of the query and key rows divided by the
    square root of the f32 word of 64. -/
def sR (n m : Fin 3072) : EReal :=
  Ideal.div (∑ d : Fin 64, lin x Wq bq n (col7 d) * lin x Wk bk m (col7 d))
    (Ideal.sqrt (Ideal.ofBits .f32 0x42800000#32))

open Classical in
/-- The reference's masked score in the head that owns output column `c`, at (n, m): the last head's score where
    `c` lies in the last head (448 ≤ c) and an edge names the pair; zero everywhere else. -/
def rowR (c : Fin 512) (n m : Fin 3072) : EReal :=
  if 448 ≤ c.val ∧ hit ei n m then sR x Wq Wk bq bk n m else 0

/-- The result in the reference's arrangement: at every column the softmax of that column's head's masked
    scores against `v`. -/
def Gr (i : SX.Idx) : EReal :=
  ∑ m : Fin 3072, smax (rowR x ei Wq Wk bq bk (i 1) (i 0)) m * lin x Wv bv m (i 1)

end

end Cert.Spec

end
-- ==== Proof.KSpec.lean ====
/-
  The two pallas_calls' result arrays as whole-array functions of their operand arrays, index by index over the
  extended reals (module Spec has the layer's mathematics).  The first call is one dense layer over the 640 columns
  [q of head 7 | k of head 7 | v of all heads]; the second writes, per node, the column mean it is handed into the
  first 448 columns and the softmax-weighted sum of the last head's v into the last 64.
-/
import proofs.«424312_j34505767256362_2_alg».proof.Proof.Spec

noncomputable section

open scoped BigOperators

namespace Cert.Spec

open Idealize.ShloMosaic Idealize.ShloMosaic.ValueIdx

/-- The first call's result: nodes × 640. -/
abbrev SY : Shape := ⟨2, ![3072, 640]⟩
/-- Its weight operand: 512 × 640. -/
abbrev SWc : Shape := ⟨2, ![512, 640]⟩
/-- Its bias operand, a row: 1 × 640. -/
abbrev SBc : Shape := ⟨2, ![1, 640]⟩
/-- One head's q, k or v: nodes × 64. -/
abbrev SQ : Shape := ⟨2, ![3072, 64]⟩
/-- The column mean handed to the second call, a row: 1 × 448. -/
abbrev SVm : Shape := ⟨2, ![1, 448]⟩
/-- The edge indicator: nodes × nodes. -/
abbrev SM : Shape := ⟨2, ![3072, 3072]⟩

/-- The first call's result array: entry (n, j) is row `n` of `x` against column `j` of the weights, plus the
    bias row's entry `j`. -/
def Yarr (x : SX.Idx → EReal) (w : SWc.Idx → EReal) (b : SBc.Idx → EReal) (i : SY.Idx) : EReal :=
  (∑ k : Fin 512, x (ix2 (i 0) k) * w (ix2 k (i 1))) + b (ix2 (0 : Fin 1) (i 1))

/-- The second call's masked score at (n, m) from its operand arrays: the query row scaled by the f32 word of 1/8,
    contracted with the key row, times the indicator's entry. -/
def rowA (q k : SQ.Idx → EReal) (mask : SM.Idx → EReal) (n m : Fin 3072) : EReal :=
  (∑ d : Fin 64, (q (ix2 n d) * Ideal.ofBits .f32 0x3E000000#32) * k (ix2 m d)) * mask (ix2 n m)

/-- The second call's result array from its five operand arrays: below column 448 the mean row's entry, whatever the
    node; from 448 on the softmax of the node's masked scores against `v`'s column `c − 448`. -/
def Oarr (q k v : SQ.Idx → EReal) (vm : SVm.Idx → EReal) (mask : SM.Idx → EReal) (i : SX.Idx) : EReal :=
  if h : (i 1).val < 448 then vm (ix2 (0 : Fin 1) (⟨(i 1).val, h⟩ : Fin 448))
  else ∑ m : Fin 3072, smax (rowA q k mask (i 0)) m
        * v (ix2 m (⟨(i 1).val - 448, by have := idx2_lt1 i; omega⟩ : Fin 64))

end Cert.Spec

end
-- ==== Proof.Val0.lean ====
/-
  The first call's result array as one whole-array function of its operand arrays.  The grid's six points each take a
  block of 512 rows of x, the whole weight matrix and the whole bias row, and write back 512 rows of the result: at
  (p, q) of the block, row p of the x-block against column q of the weights plus the bias entry q.  Row p of point
  t's x-block is row 512 t + p of x, and row p of its result block is row 512 t + p of the result, so what point t
  writes back is block t of the dense layer x·W + b read index by index; the six blocks fill the 3072 rows (row n
  lies in block n / 512), so the array ends holding that function everywhere.
-/
import proofs.«424312_j34505767256362_2_alg».proof.Proof.Region0
import proofs.«424312_j34505767256362_2_alg».proof.Proof.Pay0
import proofs.«424312_j34505767256362_2_alg».proof.Proof.KSpec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The body's accesses start at the origin of their buffers. -/
theorem hz0 : (![0, 0] : Fin 2 → Nat) = fun _ => 0 := funext fun a => by fin_cases a <;> rfl

/-- The windows' index maps over the grid: at point t the x window and the result window are at row block t, column
    block 0; the weight and bias windows are at block (0, 0) at every point. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The x window's block at point t is rows 512 t to 512 t + 511 of x. -/
theorem iblk0_0_apply (c : Dev nD) (t : Fin cfg0.N) (p k : Fin 512) (n : Fin 3072) (hn : n.val = 512 * t.val + p.val) :
    (iblk0 V c 0 t : S512x512.Idx → EReal) (ix2 p k) = (V c main_arg0 : Cert.Spec.SX.Idx → EReal) (ix2 n k) := by
  obtain ⟨e00, e01, -⟩ := idx_facts0 t
  unfold iblk0
  rw [View.read_apply]
  show V c main_arg0 _ = V c main_arg0 _
  congr 1
  funext a
  apply Fin.ext
  match a with
  | ⟨0, _⟩ => show win0_0.index t (0 : Fin 2) * 512 + 1 * p.val = n.val; rw [e00, hn]; omega
  | ⟨1, _⟩ => show win0_0.index t (1 : Fin 2) * 512 + 1 * k.val = k.val; rw [e01]; omega

/-- The weight window's block is the whole weight operand at every point. -/
theorem iblk0_1_apply (c : Dev nD) (t : Fin cfg0.N) (k : Fin 512) (q : Fin 640) :
    (iblk0 V c 1 t : S512x640.Idx → EReal) (ix2 k q) = (V c main_v2 : Cert.Spec.SWc.Idx → EReal) (ix2 k q) := by
  obtain ⟨-, -, e10, e11, -⟩ := idx_facts0 t
  unfold iblk0
  rw [View.read_apply]
  show V c main_v2 _ = V c main_v2 _
  congr 1
  funext a
  apply Fin.ext
  match a with
  | ⟨0, _⟩ => show win0_1.index t (0 : Fin 2) * 512 + 1 * k.val = k.val; rw [e10]; omega
  | ⟨1, _⟩ => show win0_1.index t (1 : Fin 2) * 640 + 1 * q.val = q.val; rw [e11]; omega

/-- The bias window's block is the whole bias row at every point. -/
theorem iblk0_2_apply (c : Dev nD) (t : Fin cfg0.N) (q : Fin 640) :
    (iblk0 V c 2 t : S1x640.Idx → EReal) (ix2 (0 : Fin 1) q) = (V c main_v6 : Cert.Spec.SBc.Idx → EReal) (ix2 (0 : Fin 1) q) := by
  obtain ⟨-, -, -, -, e20, e21, -⟩ := idx_facts0 t
  unfold iblk0
  rw [View.read_apply]
  show V c main_v6 _ = V c main_v6 _
  congr 1
  funext a
  apply Fin.ext
  match a with
  | ⟨0, _⟩ => show win0_2.index t (0 : Fin 2) * 1 + 1 * 0 = 0; rw [e20]
  | ⟨1, _⟩ => show win0_2.index t (1 : Fin 2) * 640 + 1 * q.val = q.val; rw [e21]; omega

/-- The body's value at (p, q) of its block, when its three loaded blocks read the arrays X, Wc, Bc at row n: the
    whole-array function at (n, q). -/
theorem pay0_at (x0 : Vec Ideal S512x512 .f32) (x1 : Vec Ideal S512x640 .f32) (x2 : Vec Ideal S1x640 .f32)
    (X : Cert.Spec.SX.Idx → EReal) (Wc : Cert.Spec.SWc.Idx → EReal) (Bc : Cert.Spec.SBc.Idx → EReal)
    (j : S512x640.Idx) (i : Cert.Spec.SY.Idx) (p : Fin 512) (q : Fin 640) (n : Fin 3072)
    (hj : j = ix2 p q) (hi : i = ix2 n q)
    (h0 : ∀ k : Fin 512, x0 (ix2 p k) = X (ix2 n k))
    (h1 : ∀ k : Fin 512, x1 (ix2 k q) = Wc (ix2 k q))
    (h2 : x2 (ix2 (0 : Fin 1) q) = Bc (ix2 (0 : Fin 1) q)) :
    k0_pay1 (F := Ideal) x0 x1 x2 j = Cert.Spec.Yarr X Wc Bc i := by
  subst hj hi
  rw [pay0_apply]
  show _ = (∑ k : Fin 512, X (ix2 n k) * Wc (ix2 k q)) + Bc (ix2 (0 : Fin 1) q)
  rw [h2]
  exact congrArg (· + Bc (ix2 (0 : Fin 1) q)) (Finset.sum_congr rfl fun k _ => by rw [h0, h1])

/-- WHAT POINT t WRITES BACK is block t of the whole-array function of the operand arrays as the region finds them. -/
theorem flushed0_eq (c : Dev nD) (t : Fin cfg0.N) :
    (dat0 (F := Ideal) V c).flushed 3 t
      = ((cfg0.win 3).blk t).view.read (Elt Ideal) (Cert.Spec.Yarr (V c main_arg0) (V c main_v2) (V c main_v6)) := by
  show (cfg0.win 3).cut (grid0.coords t) ((dat0 V c).after 3 t) = _
  rw [after0_3]
  unfold out0_3
  rw [View.canon_unit_zero hz0]
  simp only [View.ld_unit_zero (S := S512x512) hz0, View.ld_unit_zero (S := S512x640) hz0, View.ld_unit_zero (S := S1x640) hz0]
  obtain ⟨-, -, -, -, -, -, e30, e31⟩ := idx_facts0 t
  have hN : t.val < 6 := (show t.val < grid0.N from t.isLt).trans_eq N_0
  funext j
  show k0_pay1 (F := Ideal) (iblk0 V c 0 t) (iblk0 V c 1 t) (iblk0 V c 2 t) j
      = Cert.Spec.Yarr (V c main_arg0) (V c main_v2) (V c main_v6) (((cfg0.win 3).blk t).view.emb j)
  have hp : (j 0).val < 512 := (j 0).isLt
  have hq : (j 1).val < 640 := (j 1).isLt
  refine pay0_at _ _ _ _ _ _ j _ ⟨(j 0).val, hp⟩ ⟨(j 1).val, hq⟩ ⟨512 * t.val + (j 0).val, by omega⟩ ?_ ?_
    (fun k => iblk0_0_apply V c t _ k _ rfl) (fun k => iblk0_1_apply V c t k _) (iblk0_2_apply V c t _)
  · funext a
    match a with
    | ⟨0, _⟩ => rfl
    | ⟨1, _⟩ => rfl
  · funext a
    apply Fin.ext
    match a with
    | ⟨0, _⟩ => show win0_3.index t (0 : Fin 2) * 512 + 1 * (j 0).val = 512 * t.val + (j 0).val; rw [e30]; omega
    | ⟨1, _⟩ => show win0_3.index t (1 : Fin 2) * 640 + 1 * (j 1).val = (j 1).val; rw [e31]; omega

/-- An index of the result array is in point t's block iff each coordinate is in the block's range on its axis. -/
theorem mem_blk0 (t : Fin cfg0.N) (i : S3072x640.Idx) :
    i ∈ ((cfg0.win 3).blk t).view.set ↔ ∀ a : Fin 2, win0_3.index t a * S512x640.size a ≤ (i a).val ∧ (i a).val < win0_3.index t a * S512x640.size a + S512x640.size a := by
  show i ∈ ((View.whole main_v7).slice (win0_3.rect t)).set ↔ _
  rw [View.set_slice_whole, Rect.mem_set_unit]
  exact Iff.rfl

/-- The six row blocks fill the result array: row n is in the block of point n / 512, which writes it back. -/
theorem cover0 (i : S3072x640.Idx) :
    ∃ t : Fin cfg0.N, (cfg0.win 3).flush t = true ∧ i ∈ ((cfg0.win 3).blk t).view.set := by
  have h0 : (i 0).val < 3072 := (i 0).isLt
  have h1 : (i 1).val < 640 := (i 1).isLt
  have ht : (i 0).val / 512 < cfg0.N := by show _ < grid0.N; rw [N_0]; omega
  obtain ⟨-, -, -, -, -, -, e30, e31⟩ := idx_facts0 ⟨(i 0).val / 512, ht⟩
  refine ⟨⟨(i 0).val / 512, ht⟩, flush0_3 _, ?_⟩
  rw [mem_blk0]
  intro a
  match a with
  | ⟨0, _⟩ =>
    show win0_3.index ⟨(i 0).val / 512, ht⟩ (0 : Fin 2) * 512 ≤ (i 0).val ∧ (i 0).val < win0_3.index ⟨(i 0).val / 512, ht⟩ (0 : Fin 2) * 512 + 512
    rw [e30]; show (i 0).val / 512 * 512 ≤ (i 0).val ∧ (i 0).val < (i 0).val / 512 * 512 + 512; omega
  | ⟨1, _⟩ =>
    show win0_3.index ⟨(i 0).val / 512, ht⟩ (1 : Fin 2) * 640 ≤ (i 1).val ∧ (i 1).val < win0_3.index ⟨(i 0).val / 512, ht⟩ (1 : Fin 2) * 640 + 640
    rw [e31]; omega

/-- THE RESULT ARRAY after the first call: the dense layer of the operand arrays as the region finds them, index by
    index. -/
theorem final0 (c : Dev nD) :
    (dat0 (F := Ideal) V c).arrAt 3 cfg0.N = Cert.Spec.Yarr (V c main_arg0) (V c main_v2) (V c main_v6) :=
  (dat0 (F := Ideal) V c).arrAt_eq_of_cover 3 (Cert.Spec.Yarr (V c main_arg0) (V c main_v2) (V c main_v6))
    (fun t _ => flushed0_eq V c t) cover0

end Cert.KernelIdeal.Hand

end
-- ==== Proof.LibNary3.lean ====
/-
  A host operation over a literal family of THREE buffers (a concatenate of three operands), read at its result
  buffer: the result with each operand's contents at its own reference, so that rewriting can go on inside the
  operands. General; stated for any topology, signature and value family.
-/
import Idealize.ShloMosaic.Lib.StableHlo.Run

noncomputable section

namespace Idealize.ShloMosaic.StableHlo

variable {τ : Topo} {sig : RefSig} {Val : EltTy → Type}
variable {x a b y : Ref sig .tc}

/-- The operation's result at its own buffer: its function applied to the three operands' contents. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, stated for one rewriting pass (the result buffer left out of the index). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- One rewriting pass over a line of host operations that may hold three-operand concatenates: each operation's
    result at its own buffer is its function of the operands' contents, at any other buffer what was there. -/
macro "after_results_simp3" : tactic =>
  `(tactic| (simp (disch := decide) only [after_cons, after_nil,
      nullary_result', unary_result', binary_result', ternary_result', quaternary_result', reshape_result', nary3_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.HostRead0.lean ====
/-
  The two operands the host builds for the first call, read at an index.  The weight operand is three matrices side
  by side: the last head's 64 columns (448 on) of the query weights, the same of the key weights, then all 512 columns
  of the value weights; the bias operand is the matching three vectors end to end, recast as one row.  So column j
  of either comes from the query layer for j below 64, the key layer for j below 128, the value layer beyond.  The
  host operations do not touch x.
-/
import proofs.«424312_j34505767256362_2_alg».proof.Proof.Gen.KernelIdeal.Launch
import proofs.«424312_j34505767256362_2_alg».proof.Proof.LibNary3
import Idealize.ShloMosaic.Lib.ValueIdx
import Idealize.ShloMosaic.Lib.Pipeline.Value
import Idealize.ShloMosaic.Lib.ValueLayout
import Idealize.ShloMosaic.Lib.StableHlo.Run

noncomputable section

open scoped BigOperators

namespace Cert.KernelIdeal.Hand

open Cert.KernelIdeal Cert.KernelIdeal.Gen Idealize.ShloMosaic Idealize.ShloMosaic.ValueIdx Idealize.SL.Sem Idealize.ShloMosaic.StableHlo

/-- The weight operand as the host lays it out before the first call: the last head's columns of the query weights,
    then of the key weights, then all of the value weights, side by side. -/
theorem term_w (W : Valuation τ sig (Elt Ideal)) :
    (StableHlo.after hostOps0 W (Proc.devRef .tc main_v2) : S512x640.Idx → EReal)
      = concatenate S512x640 1 [⟨S512x64, extractStridedSlice S512x64 ![0, 448] (W (Proc.devRef .tc main_arg2) : S512x512.Idx → EReal) slices_S512x512_S512x64_0_448⟩,
          ⟨S512x64, extractStridedSlice S512x64 ![0, 448] (W (Proc.devRef .tc main_arg3) : S512x512.Idx → EReal) slices_S512x512_S512x64_0_448⟩,
          ⟨S512x512, (W (Proc.devRef .tc main_arg4) : S512x512.Idx → EReal)⟩] concatenates_S512x64_S512x64_S512x512_S512x640_d1 := by
  simp only [hostOps0]
  after_results_simp3
  rfl

/-- Three matrices of 512 rows laid side by side, 64, 64 and 512 columns wide, read at (k, j): the piece whose
    columns hold j, at j less the columns before it. -/
theorem cat3_cols_apply (A B : S512x64.Idx → EReal) (C : S512x512.Idx → EReal) (k : Fin 512) (j : Fin 640) :
    concatenate S512x640 1 [⟨S512x64, A⟩, ⟨S512x64, B⟩, ⟨S512x512, C⟩] concatenates_S512x64_S512x64_S512x512_S512x640_d1 (ix2 k j)
      = if h : j.val < 64 then A (ix2 k ⟨j.val, h⟩)
        else if h' : j.val < 128 then B (ix2 k ⟨j.val - 64, by omega⟩)
        else C (ix2 k ⟨j.val - 128, by have := j.isLt; omega⟩) := by
  have hj := j.isLt
  split
  · next h =>
    refine concatenate_apply_piece (1 : Fin S512x640.rank) _ _ (ix2 k j) 0 (by show (0 : ℕ) < 3; omega) S512x64 A rfl rfl 0 rfl (ix2 k ⟨j.val, h⟩) (fun b hb => ?_) ?_
    · match b with
      | ⟨0, _⟩ => rfl
      | ⟨1, _⟩ => exact absurd rfl hb
    · show 0 + j.val = j.val; omega
  · next h =>
    split
    · next h' =>
      refine concatenate_apply_piece (1 : Fin S512x640.rank) _ _ (ix2 k j) 1 (by show (1 : ℕ) < 3; omega) S512x64 B rfl rfl 64 rfl (ix2 k ⟨j.val - 64, by omega⟩) (fun b hb => ?_) ?_
      · match b with
        | ⟨0, _⟩ => rfl
        | ⟨1, _⟩ => exact absurd rfl hb
      · show 64 + (j.val - 64) = j.val; omega
    · next h' =>
      refine concatenate_apply_piece (1 : Fin S512x640.rank) _ _ (ix2 k j) 2 (by show (2 : ℕ) < 3; omega) S512x512 C rfl rfl 128 rfl (ix2 k ⟨j.val - 128, by omega⟩) (fun b hb => ?_) ?_
      · match b with
        | ⟨0, _⟩ => rfl
        | ⟨1, _⟩ => exact absurd rfl hb
      · show 128 + (j.val - 128) = j.val; omega

/-- THE WEIGHT OPERAND AT (k, j): columns 0 to 63 are the query weights' columns 448 on, columns 64 to 127 the key
    weights' columns 448 on, the rest the value weights. -/
theorem host0_w (W : Valuation τ sig (Elt Ideal)) (k : Fin 512) (j : Fin 640) :
    (StableHlo.after hostOps0 W (Proc.devRef .tc main_v2) : S512x640.Idx → EReal) (ix2 k j)
      = if h : j.val < 64 then (W (Proc.devRef .tc main_arg2) : S512x512.Idx → EReal) (ix2 k ⟨448 + j.val, by omega⟩)
        else if h' : j.val < 128 then (W (Proc.devRef .tc main_arg3) : S512x512.Idx → EReal) (ix2 k ⟨448 + (j.val - 64), by omega⟩)
        else (W (Proc.devRef .tc main_arg4) : S512x512.Idx → EReal) (ix2 k ⟨j.val - 128, by have := j.isLt; omega⟩) := by
  rw [term_w, cat3_cols_apply]
  split
  · next h => exact slice2_axis1_apply 448 _ _ k ⟨j.val, h⟩ ⟨448 + j.val, by omega⟩ rfl
  · next h =>
    split
    · next h' => exact slice2_axis1_apply 448 _ _ k ⟨j.val - 64, by omega⟩ ⟨448 + (j.val - 64), by omega⟩ rfl
    · next h' => rfl

/-- The bias operand as the host lays it out before the first call: the last head's entries of the query bias, then
    of the key bias, then all of the value bias, end to end, as one row. -/
theorem term_b (W : Valuation τ sig (Elt Ideal)) :
    (StableHlo.after hostOps0 W (Proc.devRef .tc main_v6) : S1x640.Idx → EReal)
      = shapeCast S1x640 (concatenate S640 0 [⟨S64, extractStridedSlice S64 ![448] (W (Proc.devRef .tc main_arg5) : S512.Idx → EReal) slices_S512_S64_448⟩,
          ⟨S64, extractStridedSlice S64 ![448] (W (Proc.devRef .tc main_arg6) : S512.Idx → EReal) slices_S512_S64_448⟩,
          ⟨S512, (W (Proc.devRef .tc main_arg7) : S512.Idx → EReal)⟩] concatenates_S64_S64_S512_S640_d0) shapeCasts_S640_S1x640 := by
  simp only [hostOps0]
  after_results_simp3
  rfl

/-- Three vectors laid end to end, 64, 64 and 512 long, read at j: the piece whose span holds j, at j less the
    lengths before it. -/
theorem cat3_vec_apply (A B : S64.Idx → EReal) (C : S512.Idx → EReal) (j : Fin 640) :
    concatenate S640 0 [⟨S64, A⟩, ⟨S64, B⟩, ⟨S512, C⟩] concatenates_S64_S64_S512_S640_d0 (ix1 j)
      = if h : j.val < 64 then A (ix1 ⟨j.val, h⟩)
        else if h' : j.val < 128 then B (ix1 ⟨j.val - 64, by omega⟩)
        else C (ix1 ⟨j.val - 128, by have := j.isLt; omega⟩) := by
  have hj := j.isLt
  split
  · next h =>
    refine concatenate_apply_piece (0 : Fin S640.rank) _ _ (ix1 j) 0 (by show (0 : ℕ) < 3; omega) S64 A rfl rfl 0 rfl (ix1 ⟨j.val, h⟩) (fun b hb => ?_) ?_
    · match b with
      | ⟨0, _⟩ => exact absurd rfl hb
    · show 0 + j.val = j.val; omega
  · next h =>
    split
    · next h' =>
      refine concatenate_apply_piece (0 : Fin S640.rank) _ _ (ix1 j) 1 (by show (1 : ℕ) < 3; omega) S64 B rfl rfl 64 rfl (ix1 ⟨j.val - 64, by omega⟩) (fun b hb => ?_) ?_
      · match b with
        | ⟨0, _⟩ => exact absurd rfl hb
      · show 64 + (j.val - 64) = j.val; omega
    · next h' =>
      refine concatenate_apply_piece (0 : Fin S640.rank) _ _ (ix1 j) 2 (by show (2 : ℕ) < 3; omega) S512 C rfl rfl 128 rfl (ix1 ⟨j.val - 128, by omega⟩) (fun b hb => ?_) ?_
      · match b with
        | ⟨0, _⟩ => exact absurd rfl hb
      · show 128 + (j.val - 128) = j.val; omega

/-- A vector of 512 cut from entry 448 on reads, at j, the source at 448 + j. -/
theorem slice1_448_apply (X : S512.Idx → EReal) (j : Fin 64) (k : Fin 512) (hk : k.val = 448 + j.val) :
    extractStridedSlice S64 ![448] X slices_S512_S64_448 (ix1 j) = X (ix1 k) :=
  extractStridedSlice_apply _ _ _ _ _ (fun ax => by
    match ax with
    | ⟨0, _⟩ => exact hk)

/-- THE BIAS OPERAND AT (0, j): entries 0 to 63 are the query bias from 448 on, entries 64 to 127 the key bias from
    448 on, the rest the value bias. -/
theorem host0_b (W : Valuation τ sig (Elt Ideal)) (j : Fin 640) :
    (StableHlo.after hostOps0 W (Proc.devRef .tc main_v6) : S1x640.Idx → EReal) (ix2 (0 : Fin 1) j)
      = if h : j.val < 64 then (W (Proc.devRef .tc main_arg5) : S512.Idx → EReal) (ix1 ⟨448 + j.val, by omega⟩)
        else if h' : j.val < 128 then (W (Proc.devRef .tc main_arg6) : S512.Idx → EReal) (ix1 ⟨448 + (j.val - 64), by omega⟩)
        else (W (Proc.devRef .tc main_arg7) : S512.Idx → EReal) (ix1 ⟨j.val - 128, by have := j.isLt; omega⟩) := by
  rw [term_b]
  refine (shapeCast_a_1a_apply _ shapeCasts_S640_S1x640 (0 : Fin 1) j).trans ?_
  rw [cat3_vec_apply]
  split
  · next h => exact slice1_448_apply _ ⟨j.val, h⟩ ⟨448 + j.val, by omega⟩ rfl
  · next h =>
    split
    · next h' => exact slice1_448_apply _ ⟨j.val - 64, by omega⟩ ⟨448 + (j.val - 64), by omega⟩ rfl
    · next h' => rfl

/-- The host operations before the first call leave x alone. -/
theorem host0_x (W : Valuation τ sig (Elt Ideal)) :
    StableHlo.after hostOps0 W (Proc.devRef .tc main_arg0) = W (Proc.devRef .tc main_arg0) := by
  simp only [hostOps0]
  after_results_simp3

end Cert.KernelIdeal.Hand

end
-- ==== Proof.LibKeepdims.lean ====
/-
  Column layouts read at an index: a vector [a] viewed as a column [a, 1], a column [a, 1] viewed as a
  vector [a], and a column [a, 1] broadcast along rows to [a, b] (what a reduction with kept dimensions
  produces and consumes). Each reads the operand at the row coordinate, the unit coordinate being 0.
-/
import Idealize.ShloMosaic.Lib.ValueIdx
import Idealize.ShloMosaic.Lib.ValueLayout
import Idealize.ShloMosaic.Lib.Pipeline.Value

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Pay1.lean ====
/-
  The second call's body as arithmetic on one block: its two stored values read at an index. The mean row's piece
  repeats the row it is handed; the attention piece is, at (r, d), the row softmax of the masked scores of query row
  `r` — the query scaled by 1/8, contracted with each key row over the 64 columns, times the mask's entry — against
  column `d` of the values. Format changes are the identity on extended reals, the two contractions are plain sums
  over their one contracted axis, and the kept-dimension reductions read the row's maximum and the row's sum.
-/
import proofs.«424312_j34505767256362_2_alg».proof.Proof.Gen.KernelIdeal.Skeleton
import proofs.«424312_j34505767256362_2_alg».proof.Proof.KSpec
import proofs.«424312_j34505767256362_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## The two contractions read at an index -/

/-- The score contraction's left operand index: row coordinate from the output's row. -/
theorem qk_lhs_0 (i : S384x3072.Idx) (q : dot_S384x64_S3072x64_S384x3072_1_1_0_0_n_n.contr.Idx) :
    (dot_S384x64_S3072x64_S384x3072_1_1_0_0_n_n.lhsIdx i q 0).val = (i 0).val := by
  unfold DotDims.lhsIdx
  rw [dif_neg (show ¬(0 : Fin S384x64.rank) ∈ dot_S384x64_S3072x64_S384x3072_1_1_0_0_n_n.lhsBatch by decide), dif_pos (show (0 : Fin S384x64.rank) ∈ dot_S384x64_S3072x64_S384x3072_1_1_0_0_n_n.lhsNonContracting by decide)]
  rfl
/-- … its column coordinate is the contraction's. -/
theorem qk_lhs_1 (i : S384x3072.Idx) (q : dot_S384x64_S3072x64_S384x3072_1_1_0_0_n_n.contr.Idx) :
    (dot_S384x64_S3072x64_S384x3072_1_1_0_0_n_n.lhsIdx i q 1).val = (q ⟨0, by decide⟩).val :=
  dot_S384x64_S3072x64_S384x3072_1_1_0_0_n_n.lhsIdx_val_of_single rfl i q
/-- The right operand (the keys, not transposed): its row coordinate is the output's COLUMN … -/
theorem qk_rhs_0 (i : S384x3072.Idx) (q : dot_S384x64_S3072x64_S384x3072_1_1_0_0_n_n.contr.Idx) :
    (dot_S384x64_S3072x64_S384x3072_1_1_0_0_n_n.rhsIdx i q 0).val = (i 1).val := by
  unfold DotDims.rhsIdx
  rw [dif_neg (show ¬(0 : Fin S3072x64.rank) ∈ dot_S384x64_S3072x64_S384x3072_1_1_0_0_n_n.rhsBatch by decide), dif_pos (show (0 : Fin S3072x64.rank) ∈ dot_S384x64_S3072x64_S384x3072_1_1_0_0_n_n.rhsNonContracting by decide)]
  rfl
/-- … and its column coordinate the contraction's. -/
theorem qk_rhs_1 (i : S384x3072.Idx) (q : dot_S384x64_S3072x64_S384x3072_1_1_0_0_n_n.contr.Idx) :
    (dot_S384x64_S3072x64_S384x3072_1_1_0_0_n_n.rhsIdx i q 1).val = (q ⟨0, by decide⟩).val :=
  dot_S384x64_S3072x64_S384x3072_1_1_0_0_n_n.rhsIdx_val_of_single rfl i q

/-- Query rows against key rows: entry (r, m) sums over the 64 columns of both. -/
theorem qk_apply (a : FVec Ideal S384x64 .bf16) (b : FVec Ideal S3072x64 .bf16) (r : Fin 384) (m : Fin 3072) :
    matmul dot_S384x64_S3072x64_S384x3072_1_1_0_0_n_n none a b (constant S384x3072 .f32 0x00000000#32) (ix2 r m)
      = ∑ d : Fin 64, a (ix2 r d) * b (ix2 m d) := by
  show FloatOps.matmul _ _ _ _ _ _ = _
  rw [Ideal.matmul_constant_zero_apply, ← Equiv.sum_comp (contrEquiv1 dot_S384x64_S3072x64_S384x3072_1_1_0_0_n_n 64 rfl rfl).symm]
  refine Finset.sum_congr rfl fun k _ => ?_
  have hk := contrEquiv1_symm_val dot_S384x64_S3072x64_S384x3072_1_1_0_0_n_n 64 rfl rfl k
  have el : dot_S384x64_S3072x64_S384x3072_1_1_0_0_n_n.lhsIdx (ix2 r m) ((contrEquiv1 dot_S384x64_S3072x64_S384x3072_1_1_0_0_n_n 64 rfl rfl).symm k) = ix2 r k := funext fun ax => Fin.ext (by
    match ax with
    | ⟨0, _⟩ => exact qk_lhs_0 _ _
    | ⟨1, _⟩ => exact (qk_lhs_1 _ _).trans hk)
  have er : dot_S384x64_S3072x64_S384x3072_1_1_0_0_n_n.rhsIdx (ix2 r m) ((contrEquiv1 dot_S384x64_S3072x64_S384x3072_1_1_0_0_n_n 64 rfl rfl).symm k) = ix2 m k := funext fun ax => Fin.ext (by
    match ax with
    | ⟨0, _⟩ => exact qk_rhs_0 _ _
    | ⟨1, _⟩ => exact (qk_rhs_1 _ _).trans hk)
  rw [el, er]

theorem av_lhs_0 (i : S384x64.Idx) (q : dot_S384x3072_S3072x64_S384x64_1_0_0_1_n_n.contr.Idx) :
    (dot_S384x3072_S3072x64_S384x64_1_0_0_1_n_n.lhsIdx i q 0).val = (i 0).val := by
  unfold DotDims.lhsIdx
  rw [dif_neg (show ¬(0 : Fin S384x3072.rank) ∈ dot_S384x3072_S3072x64_S384x64_1_0_0_1_n_n.lhsBatch by decide), dif_pos (show (0 : Fin S384x3072.rank) ∈ dot_S384x3072_S3072x64_S384x64_1_0_0_1_n_n.lhsNonContracting by decide)]
  rfl
theorem av_lhs_1 (i : S384x64.Idx) (q : dot_S384x3072_S3072x64_S384x64_1_0_0_1_n_n.contr.Idx) :
    (dot_S384x3072_S3072x64_S384x64_1_0_0_1_n_n.lhsIdx i q 1).val = (q ⟨0, by decide⟩).val :=
  dot_S384x3072_S3072x64_S384x64_1_0_0_1_n_n.lhsIdx_val_of_single rfl i q
theorem av_rhs_0 (i : S384x64.Idx) (q : dot_S384x3072_S3072x64_S384x64_1_0_0_1_n_n.contr.Idx) :
    (dot_S384x3072_S3072x64_S384x64_1_0_0_1_n_n.rhsIdx i q 0).val = (q ⟨0, by decide⟩).val :=
  dot_S384x3072_S3072x64_S384x64_1_0_0_1_n_n.rhsIdx_val_of_single rfl i q
theorem av_rhs_1 (i : S384x64.Idx) (q : dot_S384x3072_S3072x64_S384x64_1_0_0_1_n_n.contr.Idx) :
    (dot_S384x3072_S3072x64_S384x64_1_0_0_1_n_n.rhsIdx i q 1).val = (i 1).val := by
  unfold DotDims.rhsIdx
  rw [dif_neg (show ¬(1 : Fin S3072x64.rank) ∈ dot_S384x3072_S3072x64_S384x64_1_0_0_1_n_n.rhsBatch by decide), dif_pos (show (1 : Fin S3072x64.rank) ∈ dot_S384x3072_S3072x64_S384x64_1_0_0_1_n_n.rhsNonContracting by decide)]
  rfl

/-- Attention weights against the value rows: entry (r, d) sums over the 3072 nodes. -/
theorem av_apply (a : FVec Ideal S384x3072 .bf16) (b : FVec Ideal S3072x64 .bf16) (r : Fin 384) (d : Fin 64) :
    matmul dot_S384x3072_S3072x64_S384x64_1_0_0_1_n_n none a b (constant S384x64 .f32 0x00000000#32) (ix2 r d)
      = ∑ m : Fin 3072, a (ix2 r m) * b (ix2 m d) := by
  show FloatOps.matmul _ _ _ _ _ _ = _
  rw [Ideal.matmul_constant_zero_apply, ← Equiv.sum_comp (contrEquiv1 dot_S384x3072_S3072x64_S384x64_1_0_0_1_n_n 3072 rfl rfl).symm]
  refine Finset.sum_congr rfl fun k _ => ?_
  have hk := contrEquiv1_symm_val dot_S384x3072_S3072x64_S384x64_1_0_0_1_n_n 3072 rfl rfl k
  have el : dot_S384x3072_S3072x64_S384x64_1_0_0_1_n_n.lhsIdx (ix2 r d) ((contrEquiv1 dot_S384x3072_S3072x64_S384x64_1_0_0_1_n_n 3072 rfl rfl).symm k) = ix2 r k := funext fun ax => Fin.ext (by
    match ax with
    | ⟨0, _⟩ => exact av_lhs_0 _ _
    | ⟨1, _⟩ => exact (av_lhs_1 _ _).trans hk)
  have er : dot_S384x3072_S3072x64_S384x64_1_0_0_1_n_n.rhsIdx (ix2 r d) ((contrEquiv1 dot_S384x3072_S3072x64_S384x64_1_0_0_1_n_n 3072 rfl rfl).symm k) = ix2 k d := funext fun ax => Fin.ext (by
    match ax with
    | ⟨0, _⟩ => exact (av_rhs_0 _ _).trans hk
    | ⟨1, _⟩ => exact av_rhs_1 _ _)
  rw [el, er]

/-! ## The row softmax of a block, read at an index -/

/-- A block's row maxima, kept as a column and spread back along the rows. -/
def rowMaxV (x : FVec Ideal S384x3072 .f32) : FVec Ideal S384x3072 .f32 :=
  broadcastTo S384x3072 (shapeCast S384x1 (multiReduction .maximumf [1] S384 x 0xFF800000#32 reduces_S384x3072_S384 (.inl rfl) rfl) shapeCasts_S384_S384x1) broadcasts_S384x1_S384x3072

/-- A block's row sums, kept as a column and spread back along the rows. -/
def rowSumV (e : FVec Ideal S384x3072 .f32) : FVec Ideal S384x3072 .f32 :=
  broadcastTo S384x3072 (shapeCast S384x1 (multiReduction .add [1] S384 e 0x00000000#32 reduces_S384x3072_S384 (.inl rfl) rfl) shapeCasts_S384_S384x1) broadcasts_S384x1_S384x3072

/-- The index the reduction over the columns inserts: row `r`, column `k`. -/
theorem lift_row (r : Fin 384) (k : Fin 3072) :
    (reduces_S384x3072_S384 : S384x3072.Reduces [1] S384).lift (ix1 r) k = ix2 r k :=
  funext fun ax => Fin.ext (by
    match ax with
    | ⟨0, _⟩ => rfl
    | ⟨1, _⟩ => rfl)

/-- Every entry of row `r` of the spread maxima is the row's maximum: the fold of `max` from −∞ over its 3072 entries. -/
theorem rowMaxV_apply (x : FVec Ideal S384x3072 .f32) (r : Fin 384) (m : Fin 3072) :
    rowMaxV x (ix2 r m) = Cert.Spec.rowMax (fun m' => x (ix2 r m')) := by
  unfold rowMaxV
  refine (broadcastTo_a1_ab_apply _ broadcasts_S384x1_S384x3072 r m).trans ?_
  refine (shapeCast_a_a1_apply _ shapeCasts_S384_S384x1 r (0 : Fin 1)).trans ?_
  refine (Ideal.multiReduction_maximumf_single x _ reduces_S384x3072_S384 _ _ (ix1 r)).trans ?_
  unfold Cert.Spec.rowMax
  show (Finset.univ : Finset (Fin 3072)).fold max (Ideal.ofBits .f32 0xFF800000#32) (x ∘ (reduces_S384x3072_S384 : S384x3072.Reduces [1] S384).lift (ix1 r)) = _
  have hf : (x ∘ (reduces_S384x3072_S384 : S384x3072.Reduces [1] S384).lift (ix1 r)) = fun m' : Fin 3072 => x (ix2 r m') :=
    funext fun k => congrArg x (lift_row r k)
  exact congrArg (fun f : Fin 3072 → EReal => (Finset.univ : Finset (Fin 3072)).fold max (Ideal.ofBits .f32 0xFF800000#32) f) hf

/-- Every entry of row `r` of the spread sums is the row's sum. -/
theorem rowSumV_apply (e : FVec Ideal S384x3072 .f32) (r : Fin 384) (m : Fin 3072) :
    rowSumV e (ix2 r m) = ∑ m' : Fin 3072, e (ix2 r m') := by
  unfold rowSumV
  refine (broadcastTo_a1_ab_apply _ broadcasts_S384x1_S384x3072 r m).trans ?_
  refine (shapeCast_a_a1_apply _ shapeCasts_S384_S384x1 r (0 : Fin 1)).trans ?_
  refine (Ideal.multiReduction_add_single e _ reduces_S384x3072_S384 _ _ (ix1 r)).trans ?_
  show ∑ k : Fin 3072, e ((reduces_S384x3072_S384 : S384x3072.Reduces [1] S384).lift (ix1 r) k) = _
  exact Finset.sum_congr rfl fun k _ => congrArg e (lift_row r k)

/-- The block's row softmax as the body spells it: exponentials of the entries less their row's maximum, over
    their row's sum. -/
def softV (x : FVec Ideal S384x3072 .f32) : FVec Ideal S384x3072 .f32 :=
  divf (exp (subf x (rowMaxV x))) (rowSumV (exp (subf x (rowMaxV x))))

/-- … which at (r, m) is the specification's softmax of row `r`, entry `m`. -/
theorem softV_apply (x : FVec Ideal S384x3072 .f32) (r : Fin 384) (m : Fin 3072) :
    softV x (ix2 r m) = Cert.Spec.smax (fun m' => x (ix2 r m')) m := by
  have he : ∀ m' : Fin 3072, exp (subf x (rowMaxV x)) (ix2 r m')
      = Ideal.exp (x (ix2 r m') - Cert.Spec.rowMax (fun m'' => x (ix2 r m''))) := fun m' => by
    show FloatOps.exp (subf x (rowMaxV x) (ix2 r m')) = _
    rw [Ideal.exp_def, subf_apply, rowMaxV_apply]
  unfold softV Cert.Spec.smax
  rw [divf_apply, rowSumV_apply, he m]
  exact congrArg _ (Finset.sum_congr rfl fun m' _ => he m')

/-! ## The payloads at an index -/

/-- The block's masked scores as the body spells them: the query block scaled by 1/8, against the keys, times the
    mask block. -/
def scoreV (v0 : Vec Ideal S384x64 .f32) (v5 : Vec Ideal S3072x64 .f32) (v12 : Vec Ideal S384x3072 .bf16) :
    FVec Ideal S384x3072 .f32 :=
  mulf (matmul dot_S384x64_S3072x64_S384x3072_1_1_0_0_n_n none
      (truncf .bf16 (mulf (shapeCast S384x64 v0 shapeCasts_S384x64_S384x64) (broadcast S384x64 (Scalar.ofBits .f32 0x3E000000#32))) bitsLt_bf16_f32)
      (truncf .bf16 (shapeCast S3072x64 v5 shapeCasts_S3072x64_S3072x64) bitsLt_bf16_f32)
      (constant S384x3072 .f32 0x00000000#32))
    (extf .f32 (shapeCast S384x3072 v12 shapeCasts_S384x3072_S384x3072) bitsLt_bf16_f32)

/-- The masked score at (r, m). -/
theorem scoreV_apply (v0 : Vec Ideal S384x64 .f32) (v5 : Vec Ideal S3072x64 .f32) (v12 : Vec Ideal S384x3072 .bf16)
    (r : Fin 384) (m : Fin 3072) :
    scoreV v0 v5 v12 (ix2 r m)
      = (∑ d : Fin 64, (v0 (ix2 r d) * Ideal.ofBits .f32 0x3E000000#32) * v5 (ix2 m d)) * v12 (ix2 r m) := by
  unfold scoreV
  rw [mulf_apply, qk_apply]
  simp only [shapeCast_self]
  rfl

/-- The second payload is the attention weights — the softmax of the masked scores — against the values. -/
theorem pay1_eq (v0 : Vec Ideal S384x64 .f32) (v5 v8 : Vec Ideal S3072x64 .f32) (v12 : Vec Ideal S384x3072 .bf16) :
    k1_pay1 (F := Ideal) v0 v5 v8 v12
      = matmul dot_S384x3072_S3072x64_S384x64_1_0_0_1_n_n none
          (truncf .bf16 (softV (scoreV v0 v5 v12)) bitsLt_bf16_f32)
          (truncf .bf16 (shapeCast S3072x64 v8 shapeCasts_S3072x64_S3072x64) bitsLt_bf16_f32)
          (constant S384x64 .f32 0x00000000#32) := rfl

/-- The mean row's payload: every row of the [384, 448] piece is the mean row. -/
theorem pay2_apply (v27 : Vec Ideal S1x448 .f32) (r : Fin 384) (c : Fin 448) :
    k1_pay2 (F := Ideal) v27 (ix2 r c) = v27 (ix2 (0 : Fin 1) c) := by
  unfold k1_pay2
  simp only [shapeCast_self]
  refine broadcastTo_apply v27 _ (ix2 r c) (ix2 (0 : Fin 1) c) fun ax => ?_
  match ax with
  | ⟨0, _⟩ => rfl
  | ⟨1, _⟩ => rfl

/-- The attention payload at (r, d): the softmax of row `r`'s masked scores against column `d` of the values. -/
theorem pay1_apply (v0 : Vec Ideal S384x64 .f32) (v5 v8 : Vec Ideal S3072x64 .f32) (v12 : Vec Ideal S384x3072 .bf16)
    (r : Fin 384) (d : Fin 64) :
    k1_pay1 (F := Ideal) v0 v5 v8 v12 (ix2 r d)
      = ∑ m : Fin 3072, Cert.Spec.smax (fun m' : Fin 3072 =>
            (∑ d' : Fin 64, (v0 (ix2 r d') * Ideal.ofBits .f32 0x3E000000#32) * v5 (ix2 m' d')) * v12 (ix2 r m')) m
          * v8 (ix2 m d) := by
  rw [pay1_eq, av_apply]
  refine Finset.sum_congr rfl fun m _ => ?_
  rw [truncf_apply, truncf_apply, softV_apply, shapeCast_self]
  exact congrArg (fun f => Cert.Spec.smax f m * v8 (ix2 m d)) (funext fun m' => scoreV_apply v0 v5 v12 r m')

end Cert.KernelIdeal.Hand

end
-- ==== Proof.Val1.lean ====
/-
  The second call's result array as ONE function of its five operand arrays. At every grid point the body leaves in
  the output block the mean row spread over columns [0, 448) and, in columns [448, 512), the row softmax of the
  block's masked scores against the values; the query and mask blocks are rows 384·t … 384·t + 383 of their arrays,
  the keys, the values and the mean row are whole at every point, so what point t writes back is block t of the
  whole-array function; the eight row blocks cover the 3072 rows (row n lies in block n / 384), hence the array
  after the call is that function everywhere.
-/
import proofs.«424312_j34505767256362_2_alg».proof.Proof.Region1
import proofs.«424312_j34505767256362_2_alg».proof.Proof.KSpec
import proofs.«424312_j34505767256362_2_alg».proof.Proof.Pay1
import proofs.«424312_j34505767256362_2_alg».proof.Proof.LibKeepdims
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

/-! ## One block of the result from the five input blocks -/

/-- The zero offsets, however spelt. -/
theorem hz1 : (![0, 0] : Fin 2 → Nat) = fun _ => 0 := funext fun a => by fin_cases a <;> rfl

/-- Row `r`, column `c` of a result block from the blocks the body loads: below column 448 the mean row's entry;
    from 448 on the softmax of row `r`'s masked scores against column `c − 448` of the values. -/
def blkOut (x0 : Vec Ideal S384x64 .f32) (x1 x2 : Vec Ideal S3072x64 .f32) (x3 : Vec Ideal S1x448 .f32)
    (x4 : Vec Ideal S384x3072 .bf16) : Vec Ideal S384x512 .f32 := fun i =>
  if h : (i 1).val < 448 then x3 (ix2 (0 : Fin 1) (⟨(i 1).val, h⟩ : Fin 448))
  else ∑ m : Fin 3072, Cert.Spec.smax (fun m' : Fin 3072 =>
        (∑ d' : Fin 64, (x0 (ix2 (i 0) d') * Ideal.ofBits .f32 0x3E000000#32) * x1 (ix2 m' d')) * x4 (ix2 (i 0) m')) m
      * x2 (ix2 m (⟨(i 1).val - 448, by have := idx2_lt1 i; omega⟩ : Fin 64))

/-- Below column 448. -/
theorem blkOut_lo (x0 : Vec Ideal S384x64 .f32) (x1 x2 : Vec Ideal S3072x64 .f32) (x3 : Vec Ideal S1x448 .f32)
    (x4 : Vec Ideal S384x3072 .bf16) (i : S384x512.Idx) (c : Fin 448) (h1 : (i 1).val = c.val) :
    blkOut x0 x1 x2 x3 x4 i = x3 (ix2 (0 : Fin 1) c) := by
  unfold blkOut
  rw [dif_pos (show (i 1).val < 448 by have := c.isLt; omega)]
  exact congrArg (fun c' : Fin 448 => x3 (ix2 (0 : Fin 1) c')) (Fin.ext h1)

/-- From column 448 on. -/
theorem blkOut_hi (x0 : Vec Ideal S384x64 .f32) (x1 x2 : Vec Ideal S3072x64 .f32) (x3 : Vec Ideal S1x448 .f32)
    (x4 : Vec Ideal S384x3072 .bf16) (i : S384x512.Idx) (r : Fin 384) (d : Fin 64) (h0 : (i 0).val = r.val)
    (h1 : (i 1).val = 448 + d.val) :
    blkOut x0 x1 x2 x3 x4 i
      = ∑ m : Fin 3072, Cert.Spec.smax (fun m' : Fin 3072 =>
            (∑ d' : Fin 64, (x0 (ix2 r d') * Ideal.ofBits .f32 0x3E000000#32) * x1 (ix2 m' d')) * x4 (ix2 r m')) m
          * x2 (ix2 m d) := by
  unfold blkOut
  rw [dif_neg (show ¬ (i 1).val < 448 by omega)]
  have e0 : i 0 = r := Fin.ext h0
  rw [e0]
  refine Finset.sum_congr rfl fun m _ => ?_
  exact congrArg (fun d' : Fin 64 => Cert.Spec.smax (fun m' : Fin 3072 =>
            (∑ d'' : Fin 64, (x0 (ix2 r d'') * Ideal.ofBits .f32 0x3E000000#32) * x1 (ix2 m' d'')) * x4 (ix2 r m')) m
          * x2 (ix2 m d')) (Fin.ext (by show (i 1).val - 448 = d.val; omega))

/-- The body's two stores — the attention value into columns [448, 512) over the mean row into [0, 448) — leave
    exactly that block. -/
theorem out1_5_eq (x0 : Vec Ideal S384x64 .f32) (x1 x2 : Vec Ideal S3072x64 .f32) (x3 : Vec Ideal S1x448 .f32)
    (x4 : Vec Ideal S384x3072 .bf16) : out1_5 (F := Ideal) x0 x1 x2 x3 x4 = blkOut x0 x1 x2 x3 x4 := by
  funext y
  unfold out1_5
  rw [View.ld_unit_zero (S := S384x64) hz1, View.ld_unit_zero (S := S3072x64) hz1, View.ld_unit_zero (S := S3072x64) hz1,
    View.ld_unit_zero (S := S384x3072) hz1, View.ld_unit_zero (S := S1x448) hz1]
  refine View.canon_apply_of_pieces (blkOut x0 x1 x2 x3 x4) _ ?_ y ?_
  · intro p hp x
    simp only [List.mem_cons, List.mem_singleton, List.not_mem_nil, or_false] at hp
    rcases hp with rfl | rfl
    · obtain ⟨r, d, rfl⟩ : ∃ (r : Fin 384) (d : Fin 64), x = ix2 r d := ⟨x 0, x 1, eq_ix2 x⟩
      show k1_pay1 (F := Ideal) x0 x1 x2 x4 (ix2 r d) = _
      rw [pay1_apply]
      exact (blkOut_hi x0 x1 x2 x3 x4 _ r d (by show 0 + 1 * r.val = r.val; omega) (by show 448 + 1 * d.val = 448 + d.val; omega)).symm
    · obtain ⟨r, cc, rfl⟩ : ∃ (r : Fin 384) (cc : Fin 448), x = ix2 r cc := ⟨x 0, x 1, eq_ix2 x⟩
      show k1_pay2 (F := Ideal) x3 (ix2 r cc) = _
      rw [pay2_apply]
      exact (blkOut_lo x0 x1 x2 x3 x4 _ cc (by show 0 + 1 * cc.val = cc.val; omega)).symm
  · by_cases hc : (y 1).val < 448
    · refine ⟨_, List.mem_cons_of_mem _ List.mem_cons_self, ?_⟩
      rw [Rect.mem_set_unit]
      intro a
      match a with
      | ⟨0, _⟩ => exact ⟨Nat.zero_le _, by show (y 0).val < 0 + 384; have := idx2_lt0 y; omega⟩
      | ⟨1, _⟩ => exact ⟨Nat.zero_le _, by show (y 1).val < 0 + 448; omega⟩
    · refine ⟨_, List.mem_cons_self, ?_⟩
      rw [Rect.mem_set_unit]
      intro a
      match a with
      | ⟨0, _⟩ => exact ⟨Nat.zero_le _, by show (y 0).val < 0 + 384; have := idx2_lt0 y; omega⟩
      | ⟨1, _⟩ => exact ⟨by show 448 ≤ (y 1).val; omega, by show (y 1).val < 448 + 64; have := idx2_lt1 y; omega⟩

/-! ## From the blocks to the array -/

section
variable (V : (c : Dev nD) → (b : Ref sig .tc) → Buf (Elt Ideal) ((c : Thread nD τ).loc b))

/-- The printed index maps, decided over the grid: the query, mask and result blocks move with the point along the
    rows; the keys, the values and the mean row are whole at every point. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The query block at point `t` is rows 384·t … of the query array. -/
theorem qblk_apply (c : Dev nD) (t : Fin cfg1.N) (r : Fin 384) (d : Fin 64) (n : Fin 3072) (hn : n.val = 384 * t.val + r.val) :
    (iblk1 V c 0 t : Vec Ideal S384x64 .f32) (ix2 r d) = (V c main_v8 : Cert.Spec.SQ.Idx → EReal) (ix2 n d) := by
  obtain ⟨e0, e1, -⟩ := idx_facts1 t
  show V c main_v8 (((cfg1.win 0).blk t).view.emb (ix2 r d)) = V c main_v8 (ix2 n d)
  refine congrArg (V c main_v8) (funext fun a => Fin.ext ?_)
  match a with
  | ⟨0, _⟩ => show win1_0.index t (0 : Fin 2) * 384 + 1 * r.val = n.val; rw [e0, hn]; omega
  | ⟨1, _⟩ => show win1_0.index t (1 : Fin 2) * 64 + 1 * d.val = d.val; rw [e1]; omega

/-- The mask block at point `t` is rows 384·t … of the mask. -/
theorem mblk_apply (c : Dev nD) (t : Fin cfg1.N) (r : Fin 384) (m : Fin 3072) (n : Fin 3072) (hn : n.val = 384 * t.val + r.val) :
    (iblk1 V c 4 t : Vec Ideal S384x3072 .bf16) (ix2 r m) = (V c main_v36 : Cert.Spec.SM.Idx → EReal) (ix2 n m) := by
  obtain ⟨-, -, -, -, -, -, -, -, e0, e1, -⟩ := idx_facts1 t
  show V c main_v36 (((cfg1.win 4).blk t).view.emb (ix2 r m)) = V c main_v36 (ix2 n m)
  refine congrArg (V c main_v36) (funext fun a => Fin.ext ?_)
  match a with
  | ⟨0, _⟩ => show win1_4.index t (0 : Fin 2) * 384 + 1 * r.val = n.val; rw [e0, hn]; omega
  | ⟨1, _⟩ => show win1_4.index t (1 : Fin 2) * 3072 + 1 * m.val = m.val; rw [e1]; omega

/-- The key block is the whole key array at every point. -/
theorem kblk_eq (c : Dev nD) (t : Fin cfg1.N) :
    (iblk1 V c 1 t : Vec Ideal S3072x64 .f32) = (V c main_v9 : Cert.Spec.SQ.Idx → EReal) := by
  obtain ⟨-, -, e0, e1, -⟩ := idx_facts1 t
  funext j
  show V c main_v9 (((cfg1.win 1).blk t).view.emb j) = V c main_v9 j
  refine congrArg (V c main_v9) (funext fun a => Fin.ext ?_)
  match a with
  | ⟨0, _⟩ => show win1_1.index t (0 : Fin 2) * 3072 + 1 * (j 0).val = (j 0).val; rw [e0]; omega
  | ⟨1, _⟩ => show win1_1.index t (1 : Fin 2) * 64 + 1 * (j 1).val = (j 1).val; rw [e1]; omega

/-- The value block is the whole value array at every point. -/
theorem vblk_eq (c : Dev nD) (t : Fin cfg1.N) :
    (iblk1 V c 2 t : Vec Ideal S3072x64 .f32) = (V c main_v12 : Cert.Spec.SQ.Idx → EReal) := by
  obtain ⟨-, -, -, -, e0, e1, -⟩ := idx_facts1 t
  funext j
  show V c main_v12 (((cfg1.win 2).blk t).view.emb j) = V c main_v12 j
  refine congrArg (V c main_v12) (funext fun a => Fin.ext ?_)
  match a with
  | ⟨0, _⟩ => show win1_2.index t (0 : Fin 2) * 3072 + 1 * (j 0).val = (j 0).val; rw [e0]; omega
  | ⟨1, _⟩ => show win1_2.index t (1 : Fin 2) * 64 + 1 * (j 1).val = (j 1).val; rw [e1]; omega

/-- The mean-row block is the whole mean row at every point. -/
theorem vmblk_eq (c : Dev nD) (t : Fin cfg1.N) :
    (iblk1 V c 3 t : Vec Ideal S1x448 .f32) = (V c main_v16 : Cert.Spec.SVm.Idx → EReal) := by
  obtain ⟨-, -, -, -, -, -, e0, e1, -⟩ := idx_facts1 t
  funext j
  show V c main_v16 (((cfg1.win 3).blk t).view.emb j) = V c main_v16 j
  refine congrArg (V c main_v16) (funext fun a => Fin.ext ?_)
  match a with
  | ⟨0, _⟩ => show win1_3.index t (0 : Fin 2) * 1 + 1 * (j 0).val = (j 0).val; rw [e0]; omega
  | ⟨1, _⟩ => show win1_3.index t (1 : Fin 2) * 448 + 1 * (j 1).val = (j 1).val; rw [e1]; omega

/-- WHAT POINT `t` WRITES BACK is block `t` of the whole-array function of the five operand arrays. -/
theorem flushed1_eq (c : Dev nD) (t : Fin cfg1.N) :
    (dat1 (F := Ideal) V c).flushed 5 t = ((cfg1.win 5).blk t).view.read (Elt Ideal)
      (Cert.Spec.Oarr (V c main_v8) (V c main_v9) (V c main_v12) (V c main_v16) (V c main_v36)) := by
  show (cfg1.win 5).cut (grid1.coords t) ((dat1 (F := Ideal) V c).after 5 t) = _
  rw [after1_5, out1_5_eq, kblk_eq, vblk_eq, vmblk_eq]
  obtain ⟨-, -, -, -, -, -, -, -, -, -, e0, e1⟩ := idx_facts1 t
  funext j
  obtain ⟨r, cc, rfl⟩ : ∃ (r : Fin 384) (cc : Fin 512), j = ix2 r cc := ⟨j 0, j 1, eq_ix2 j⟩
  have ht : t.val < 8 := t.isLt
  have hn : 384 * t.val + r.val < 3072 := by have := r.isLt; omega
  show blkOut (iblk1 V c 0 t) (V c main_v9) (V c main_v12) (V c main_v16) (iblk1 V c 4 t) (ix2 r cc)
    = Cert.Spec.Oarr (V c main_v8) (V c main_v9) (V c main_v12) (V c main_v16) (V c main_v36) (((cfg1.win 5).blk t).view.emb (ix2 r cc))
  have i0 : ((((cfg1.win 5).blk t).view.emb (ix2 r cc)) 0).val = 384 * t.val + r.val := by
    show win1_5.index t (0 : Fin 2) * 384 + 1 * r.val = _; rw [e0]; omega
  have i1 : ((((cfg1.win 5).blk t).view.emb (ix2 r cc)) 1).val = cc.val := by
    show win1_5.index t (1 : Fin 2) * 512 + 1 * cc.val = _; rw [e1]; omega
  generalize ((cfg1.win 5).blk t).view.emb (ix2 r cc) = i at i0 i1
  unfold Cert.Spec.Oarr
  by_cases hc : cc.val < 448
  · rw [dif_pos (show (i 1).val < 448 by omega), blkOut_lo _ _ _ _ _ _ ⟨cc.val, hc⟩ rfl]
    exact congrArg (fun c' : Fin 448 => V c main_v16 (ix2 (0 : Fin 1) c')) (Fin.ext i1.symm)
  · rw [dif_neg (show ¬ (i 1).val < 448 by omega),
      blkOut_hi _ _ _ _ _ _ r ⟨cc.val - 448, by have := cc.isLt; omega⟩ rfl (by show cc.val = 448 + (cc.val - 448); omega)]
    have er : (⟨384 * t.val + r.val, hn⟩ : Fin 3072) = i 0 := Fin.ext i0.symm
    refine Finset.sum_congr rfl fun m _ => ?_
    refine congrArg₂ (· * ·) ?_ (congrArg (fun d' : Fin 64 => V c main_v12 (ix2 m d')) (Fin.ext (by show cc.val - 448 = (i 1).val - 448; omega)))
    refine congrArg (fun f => Cert.Spec.smax f m) (funext fun m' => ?_)
    unfold Cert.Spec.rowA
    rw [← er, mblk_apply V c t r m' ⟨384 * t.val + r.val, hn⟩ rfl]
    refine congrArg (· * _) (Finset.sum_congr rfl fun d' _ => ?_)
    rw [qblk_apply V c t r d' ⟨384 * t.val + r.val, hn⟩ rfl]

/-- An index of the result array is in point `t`'s block iff each coordinate is in the block's range on its axis. -/
theorem mem_blk1 (t : Fin cfg1.N) (i : S3072x512.Idx) :
    i ∈ ((cfg1.win 5).blk t).view.set ↔ ∀ a : Fin 2, win1_5.index t a * S384x512.size a ≤ (i a).val
      ∧ (i a).val < win1_5.index t a * S384x512.size a + S384x512.size a := by
  show i ∈ ((View.whole main_v37).slice (win1_5.rect t)).set ↔ _
  rw [View.set_slice_whole, Rect.mem_set_unit]
  exact Iff.rfl

/-- Every row of the result is in some point's block: row `n` in point `n / 384`'s. -/
theorem cover1 (i : S3072x512.Idx) :
    ∃ t : Fin cfg1.N, (cfg1.win 5).flush t = true ∧ i ∈ ((cfg1.win 5).blk t).view.set := by
  have hi0 : (i 0).val < 3072 := idx2_lt0 i
  have hi1 : (i 1).val < 512 := idx2_lt1 i
  refine ⟨⟨(i 0).val / 384, by show (i 0).val / 384 < 8; omega⟩, flush1_5 _, ?_⟩
  obtain ⟨-, -, -, -, -, -, -, -, -, -, e0, e1⟩ := idx_facts1 ⟨(i 0).val / 384, by show (i 0).val / 384 < 8; omega⟩
  rw [mem_blk1]
  intro a
  match a with
  | ⟨0, _⟩ =>
    show win1_5.index _ (0 : Fin 2) * 384 ≤ (i 0).val ∧ (i 0).val < win1_5.index _ (0 : Fin 2) * 384 + 384
    rw [e0]; show (i 0).val / 384 * 384 ≤ (i 0).val ∧ (i 0).val < (i 0).val / 384 * 384 + 384; omega
  | ⟨1, _⟩ =>
    show win1_5.index _ (1 : Fin 2) * 512 ≤ (i 1).val ∧ (i 1).val < win1_5.index _ (1 : Fin 2) * 512 + 512
    rw [e1]; omega

/-- THE RESULT ARRAY after the second call: the whole-array function of its five operand arrays as the region finds
    them. -/
theorem final1 (c : Dev nD) :
    (dat1 (F := Ideal) V c).arrAt 5 cfg1.N
      = Cert.Spec.Oarr (V c main_v8) (V c main_v9) (V c main_v12) (V c main_v16) (V c main_v36) :=
  (dat1 (F := Ideal) V c).arrAt_eq_of_cover 5 _ (fun t _ => flushed1_eq V c t) cover1

end

end Cert.KernelIdeal.Hand

end
-- ==== Proof.LibScatterSet.lean ====
/-
  GENERAL LEMMA: a host scatter whose body returns the update (jnp's `x.at[idx].set(v)`), READ AT AN INDEX, for any
  dimension numbers and any element type.

  The scatter is the left fold, over the update indices in row-major order, of "replace the element the update lands
  on by the update". So an element no update lands on keeps the operand's value (`scatter_set_none`), and an element
  some update lands on ends at the LAST such update in row-major order (`scatter_set_last`): every later step leaves
  it alone.
  Nothing here mentions a program.
-/
import Idealize.ShloMosaic.PureOps.ShapeOps
import Idealize.ShloMosaic.PureOps.Dims

noncomputable section

namespace Cert.Hand.ScatterSet

open Idealize.ShloMosaic

variable {s si u : Shape} {α : Type} {w : Nat}

/-- A left fold of steps on functions, read at one point `i`: if every step of the list leaves the value at `i`
    alone, the fold does. -/
theorem foldl_keep {ι β γ : Type} (step : (β → γ) → ι → β → γ) (i : β) (P : ι → Prop)
    (hkeep : ∀ r n, ¬ P n → step r n i = r i) (l : List ι) (r₀ : β → γ) (h : ∀ n ∈ l, ¬ P n) :
    l.foldl step r₀ i = r₀ i := by
  induction l generalizing r₀ with
  | nil => rfl
  | cons n l ih =>
    rw [List.foldl_cons, ih _ (fun m hm => h m (List.mem_cons_of_mem _ hm))]
    exact hkeep r₀ n (h n List.mem_cons_self)

/-- The same fold when the step at `n₀` writes `v n₀` at `i` and every step after it leaves `i` alone: the fold
    ends at `v n₀` there, whatever came before. -/
theorem foldl_last {ι β γ : Type} (step : (β → γ) → ι → β → γ) (i : β) (P : ι → Prop) (v : ι → γ)
    (hkeep : ∀ r n, ¬ P n → step r n i = r i) (hset : ∀ r n, P n → step r n i = v n)
    (l₁ l₂ : List ι) (n₀ : ι) (r₀ : β → γ) (h₀ : P n₀) (h₂ : ∀ n ∈ l₂, ¬ P n) :
    (l₁ ++ n₀ :: l₂).foldl step r₀ i = v n₀ := by
  rw [List.foldl_append, List.foldl_cons, foldl_keep step i P hkeep l₂ _ h₂]
  exact hset _ n₀ h₀

/-- One step of the scatter whose body returns the update: the update at row-major position `n` replaces the element
    it lands on, and is dropped when it lands outside the operand. -/
private def step (d : ScatterDims s si u) (idx : IVec si w) (upd : u.Idx → α) (r : s.Idx → α) (n : Fin u.numel) :
    s.Idx → α :=
  match d.resultIdx? (u.rowMajor.symm n) idx with
  | some i'' => fun i' => if i' = i'' then upd (u.rowMajor.symm n) else r i'
  | none => r

/-- The scatter is the fold of that step over the row-major enumeration of the updates. -/
private theorem scatter_eq_foldl (d : ScatterDims s si u) (x : s.Idx → α) (idx : IVec si w) (upd : u.Idx → α) :
    Host.scatter d (fun _ b => b) x idx upd = (List.finRange u.numel).foldl (step d idx upd) x := rfl

/-- A step that does not land on `i` leaves the value there. -/
private theorem step_keep (d : ScatterDims s si u) (idx : IVec si w) (upd : u.Idx → α) (i : s.Idx)
    (r : s.Idx → α) (n : Fin u.numel) (hn : ¬ d.resultIdx? (u.rowMajor.symm n) idx = some i) :
    step d idx upd r n i = r i := by
  unfold step
  generalize d.resultIdx? (u.rowMajor.symm n) idx = o at hn
  cases o with
  | none => rfl
  | some i'' =>
    have hne : i ≠ i'' := fun e => hn (e ▸ rfl)
    exact if_neg hne

/-- A step that lands on `i` writes its update there. -/
private theorem step_set (d : ScatterDims s si u) (idx : IVec si w) (upd : u.Idx → α) (i : s.Idx)
    (r : s.Idx → α) (n : Fin u.numel) (hn : d.resultIdx? (u.rowMajor.symm n) idx = some i) :
    step d idx upd r n i = upd (u.rowMajor.symm n) := by
  unfold step
  rw [hn]
  exact if_pos rfl

/-- No update lands on `i`: the scatter leaves the operand's element there. -/
theorem scatter_set_none (d : ScatterDims s si u) (x : s.Idx → α) (idx : IVec si w) (upd : u.Idx → α) (i : s.Idx)
    (h : ∀ j : u.Idx, d.resultIdx? j idx ≠ some i) :
    Host.scatter d (fun _ b => b) x idx upd i = x i := by
  rw [scatter_eq_foldl]
  exact foldl_keep _ i (fun n => d.resultIdx? (u.rowMajor.symm n) idx = some i)
    (step_keep d idx upd i) _ x (fun n _ => h (u.rowMajor.symm n))

/-- Update `j₀` lands on `i` and no update after it in row-major order does: the scatter leaves `upd j₀` there. -/
theorem scatter_set_last (d : ScatterDims s si u) (x : s.Idx → α) (idx : IVec si w) (upd : u.Idx → α) (i : s.Idx)
    (j₀ : u.Idx) (h₀ : d.resultIdx? j₀ idx = some i)
    (hl : ∀ j : u.Idx, (u.rowMajor j₀).val < (u.rowMajor j).val → d.resultIdx? j idx ≠ some i) :
    Host.scatter d (fun _ b => b) x idx upd i = upd j₀ := by
  rw [scatter_eq_foldl]
  -- split the row-major enumeration at the position of `j₀`; it is strictly increasing, so what follows is later
  obtain ⟨l₁, l₂, hl₁₂⟩ := List.append_of_mem (List.mem_finRange (u.rowMajor j₀))
  have hpw := List.pairwise_lt_finRange u.numel
  rw [hl₁₂] at hpw ⊢
  have hlater : ∀ n ∈ l₂, u.rowMajor j₀ < n := (List.pairwise_cons.1 (List.pairwise_append.1 hpw).2.1).1
  have key := foldl_last (step d idx upd) i (fun n => d.resultIdx? (u.rowMajor.symm n) idx = some i)
    (fun n => upd (u.rowMajor.symm n)) (step_keep d idx upd i) (step_set d idx upd i)
    l₁ l₂ (u.rowMajor j₀) x (by rw [Equiv.symm_apply_apply]; exact h₀)
    (fun n hn => hl (u.rowMajor.symm n) (by rw [Equiv.apply_symm_apply]; exact hlater n hn))
  rw [Equiv.symm_apply_apply] at key
  exact key

end Cert.Hand.ScatterSet

end
-- ==== Proof.LibScatterDims.lean ====
/-
  GENERAL LEMMA: where an update lands, and which element a gather reads, for three dimension-number records that
  jnp's indexing along ONE axis lowers to, at arbitrary extents.

  * `lastScatter A B N E`: updates [A, B, E] scattered into an operand [A, B, N] at a column [E, 1] of start words
    along the LAST axis (`x.at[..., idx].set(v)`): update (a, b, e) lands at (a, b, word e read signed), or nowhere
    when that is no entry; in row-major order, among updates of one (a, b), later e is later.
  * `pointScatter N M E`: a vector of updates [E] scattered into a matrix [N, M] at a table [E, 2] of (row, column)
    words (`P.at[rows, cols].add(v)`): update e lands at (row word e, column word e), both read signed.
  * `lastGather A B N E`: `x[..., idx]` of an operand [A, B, N] at a column [E, 1]: result (a, b, e) reads the
    operand at (a, b, word e read signed), when that is an entry.
  Nothing here mentions a program: each record is built from a well-formedness fact the caller has.
-/
import Idealize.ShloMosaic.PureOps.ShapeOps
import Idealize.ShloMosaic.PureOps.Dims
import Idealize.ShloMosaic.Lib.ValueIdx

noncomputable section

namespace Cert.Hand.ScatterDims

open Idealize.ShloMosaic Idealize.ShloMosaic.ValueIdx

/-! ## Updates [A, B, E] into [A, B, N] along the last axis -/

abbrev lastScatter (A B N E : Nat)
    (wf : ScatterDims.WF ⟨3, ![A, B, N]⟩ ⟨2, ![E, 1]⟩ ⟨3, ![A, B, E]⟩ [0, 1] [2] [2] 1) :
    ScatterDims ⟨3, ![A, B, N]⟩ ⟨2, ![E, 1]⟩ ⟨3, ![A, B, E]⟩ where
  updateWindowDims := [0, 1]
  insertedWindowDims := [2]
  scatterDimsToOperandDims := [2]
  indexVectorDim := 1
  wf := wf

section LastScatter

variable {A B N E w : Nat}
  (wf : ScatterDims.WF ⟨3, ![A, B, N]⟩ ⟨2, ![E, 1]⟩ ⟨3, ![A, B, E]⟩ [0, 1] [2] [2] 1)
  (idx : IVec ⟨2, ![E, 1]⟩ w) (a : Fin A) (b : Fin B) (e : Fin E)

/-- Axes 0 and 1 are not indexed: the window starts at 0 there … -/
theorem lastScatter_start0 : (lastScatter A B N E wf).start (ix3 a b e) idx 0 = 0 := by
  unfold ScatterDims.start
  rw [dif_neg]
  show (0 : Fin 3) ∉ [(2 : Fin 3)]
  decide

theorem lastScatter_start1 : (lastScatter A B N E wf).start (ix3 a b e) idx 1 = 0 := by
  unfold ScatterDims.start
  rw [dif_neg]
  show (1 : Fin 3) ∉ [(2 : Fin 3)]
  decide

/-- … and on the last axis at the start word of e, read signed. -/
theorem lastScatter_start2 : (lastScatter A B N E wf).start (ix3 a b e) idx 2 = (idx (ix2 e 0)).toInt := by
  unfold ScatterDims.start
  rw [dif_pos (show (2 : Fin 3) ∈ (lastScatter A B N E wf).scatterDimsToOperandDims from List.mem_singleton.mpr rfl)]
  have hsi : (lastScatter A B N E wf).siIdx (ix3 a b e)
      ⟨List.idxOf (2 : Fin 3) (lastScatter A B N E wf).scatterDimsToOperandDims,
        List.idxOf_lt_length_iff.2 (List.mem_singleton.mpr rfl)⟩ = ix2 e 0 := by
    funext c; refine Fin.ext ?_
    match c with
    | ⟨0, _⟩ => rfl
    | ⟨1, _⟩ => rfl
  rw [hsi]

/-- The window coordinate is the update's own coordinate on axes 0 and 1, and 0 on the inserted last axis. -/
theorem lastScatter_window0 : (lastScatter A B N E wf).window (ix3 a b e) 0 = a.val := by
  unfold ScatterDims.window
  rw [dif_pos (show (0 : Fin 3) ∈ (lastScatter A B N E wf).sKept from
    (by decide : (0 : Fin 3) ∈ (List.finRange 3).filter (· ∉ [(2 : Fin 3)])))]
  rfl

theorem lastScatter_window1 : (lastScatter A B N E wf).window (ix3 a b e) 1 = b.val := by
  unfold ScatterDims.window
  rw [dif_pos (show (1 : Fin 3) ∈ (lastScatter A B N E wf).sKept from
    (by decide : (1 : Fin 3) ∈ (List.finRange 3).filter (· ∉ [(2 : Fin 3)])))]
  rfl

theorem lastScatter_window2 : (lastScatter A B N E wf).window (ix3 a b e) 2 = 0 := by
  unfold ScatterDims.window
  rw [dif_neg]
  show (2 : Fin 3) ∉ (List.finRange 3).filter (· ∉ [(2 : Fin 3)])
  decide

end LastScatter

/-- Update (a, b, e) lands at (a', b', d) exactly when a = a', b = b' and the start word of e, read signed, is d. -/
theorem lastScatter_resultIdx_iff {A B N E w : Nat}
    (wf : ScatterDims.WF ⟨3, ![A, B, N]⟩ ⟨2, ![E, 1]⟩ ⟨3, ![A, B, E]⟩ [0, 1] [2] [2] 1)
    (idx : IVec ⟨2, ![E, 1]⟩ w) (a : Fin A) (b : Fin B) (e : Fin E) (a' : Fin A) (b' : Fin B) (d : Fin N) :
    (lastScatter A B N E wf).resultIdx? (ix3 a b e) idx = some (ix3 a' b' d)
      ↔ a = a' ∧ b = b' ∧ (idx (ix2 e 0)).toInt = (d.val : ℤ) := by
  unfold ScatterDims.resultIdx?
  split
  · next h =>
    rw [Option.some.injEq]
    constructor
    · intro hf
      have e0 : ((lastScatter A B N E wf).start (ix3 a b e) idx 0
          + ((lastScatter A B N E wf).window (ix3 a b e) 0 : ℕ)).toNat = a'.val :=
        congrArg (fun f => (f 0).val) hf
      have e1 : ((lastScatter A B N E wf).start (ix3 a b e) idx 1
          + ((lastScatter A B N E wf).window (ix3 a b e) 1 : ℕ)).toNat = b'.val :=
        congrArg (fun f => (f 1).val) hf
      have e2 : ((lastScatter A B N E wf).start (ix3 a b e) idx 2
          + ((lastScatter A B N E wf).window (ix3 a b e) 2 : ℕ)).toNat = d.val :=
        congrArg (fun f => (f 2).val) hf
      have h2 := h 2
      rw [lastScatter_start0, lastScatter_window0] at e0
      rw [lastScatter_start1, lastScatter_window1] at e1
      rw [lastScatter_start2, lastScatter_window2] at e2 h2
      refine ⟨Fin.ext ?_, Fin.ext ?_, ?_⟩
      · omega
      · omega
      · omega
    · rintro ⟨rfl, rfl, hd⟩
      funext c
      refine Fin.ext ?_
      match c with
      | ⟨0, _⟩ =>
        show ((lastScatter A B N E wf).start (ix3 a b e) idx 0
          + ((lastScatter A B N E wf).window (ix3 a b e) 0 : ℕ)).toNat = a.val
        rw [lastScatter_start0, lastScatter_window0]
        omega
      | ⟨1, _⟩ =>
        show ((lastScatter A B N E wf).start (ix3 a b e) idx 1
          + ((lastScatter A B N E wf).window (ix3 a b e) 1 : ℕ)).toNat = b.val
        rw [lastScatter_start1, lastScatter_window1]
        omega
      | ⟨2, _⟩ =>
        show ((lastScatter A B N E wf).start (ix3 a b e) idx 2
          + ((lastScatter A B N E wf).window (ix3 a b e) 2 : ℕ)).toNat = d.val
        rw [lastScatter_start2, lastScatter_window2]
        omega
  · next h =>
    constructor
    · intro hf
      exact absurd hf (by simp)
    · rintro ⟨rfl, rfl, hd⟩
      exfalso
      apply h
      intro c
      match c with
      | ⟨0, _⟩ =>
        show 0 ≤ (lastScatter A B N E wf).start (ix3 a b e) idx 0 + ((lastScatter A B N E wf).window (ix3 a b e) 0 : ℕ)
          ∧ (lastScatter A B N E wf).start (ix3 a b e) idx 0 + ((lastScatter A B N E wf).window (ix3 a b e) 0 : ℕ) < (A : ℤ)
        rw [lastScatter_start0, lastScatter_window0]
        have := a.isLt
        omega
      | ⟨1, _⟩ =>
        show 0 ≤ (lastScatter A B N E wf).start (ix3 a b e) idx 1 + ((lastScatter A B N E wf).window (ix3 a b e) 1 : ℕ)
          ∧ (lastScatter A B N E wf).start (ix3 a b e) idx 1 + ((lastScatter A B N E wf).window (ix3 a b e) 1 : ℕ) < (B : ℤ)
        rw [lastScatter_start1, lastScatter_window1]
        have := b.isLt
        omega
      | ⟨2, _⟩ =>
        show 0 ≤ (lastScatter A B N E wf).start (ix3 a b e) idx 2 + ((lastScatter A B N E wf).window (ix3 a b e) 2 : ℕ)
          ∧ (lastScatter A B N E wf).start (ix3 a b e) idx 2 + ((lastScatter A B N E wf).window (ix3 a b e) 2 : ℕ) < (N : ℤ)
        rw [lastScatter_start2, lastScatter_window2]
        have := d.isLt
        omega

/-- Row-major order among the updates of one (a, b) is the order of e. -/
theorem lastScatter_rowMajor_lt {A B E : Nat} (a : Fin A) (b : Fin B) (e e' : Fin E) :
    ((⟨3, ![A, B, E]⟩ : Shape).rowMajor (ix3 a b e)).val < ((⟨3, ![A, B, E]⟩ : Shape).rowMajor (ix3 a b e')).val
      ↔ e.val < e'.val := by
  rw [Shape.rowMajor_val_three, Shape.rowMajor_val_three]
  show (a.val * B + b.val) * E + e.val < (a.val * B + b.val) * E + e'.val ↔ e.val < e'.val
  omega

/-! ## A vector of updates [E] into a matrix [N, M] at (row, column) words -/

abbrev pointScatter (N M E : Nat)
    (wf : ScatterDims.WF ⟨2, ![N, M]⟩ ⟨2, ![E, 2]⟩ ⟨1, ![E]⟩ [] [0, 1] [0, 1] 1) :
    ScatterDims ⟨2, ![N, M]⟩ ⟨2, ![E, 2]⟩ ⟨1, ![E]⟩ where
  updateWindowDims := []
  insertedWindowDims := [0, 1]
  scatterDimsToOperandDims := [0, 1]
  indexVectorDim := 1
  wf := wf

section PointScatter

variable {N M E w : Nat}
  (wf : ScatterDims.WF ⟨2, ![N, M]⟩ ⟨2, ![E, 2]⟩ ⟨1, ![E]⟩ [] [0, 1] [0, 1] 1)
  (idx : IVec ⟨2, ![E, 2]⟩ w) (e : Fin E)

/-- The row starts at the row word of e, the column at its column word, both read signed … -/
theorem pointScatter_start0 : (pointScatter N M E wf).start (ix1 e) idx 0 = (idx (ix2 e 0)).toInt := by
  unfold ScatterDims.start
  rw [dif_pos (show (0 : Fin 2) ∈ (pointScatter N M E wf).scatterDimsToOperandDims from
    (by decide : (0 : Fin 2) ∈ [(0 : Fin 2), 1]))]
  have hsi : (pointScatter N M E wf).siIdx (ix1 e)
      ⟨List.idxOf (0 : Fin 2) (pointScatter N M E wf).scatterDimsToOperandDims,
        List.idxOf_lt_length_iff.2 (by decide : (0 : Fin 2) ∈ [(0 : Fin 2), 1])⟩ = ix2 e 0 := by
    funext c; refine Fin.ext ?_
    match c with
    | ⟨0, _⟩ => rfl
    | ⟨1, _⟩ => rfl
  rw [hsi]

theorem pointScatter_start1 : (pointScatter N M E wf).start (ix1 e) idx 1 = (idx (ix2 e 1)).toInt := by
  unfold ScatterDims.start
  rw [dif_pos (show (1 : Fin 2) ∈ (pointScatter N M E wf).scatterDimsToOperandDims from
    (by decide : (1 : Fin 2) ∈ [(0 : Fin 2), 1]))]
  have hsi : (pointScatter N M E wf).siIdx (ix1 e)
      ⟨List.idxOf (1 : Fin 2) (pointScatter N M E wf).scatterDimsToOperandDims,
        List.idxOf_lt_length_iff.2 (by decide : (1 : Fin 2) ∈ [(0 : Fin 2), 1])⟩ = ix2 e 1 := by
    funext c; refine Fin.ext ?_
    match c with
    | ⟨0, _⟩ => rfl
    | ⟨1, _⟩ => rfl
  rw [hsi]

/-- … and both operand axes are inserted axes: the window coordinates are 0. -/
theorem pointScatter_window0 : (pointScatter N M E wf).window (ix1 e) 0 = 0 := by
  unfold ScatterDims.window
  rw [dif_neg]
  show (0 : Fin 2) ∉ (List.finRange 2).filter (· ∉ [(0 : Fin 2), 1])
  decide

theorem pointScatter_window1 : (pointScatter N M E wf).window (ix1 e) 1 = 0 := by
  unfold ScatterDims.window
  rw [dif_neg]
  show (1 : Fin 2) ∉ (List.finRange 2).filter (· ∉ [(0 : Fin 2), 1])
  decide

end PointScatter

/-- Update e lands at (r, c) exactly when its row word read signed is r and its column word read signed is c. -/
theorem pointScatter_resultIdx_iff {N M E w : Nat}
    (wf : ScatterDims.WF ⟨2, ![N, M]⟩ ⟨2, ![E, 2]⟩ ⟨1, ![E]⟩ [] [0, 1] [0, 1] 1)
    (idx : IVec ⟨2, ![E, 2]⟩ w) (e : Fin E) (r : Fin N) (c : Fin M) :
    (pointScatter N M E wf).resultIdx? (ix1 e) idx = some (ix2 r c)
      ↔ (idx (ix2 e 0)).toInt = (r.val : ℤ) ∧ (idx (ix2 e 1)).toInt = (c.val : ℤ) := by
  unfold ScatterDims.resultIdx?
  split
  · next h =>
    rw [Option.some.injEq]
    have h0 := h 0
    have h1 := h 1
    rw [pointScatter_start0, pointScatter_window0] at h0
    rw [pointScatter_start1, pointScatter_window1] at h1
    constructor
    · intro hf
      have e0 : ((pointScatter N M E wf).start (ix1 e) idx 0
          + ((pointScatter N M E wf).window (ix1 e) 0 : ℕ)).toNat = r.val :=
        congrArg (fun f => (f 0).val) hf
      have e1 : ((pointScatter N M E wf).start (ix1 e) idx 1
          + ((pointScatter N M E wf).window (ix1 e) 1 : ℕ)).toNat = c.val :=
        congrArg (fun f => (f 1).val) hf
      rw [pointScatter_start0, pointScatter_window0] at e0
      rw [pointScatter_start1, pointScatter_window1] at e1
      constructor
      · omega
      · omega
    · rintro ⟨hr, hc⟩
      funext k
      refine Fin.ext ?_
      match k with
      | ⟨0, _⟩ =>
        show ((pointScatter N M E wf).start (ix1 e) idx 0
          + ((pointScatter N M E wf).window (ix1 e) 0 : ℕ)).toNat = r.val
        rw [pointScatter_start0, pointScatter_window0]
        omega
      | ⟨1, _⟩ =>
        show ((pointScatter N M E wf).start (ix1 e) idx 1
          + ((pointScatter N M E wf).window (ix1 e) 1 : ℕ)).toNat = c.val
        rw [pointScatter_start1, pointScatter_window1]
        omega
  · next h =>
    constructor
    · intro hf
      exact absurd hf (by simp)
    · rintro ⟨hr, hc⟩
      exfalso
      apply h
      intro k
      match k with
      | ⟨0, _⟩ =>
        show 0 ≤ (pointScatter N M E wf).start (ix1 e) idx 0 + ((pointScatter N M E wf).window (ix1 e) 0 : ℕ)
          ∧ (pointScatter N M E wf).start (ix1 e) idx 0 + ((pointScatter N M E wf).window (ix1 e) 0 : ℕ) < (N : ℤ)
        rw [pointScatter_start0, pointScatter_window0]
        have := r.isLt
        omega
      | ⟨1, _⟩ =>
        show 0 ≤ (pointScatter N M E wf).start (ix1 e) idx 1 + ((pointScatter N M E wf).window (ix1 e) 1 : ℕ)
          ∧ (pointScatter N M E wf).start (ix1 e) idx 1 + ((pointScatter N M E wf).window (ix1 e) 1 : ℕ) < (M : ℤ)
        rw [pointScatter_start1, pointScatter_window1]
        have := c.isLt
        omega

/-! ## `x[..., idx]` of [A, B, N] at a column [E, 1] -/

abbrev lastGather (A B N E : Nat)
    (wf : GatherDims.WF ⟨3, ![A, B, N]⟩ ⟨2, ![E, 1]⟩ ⟨3, ![A, B, E]⟩ [0, 1] [2] [] [2] [] 1 ![A, B, 1]) :
    GatherDims ⟨3, ![A, B, N]⟩ ⟨2, ![E, 1]⟩ ⟨3, ![A, B, E]⟩ where
  offsetDims := [0, 1]
  collapsedSliceDims := [2]
  operandBatchingDims := []
  startIndicesBatchingDims := []
  startIndexMap := [2]
  indexVectorDim := 1
  sliceSizes := ![A, B, 1]
  wf := wf

/-- Result (a, b, e) reads the operand at (a, b, g) when the start word of e, read signed, is the entry g. -/
theorem lastGather_apply {α : Type} {A B N E w : Nat}
    (wf : GatherDims.WF ⟨3, ![A, B, N]⟩ ⟨2, ![E, 1]⟩ ⟨3, ![A, B, E]⟩ [0, 1] [2] [] [2] [] 1 ![A, B, 1])
    (x : (⟨3, ![A, B, N]⟩ : Shape).Idx → α) (idx : IVec ⟨2, ![E, 1]⟩ w) (a : Fin A) (b : Fin B) (e : Fin E) (g : Fin N)
    (hg : (idx (ix2 e 0)).toInt = (g.val : ℤ)) :
    Host.gather (lastGather A B N E wf) x idx (ix3 a b e) = x (ix3 a b g) := by
  unfold Host.gather
  congr 1
  funext k
  refine Fin.ext ?_
  match k with
  | ⟨0, _⟩ =>
    show (lastGather A B N E wf).start (ix3 a b e) idx 0 + (lastGather A B N E wf).batchCoord (ix3 a b e) 0
      + (lastGather A B N E wf).offCoord (ix3 a b e) 0 = a.val
    rw [GatherDims.batchCoord_eq_zero _ _ _ List.not_mem_nil]
    have hst : (lastGather A B N E wf).start (ix3 a b e) idx 0 = 0 := by
      unfold GatherDims.start
      rw [dif_neg]
      show (0 : Fin 3) ∉ [(2 : Fin 3)]
      decide
    have hoff : (lastGather A B N E wf).offCoord (ix3 a b e) 0 = a.val := by
      unfold GatherDims.offCoord
      rw [dif_pos (show (0 : Fin 3) ∈ (lastGather A B N E wf).sKept from
        (by decide : (0 : Fin 3) ∈ (List.finRange 3).filter (· ∉ [(2 : Fin 3)] ++ [])))]
      rfl
    rw [hst, hoff]
    omega
  | ⟨1, _⟩ =>
    show (lastGather A B N E wf).start (ix3 a b e) idx 1 + (lastGather A B N E wf).batchCoord (ix3 a b e) 1
      + (lastGather A B N E wf).offCoord (ix3 a b e) 1 = b.val
    rw [GatherDims.batchCoord_eq_zero _ _ _ List.not_mem_nil]
    have hst : (lastGather A B N E wf).start (ix3 a b e) idx 1 = 0 := by
      unfold GatherDims.start
      rw [dif_neg]
      show (1 : Fin 3) ∉ [(2 : Fin 3)]
      decide
    have hoff : (lastGather A B N E wf).offCoord (ix3 a b e) 1 = b.val := by
      unfold GatherDims.offCoord
      rw [dif_pos (show (1 : Fin 3) ∈ (lastGather A B N E wf).sKept from
        (by decide : (1 : Fin 3) ∈ (List.finRange 3).filter (· ∉ [(2 : Fin 3)] ++ [])))]
      rfl
    rw [hst, hoff]
    omega
  | ⟨2, _⟩ =>
    show (lastGather A B N E wf).start (ix3 a b e) idx 2 + (lastGather A B N E wf).batchCoord (ix3 a b e) 2
      + (lastGather A B N E wf).offCoord (ix3 a b e) 2 = g.val
    rw [GatherDims.batchCoord_eq_zero _ _ _ List.not_mem_nil,
      GatherDims.offCoord_eq_zero _ _ _ (fun h => ((GatherDims.mem_sKept _ _).mp h).1 (List.mem_singleton.mpr rfl))]
    have hst : (lastGather A B N E wf).start (ix3 a b e) idx 2 = min (idx (ix2 e 0)).toInt.toNat (N - 1) := by
      unfold GatherDims.start
      rw [dif_pos (show (2 : Fin 3) ∈ (lastGather A B N E wf).startIndexMap from List.mem_singleton.mpr rfl)]
      have hsi : (lastGather A B N E wf).siIdx (ix3 a b e)
          ⟨List.idxOf (2 : Fin 3) (lastGather A B N E wf).startIndexMap,
            List.idxOf_lt_length_iff.2 (List.mem_singleton.mpr rfl)⟩ = ix2 e 0 := by
        funext c; refine Fin.ext ?_
        match c with
        | ⟨0, _⟩ => rfl
        | ⟨1, _⟩ => rfl
      rw [hsi]
      rfl
    rw [hst, hg]
    have := g.isLt
    omega

end Cert.Hand.ScatterDims

end
-- ==== Proof.LibGatherPair.lean ====
/-
  A host gather of single ENTRIES of a rank-2 operand [N, M] at a table [R, 2] of (row, column) start words: what
  `x[rows, cols]` of a matrix at two integer vectors of the same length lowers to. Both operand axes are collapsed,
  the start index has two components (the table's axis 1), the result is the vector [R]. Read at r it is the operand
  at (the word at (r, 0), the word at (r, 1)), each read as a signed integer and clamped into its axis.
-/
import Idealize.ShloMosaic.Lib.ValueIdx

noncomputable section

namespace Cert.Lib.GatherPair

open Idealize.ShloMosaic Idealize.ShloMosaic.ValueIdx

variable {α : Type}

/-- The dimension numbers of that gather for an operand [N, M], start indices [R, 2] and result [R]; their conditions
    are decided on a program's literal shapes. -/
abbrev pairDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- THE GATHER READ AT r: the operand at the two start words of table row r, each read signed and clamped into its
    axis: the row word into [0, N − 1], the column word into [0, M − 1]. -/
theorem gather_pair_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (r : Fin R) :
    Host.gather (pairDims N M R wf) x idx (ix1 r)
      = x (ix2 (⟨min (idx (ix2 r (0 : Fin 2))).toInt.toNat (N - 1), by omega⟩ : Fin N)
               (⟨min (idx (ix2 r (1 : Fin 2))).toInt.toNat (M - 1), by omega⟩ : Fin M)) := by
  unfold Host.gather
  congr 1
  funext a
  refine Fin.ext ?_
  match a with
  | ⟨0, _⟩ =>
    -- operand axis 0 is collapsed and not batching: no batch and no offset coordinate, the start is component 0
    show (pairDims N M R wf).start (ix1 r) idx 0 + (pairDims N M R wf).batchCoord (ix1 r) 0
      + (pairDims N M R wf).offCoord (ix1 r) 0 = min (idx (ix2 r (0 : Fin 2))).toInt.toNat (N - 1)
    have hm : (0 : Fin 2) ∈ ([0, 1] : List (Fin 2)) := by decide
    rw [GatherDims.batchCoord_eq_zero _ _ _ List.not_mem_nil,
      GatherDims.offCoord_eq_zero _ _ _ (fun h => ((GatherDims.mem_sKept _ _).mp h).1 hm)]
    simp only [Nat.add_zero]
    unfold GatherDims.start
    rw [dif_pos (show (0 : Fin 2) ∈ (pairDims N M R wf).startIndexMap from hm)]
    have hsi : (pairDims N M R wf).siIdx (ix1 r) ⟨List.idxOf (0 : Fin 2) (pairDims N M R wf).startIndexMap,
        List.idxOf_lt_length_iff.2 hm⟩ = ix2 r (0 : Fin 2) := by
      funext b; refine Fin.ext ?_
      match b with
      | ⟨0, _⟩ => rfl
      | ⟨1, _⟩ => rfl
    rw [hsi]
    rfl
  | ⟨1, _⟩ =>
    -- operand axis 1 likewise, its start component 1 of the start index
    show (pairDims N M R wf).start (ix1 r) idx 1 + (pairDims N M R wf).batchCoord (ix1 r) 1
      + (pairDims N M R wf).offCoord (ix1 r) 1 = min (idx (ix2 r (1 : Fin 2))).toInt.toNat (M - 1)
    have hm : (1 : Fin 2) ∈ ([0, 1] : List (Fin 2)) := by decide
    rw [GatherDims.batchCoord_eq_zero _ _ _ List.not_mem_nil,
      GatherDims.offCoord_eq_zero _ _ _ (fun h => ((GatherDims.mem_sKept _ _).mp h).1 hm)]
    simp only [Nat.add_zero]
    unfold GatherDims.start
    rw [dif_pos (show (1 : Fin 2) ∈ (pairDims N M R wf).startIndexMap from hm)]
    have hsi : (pairDims N M R wf).siIdx (ix1 r) ⟨List.idxOf (1 : Fin 2) (pairDims N M R wf).startIndexMap,
        List.idxOf_lt_length_iff.2 hm⟩ = ix2 r (1 : Fin 2) := by
      funext b; refine Fin.ext ?_
      match b with
      | ⟨0, _⟩ => rfl
      | ⟨1, _⟩ => rfl
    rw [hsi]
    rfl

end Cert.Lib.GatherPair

end
-- ==== Proof.LibPointTriple.lean ====
/-
  GENERAL LEMMA: where an update lands, and which element a gather reads, for the two dimension-number records that
  jnp's indexing of a rank-3 array at THREE integer vectors lowers to, at arbitrary extents.

  * `pointScatter3 A N M E`: a vector of updates [E] scattered into an array [A, N, M] at a table [E, 3] of
    (plane, row, column) words (`x.at[planes, rows, cols].set(v)`): update e lands at its three words, each read
    signed, or nowhere when they are no index of the array.
  * `tripleDims A N M R`: `x[planes, rows, cols]` of an array [A, N, M] at a table [R, 3]: result r reads the array at
    its three words, each read signed and clamped into its axis; where the words are an index, at that index.
  Two small facts go with them: a nonempty decidable set of a finite range has a last element, and row-major order of
  a vector is the order of its coordinate.
  Nothing here mentions a program: each record is built from a well-formedness fact the caller has.
-/
import Idealize.ShloMosaic.PureOps.ShapeOps
import Idealize.ShloMosaic.PureOps.Dims
import Idealize.ShloMosaic.Lib.ValueIdx

noncomputable section

namespace Cert.Hand.PointTriple

open Idealize.ShloMosaic Idealize.ShloMosaic.ValueIdx

/-- Among the indices of a finite range that satisfy a predicate, when there is one, there is a LAST one. -/
theorem exists_last {E : Nat} (P : Fin E → Prop) (h : ∃ e, P e) :
    ∃ e₀, P e₀ ∧ ∀ e : Fin E, e₀.val < e.val → ¬ P e := by
  classical
  obtain ⟨e, he⟩ := h
  have hne : (Finset.univ.filter P).Nonempty := ⟨e, Finset.mem_filter.mpr ⟨Finset.mem_univ e, he⟩⟩
  refine ⟨(Finset.univ.filter P).max' hne, ?_, ?_⟩
  · exact (Finset.mem_filter.mp (Finset.max'_mem _ hne)).2
  · intro e' hlt hP
    have hle : e' ≤ (Finset.univ.filter P).max' hne :=
      Finset.le_max' _ e' (Finset.mem_filter.mpr ⟨Finset.mem_univ e', hP⟩)
    exact absurd (Fin.lt_def.mpr hlt) (not_lt.mpr hle)

/-- Row-major order of a vector of updates is the order of its one coordinate. -/
theorem rowMajor_ix1 {E : Nat} (e : Fin E) : ((⟨1, ![E]⟩ : Shape).rowMajor (ix1 e)).val = e.val := by
  rw [Shape.rowMajor_val_one]
  rfl

/-! ## A vector of updates [E] into a rank-3 array [A, N, M] at (plane, row, column) words -/

abbrev pointScatter3 (A N M E : Nat)
    (wf : ScatterDims.WF ⟨3, ![A, N, M]⟩ ⟨2, ![E, 3]⟩ ⟨1, ![E]⟩ [] [0, 1, 2] [0, 1, 2] 1) :
    ScatterDims ⟨3, ![A, N, M]⟩ ⟨2, ![E, 3]⟩ ⟨1, ![E]⟩ where
  updateWindowDims := []
  insertedWindowDims := [0, 1, 2]
  scatterDimsToOperandDims := [0, 1, 2]
  indexVectorDim := 1
  wf := wf

section PointScatter3

variable {A N M E w : Nat}
  (wf : ScatterDims.WF ⟨3, ![A, N, M]⟩ ⟨2, ![E, 3]⟩ ⟨1, ![E]⟩ [] [0, 1, 2] [0, 1, 2] 1)
  (idx : IVec ⟨2, ![E, 3]⟩ w) (e : Fin E)

/-- On each operand axis the window starts at the word of table row e for that axis, read signed … -/
theorem pointScatter3_start0 : (pointScatter3 A N M E wf).start (ix1 e) idx 0 = (idx (ix2 e 0)).toInt := by
  unfold ScatterDims.start
  rw [dif_pos (show (0 : Fin 3) ∈ (pointScatter3 A N M E wf).scatterDimsToOperandDims from
    (by decide : (0 : Fin 3) ∈ [(0 : Fin 3), 1, 2]))]
  have hsi : (pointScatter3 A N M E wf).siIdx (ix1 e)
      ⟨List.idxOf (0 : Fin 3) (pointScatter3 A N M E wf).scatterDimsToOperandDims,
        List.idxOf_lt_length_iff.2 (by decide : (0 : Fin 3) ∈ [(0 : Fin 3), 1, 2])⟩ = ix2 e 0 := by
    funext c; refine Fin.ext ?_
    match c with
    | ⟨0, _⟩ => rfl
    | ⟨1, _⟩ => rfl
  rw [hsi]

theorem pointScatter3_start1 : (pointScatter3 A N M E wf).start (ix1 e) idx 1 = (idx (ix2 e 1)).toInt := by
  unfold ScatterDims.start
  rw [dif_pos (show (1 : Fin 3) ∈ (pointScatter3 A N M E wf).scatterDimsToOperandDims from
    (by decide : (1 : Fin 3) ∈ [(0 : Fin 3), 1, 2]))]
  have hsi : (pointScatter3 A N M E wf).siIdx (ix1 e)
      ⟨List.idxOf (1 : Fin 3) (pointScatter3 A N M E wf).scatterDimsToOperandDims,
        List.idxOf_lt_length_iff.2 (by decide : (1 : Fin 3) ∈ [(0 : Fin 3), 1, 2])⟩ = ix2 e 1 := by
    funext c; refine Fin.ext ?_
    match c with
    | ⟨0, _⟩ => rfl
    | ⟨1, _⟩ => rfl
  rw [hsi]

theorem pointScatter3_start2 : (pointScatter3 A N M E wf).start (ix1 e) idx 2 = (idx (ix2 e 2)).toInt := by
  unfold ScatterDims.start
  rw [dif_pos (show (2 : Fin 3) ∈ (pointScatter3 A N M E wf).scatterDimsToOperandDims from
    (by decide : (2 : Fin 3) ∈ [(0 : Fin 3), 1, 2]))]
  have hsi : (pointScatter3 A N M E wf).siIdx (ix1 e)
      ⟨List.idxOf (2 : Fin 3) (pointScatter3 A N M E wf).scatterDimsToOperandDims,
        List.idxOf_lt_length_iff.2 (by decide : (2 : Fin 3) ∈ [(0 : Fin 3), 1, 2])⟩ = ix2 e 2 := by
    funext c; refine Fin.ext ?_
    match c with
    | ⟨0, _⟩ => rfl
    | ⟨1, _⟩ => rfl
  rw [hsi]

/-- … and all three operand axes are inserted axes: every window coordinate is 0. -/
theorem pointScatter3_window (a : Fin 3) : (pointScatter3 A N M E wf).window (ix1 e) a = 0 := by
  unfold ScatterDims.window
  rw [dif_neg]
  show a ∉ (List.finRange 3).filter (· ∉ [(0 : Fin 3), 1, 2])
  revert a
  decide

end PointScatter3

/-- Update e lands at (a, r, c) exactly when the three words of table row e, read signed, are a, r and c. -/
theorem pointScatter3_resultIdx_iff {A N M E w : Nat}
    (wf : ScatterDims.WF ⟨3, ![A, N, M]⟩ ⟨2, ![E, 3]⟩ ⟨1, ![E]⟩ [] [0, 1, 2] [0, 1, 2] 1)
    (idx : IVec ⟨2, ![E, 3]⟩ w) (e : Fin E) (a : Fin A) (r : Fin N) (c : Fin M) :
    (pointScatter3 A N M E wf).resultIdx? (ix1 e) idx = some (ix3 a r c)
      ↔ (idx (ix2 e 0)).toInt = (a.val : ℤ) ∧ (idx (ix2 e 1)).toInt = (r.val : ℤ)
        ∧ (idx (ix2 e 2)).toInt = (c.val : ℤ) := by
  unfold ScatterDims.resultIdx?
  split
  · next h =>
    rw [Option.some.injEq]
    constructor
    · intro hf
      have e0 : ((pointScatter3 A N M E wf).start (ix1 e) idx 0
          + ((pointScatter3 A N M E wf).window (ix1 e) 0 : ℕ)).toNat = a.val :=
        congrArg (fun f => (f 0).val) hf
      have e1 : ((pointScatter3 A N M E wf).start (ix1 e) idx 1
          + ((pointScatter3 A N M E wf).window (ix1 e) 1 : ℕ)).toNat = r.val :=
        congrArg (fun f => (f 1).val) hf
      have e2 : ((pointScatter3 A N M E wf).start (ix1 e) idx 2
          + ((pointScatter3 A N M E wf).window (ix1 e) 2 : ℕ)).toNat = c.val :=
        congrArg (fun f => (f 2).val) hf
      have h0 := h 0
      have h1 := h 1
      have h2 := h 2
      rw [pointScatter3_start0, pointScatter3_window] at e0 h0
      rw [pointScatter3_start1, pointScatter3_window] at e1 h1
      rw [pointScatter3_start2, pointScatter3_window] at e2 h2
      refine ⟨?_, ?_, ?_⟩
      · omega
      · omega
      · omega
    · rintro ⟨ha, hr, hc⟩
      funext k
      refine Fin.ext ?_
      match k with
      | ⟨0, _⟩ =>
        show ((pointScatter3 A N M E wf).start (ix1 e) idx 0
          + ((pointScatter3 A N M E wf).window (ix1 e) 0 : ℕ)).toNat = a.val
        rw [pointScatter3_start0, pointScatter3_window]
        omega
      | ⟨1, _⟩ =>
        show ((pointScatter3 A N M E wf).start (ix1 e) idx 1
          + ((pointScatter3 A N M E wf).window (ix1 e) 1 : ℕ)).toNat = r.val
        rw [pointScatter3_start1, pointScatter3_window]
        omega
      | ⟨2, _⟩ =>
        show ((pointScatter3 A N M E wf).start (ix1 e) idx 2
          + ((pointScatter3 A N M E wf).window (ix1 e) 2 : ℕ)).toNat = c.val
        rw [pointScatter3_start2, pointScatter3_window]
        omega
  · next h =>
    constructor
    · intro hf
      exact absurd hf (by simp)
    · rintro ⟨ha, hr, hc⟩
      exfalso
      apply h
      intro k
      match k with
      | ⟨0, _⟩ =>
        show 0 ≤ (pointScatter3 A N M E wf).start (ix1 e) idx 0 + ((pointScatter3 A N M E wf).window (ix1 e) 0 : ℕ)
          ∧ (pointScatter3 A N M E wf).start (ix1 e) idx 0 + ((pointScatter3 A N M E wf).window (ix1 e) 0 : ℕ) < (A : ℤ)
        rw [pointScatter3_start0, pointScatter3_window]
        have := a.isLt
        omega
      | ⟨1, _⟩ =>
        show 0 ≤ (pointScatter3 A N M E wf).start (ix1 e) idx 1 + ((pointScatter3 A N M E wf).window (ix1 e) 1 : ℕ)
          ∧ (pointScatter3 A N M E wf).start (ix1 e) idx 1 + ((pointScatter3 A N M E wf).window (ix1 e) 1 : ℕ) < (N : ℤ)
        rw [pointScatter3_start1, pointScatter3_window]
        have := r.isLt
        omega
      | ⟨2, _⟩ =>
        show 0 ≤ (pointScatter3 A N M E wf).start (ix1 e) idx 2 + ((pointScatter3 A N M E wf).window (ix1 e) 2 : ℕ)
          ∧ (pointScatter3 A N M E wf).start (ix1 e) idx 2 + ((pointScatter3 A N M E wf).window (ix1 e) 2 : ℕ) < (M : ℤ)
        rw [pointScatter3_start2, pointScatter3_window]
        have := c.isLt
        omega

/-! ## Single entries of a rank-3 array [A, N, M] gathered at a table [R, 3] -/

/-- The dimension numbers of `x[planes, rows, cols]` at three integer vectors of one length: every operand axis is
    collapsed, the start index has three components (the table's axis 1), the result is the vector [R]. -/
abbrev tripleDims (A N M R : Nat)
    (wf : GatherDims.WF ⟨3, ![A, N, M]⟩ ⟨2, ![R, 3]⟩ ⟨1, ![R]⟩ [] [0, 1, 2] [] [0, 1, 2] [] 1 ![1, 1, 1]) :
    GatherDims ⟨3, ![A, N, M]⟩ ⟨2, ![R, 3]⟩ ⟨1, ![R]⟩ where
  offsetDims := []
  collapsedSliceDims := [0, 1, 2]
  operandBatchingDims := []
  startIndicesBatchingDims := []
  startIndexMap := [0, 1, 2]
  indexVectorDim := 1
  sliceSizes := ![1, 1, 1]
  wf := wf

section TripleGather

variable {A N M R w : Nat}
  (wf : GatherDims.WF ⟨3, ![A, N, M]⟩ ⟨2, ![R, 3]⟩ ⟨1, ![R]⟩ [] [0, 1, 2] [] [0, 1, 2] [] 1 ![1, 1, 1])
  (idx : IVec ⟨2, ![R, 3]⟩ w) (r : Fin R)

/-- No operand axis is kept or batching: the operand coordinate on each axis is the start alone. -/
theorem tripleDims_coord (a : Fin 3) :
    (tripleDims A N M R wf).start (ix1 r) idx a + (tripleDims A N M R wf).batchCoord (ix1 r) a
      + (tripleDims A N M R wf).offCoord (ix1 r) a = (tripleDims A N M R wf).start (ix1 r) idx a := by
  have hm : a ∈ ([0, 1, 2] : List (Fin 3)) := by revert a; decide
  rw [GatherDims.batchCoord_eq_zero _ _ _ List.not_mem_nil,
    GatherDims.offCoord_eq_zero _ _ _ (fun h => ((GatherDims.mem_sKept _ _).mp h).1 hm)]
  rfl

/-- The start on each axis is the word of table row r for that axis, read signed and clamped into the axis. -/
theorem tripleDims_start0 :
    (tripleDims A N M R wf).start (ix1 r) idx 0 = min (idx (ix2 r (0 : Fin 3))).toInt.toNat (A - 1) := by
  have hm : (0 : Fin 3) ∈ ([0, 1, 2] : List (Fin 3)) := by decide
  unfold GatherDims.start
  rw [dif_pos (show (0 : Fin 3) ∈ (tripleDims A N M R wf).startIndexMap from hm)]
  have hsi : (tripleDims A N M R wf).siIdx (ix1 r) ⟨List.idxOf (0 : Fin 3) (tripleDims A N M R wf).startIndexMap,
      List.idxOf_lt_length_iff.2 hm⟩ = ix2 r (0 : Fin 3) := by
    funext b; refine Fin.ext ?_
    match b with
    | ⟨0, _⟩ => rfl
    | ⟨1, _⟩ => rfl
  rw [hsi]
  rfl

theorem tripleDims_start1 :
    (tripleDims A N M R wf).start (ix1 r) idx 1 = min (idx (ix2 r (1 : Fin 3))).toInt.toNat (N - 1) := by
  have hm : (1 : Fin 3) ∈ ([0, 1, 2] : List (Fin 3)) := by decide
  unfold GatherDims.start
  rw [dif_pos (show (1 : Fin 3) ∈ (tripleDims A N M R wf).startIndexMap from hm)]
  have hsi : (tripleDims A N M R wf).siIdx (ix1 r) ⟨List.idxOf (1 : Fin 3) (tripleDims A N M R wf).startIndexMap,
      List.idxOf_lt_length_iff.2 hm⟩ = ix2 r (1 : Fin 3) := by
    funext b; refine Fin.ext ?_
    match b with
    | ⟨0, _⟩ => rfl
    | ⟨1, _⟩ => rfl
  rw [hsi]
  rfl

theorem tripleDims_start2 :
    (tripleDims A N M R wf).start (ix1 r) idx 2 = min (idx (ix2 r (2 : Fin 3))).toInt.toNat (M - 1) := by
  have hm : (2 : Fin 3) ∈ ([0, 1, 2] : List (Fin 3)) := by decide
  unfold GatherDims.start
  rw [dif_pos (show (2 : Fin 3) ∈ (tripleDims A N M R wf).startIndexMap from hm)]
  have hsi : (tripleDims A N M R wf).siIdx (ix1 r) ⟨List.idxOf (2 : Fin 3) (tripleDims A N M R wf).startIndexMap,
      List.idxOf_lt_length_iff.2 hm⟩ = ix2 r (2 : Fin 3) := by
    funext b; refine Fin.ext ?_
    match b with
    | ⟨0, _⟩ => rfl
    | ⟨1, _⟩ => rfl
  rw [hsi]
  rfl

end TripleGather

/-- THE GATHER READ AT r: the operand at the three words of table row r, each read signed and clamped into its
    axis. -/
theorem gather_triple_apply {α : Type} {A N M R w : Nat} (hA : 0 < A) (hN : 0 < N) (hM : 0 < M)
    (wf : GatherDims.WF ⟨3, ![A, N, M]⟩ ⟨2, ![R, 3]⟩ ⟨1, ![R]⟩ [] [0, 1, 2] [] [0, 1, 2] [] 1 ![1, 1, 1])
    (x : (⟨3, ![A, N, M]⟩ : Shape).Idx → α) (idx : IVec ⟨2, ![R, 3]⟩ w) (r : Fin R) :
    Host.gather (tripleDims A N M R wf) x idx (ix1 r)
      = x (ix3 (⟨min (idx (ix2 r (0 : Fin 3))).toInt.toNat (A - 1), by omega⟩ : Fin A)
               (⟨min (idx (ix2 r (1 : Fin 3))).toInt.toNat (N - 1), by omega⟩ : Fin N)
               (⟨min (idx (ix2 r (2 : Fin 3))).toInt.toNat (M - 1), by omega⟩ : Fin M)) := by
  unfold Host.gather
  congr 1
  funext a
  refine Fin.ext ?_
  match a with
  | ⟨0, _⟩ =>
    show (tripleDims A N M R wf).start (ix1 r) idx 0 + (tripleDims A N M R wf).batchCoord (ix1 r) 0
      + (tripleDims A N M R wf).offCoord (ix1 r) 0 = min (idx (ix2 r (0 : Fin 3))).toInt.toNat (A - 1)
    rw [tripleDims_coord, tripleDims_start0]
  | ⟨1, _⟩ =>
    show (tripleDims A N M R wf).start (ix1 r) idx 1 + (tripleDims A N M R wf).batchCoord (ix1 r) 1
      + (tripleDims A N M R wf).offCoord (ix1 r) 1 = min (idx (ix2 r (1 : Fin 3))).toInt.toNat (N - 1)
    rw [tripleDims_coord, tripleDims_start1]
  | ⟨2, _⟩ =>
    show (tripleDims A N M R wf).start (ix1 r) idx 2 + (tripleDims A N M R wf).batchCoord (ix1 r) 2
      + (tripleDims A N M R wf).offCoord (ix1 r) 2 = min (idx (ix2 r (2 : Fin 3))).toInt.toNat (M - 1)
    rw [tripleDims_coord, tripleDims_start2]

/-- When the three words of table row r, read signed, ARE an index (a, n, m) of the operand, clamping is the identity
    and the gather reads the operand there. -/
theorem gather_triple_at {α : Type} {A N M R w : Nat}
    (wf : GatherDims.WF ⟨3, ![A, N, M]⟩ ⟨2, ![R, 3]⟩ ⟨1, ![R]⟩ [] [0, 1, 2] [] [0, 1, 2] [] 1 ![1, 1, 1])
    (x : (⟨3, ![A, N, M]⟩ : Shape).Idx → α) (idx : IVec ⟨2, ![R, 3]⟩ w) (r : Fin R)
    (a : Fin A) (n : Fin N) (m : Fin M)
    (ha : (idx (ix2 r (0 : Fin 3))).toInt = (a.val : ℤ)) (hn : (idx (ix2 r (1 : Fin 3))).toInt = (n.val : ℤ))
    (hm : (idx (ix2 r (2 : Fin 3))).toInt = (m.val : ℤ)) :
    Host.gather (tripleDims A N M R wf) x idx (ix1 r) = x (ix3 a n m) := by
  rw [gather_triple_apply (Nat.pos_of_ne_zero (fun h => by have := a.isLt; omega))
    (Nat.pos_of_ne_zero (fun h => by have := n.isLt; omega)) (Nat.pos_of_ne_zero (fun h => by have := m.isLt; omega))]
  congr 1
  funext k
  refine Fin.ext ?_
  match k with
  | ⟨0, _⟩ =>
    show min (idx (ix2 r (0 : Fin 3))).toInt.toNat (A - 1) = a.val
    rw [ha]
    have := a.isLt
    omega
  | ⟨1, _⟩ =>
    show min (idx (ix2 r (1 : Fin 3))).toInt.toNat (N - 1) = n.val
    rw [hn]
    have := n.isLt
    omega
  | ⟨2, _⟩ =>
    show min (idx (ix2 r (2 : Fin 3))).toInt.toNat (M - 1) = m.val
    rw [hm]
    have := m.isLt
    omega

end Cert.Hand.PointTriple

end
-- ==== Proof.ScatterRead.lean ====
/-
  Two host scatters whose body returns the update, read at an index.

  The first builds an indicator matrix: a matrix of `zero` into which a table of (row, column) words scatters the
  constant `one`.  Read at (n, m) it is `one` exactly when some table row reads (n, m) as signed integers.

  The second masks a rank-3 array: into an array of `zero` a table of (plane, row, column) words scatters the entries
  of `x` gathered at the same table.  An update lands where its three words, read signed, are an index of the array;
  there the gather's clamping is the identity, so the update carries `x` at the very index it lands on.  Every update
  that lands at an index therefore writes the same value, and whichever comes last leaves it.
-/
import proofs.«424312_j34505767256362_2_alg».proof.KernelIdeal
import proofs.«424312_j34505767256362_2_alg».proof.ReferenceIdeal
import proofs.«424312_j34505767256362_2_alg».proof.Proof.LibScatterSet
import proofs.«424312_j34505767256362_2_alg».proof.Proof.LibScatterDims
import proofs.«424312_j34505767256362_2_alg».proof.Proof.LibGatherPair
import proofs.«424312_j34505767256362_2_alg».proof.Proof.LibPointTriple
import Idealize.ShloMosaic.Lib.ValueIdx

noncomputable section

namespace Cert.Hand.ScatterRead

open Idealize.ShloMosaic Idealize.ShloMosaic.ValueIdx
open Cert.Hand.ScatterSet Cert.Hand.ScatterDims Cert.Hand.PointTriple

/-! ## The indicator matrix -/

open Classical in
/-- A matrix of `zero` with the constant `one` scattered at a table of (row, column) words, read at (n, m): `one` when
    some table row reads (n, m), else `zero`.  Among the rows that read (n, m) the last decides, and it writes `one`
    like every other. -/
theorem mask_read [Cert.KernelIdeal.Facts₀] {α : Type} (idx : IVec (⟨2, ![98304, 2]⟩ : Shape) 32) (one zero : α) (n m : Fin 3072) :
    Host.scatter Cert.KernelIdeal.scatter_S3072x3072_S98304x2_S98304_n_01_01_1 (fun _ b => b) (fun _ => zero) idx (fun _ => one) (ix2 n m)
      = if (∃ e : Fin 98304, (idx (ix2 e (0 : Fin 2))).toInt = (n.val : ℤ) ∧ (idx (ix2 e (1 : Fin 2))).toInt = (m.val : ℤ)) then one else zero := by
  have hd : Cert.KernelIdeal.scatter_S3072x3072_S98304x2_S98304_n_01_01_1
      = pointScatter 3072 3072 98304 Cert.KernelIdeal.Facts₀.scatter_S3072x3072_S98304x2_S98304_n_01_01_1_wf := rfl
  rw [hd]
  by_cases hex : ∃ e : Fin 98304, (idx (ix2 e (0 : Fin 2))).toInt = (n.val : ℤ) ∧ (idx (ix2 e (1 : Fin 2))).toInt = (m.val : ℤ)
  · rw [if_pos hex]
    obtain ⟨e₀, he₀, hlast⟩ := exists_last _ hex
    refine (scatter_set_last _ _ idx _ (ix2 n m) (ix1 e₀) ((pointScatter_resultIdx_iff _ idx e₀ n m).mpr he₀) ?_).trans rfl
    intro j hlt hland
    obtain ⟨e, rfl⟩ : ∃ e, j = ix1 e := ⟨j 0, eq_ix1 j⟩
    rw [rowMajor_ix1, rowMajor_ix1] at hlt
    exact hlast e hlt ((pointScatter_resultIdx_iff _ idx e n m).mp hland)
  · rw [if_neg hex]
    refine (scatter_set_none _ _ idx _ (ix2 n m) ?_).trans rfl
    intro j hland
    obtain ⟨e, rfl⟩ : ∃ e, j = ix1 e := ⟨j 0, eq_ix1 j⟩
    exact hex ⟨e, (pointScatter_resultIdx_iff _ idx e n m).mp hland⟩

/-! ## The masked rank-3 array -/

open Classical in
/-- An array of `zero` into which a table of (plane, row, column) words, every plane word 7, scatters the entries of
    `x` gathered at the same table, read at (h, n, m): `x` there when h is plane 7 and some table row reads (n, m),
    else `zero`. -/
theorem masked_read [Cert.ReferenceIdeal.Facts₀] {α : Type} (x : (⟨3, ![8, 3072, 3072]⟩ : Shape).Idx → α) (idx : IVec (⟨2, ![98304, 3]⟩ : Shape) 32) (zero : α)
    (h7 : ∀ e : Fin 98304, idx (ix2 e (0 : Fin 3)) = 7#32) (h : Fin 8) (n m : Fin 3072) :
    Host.scatter Cert.ReferenceIdeal.scatter_S8x3072x3072_S98304x3_S98304_n_012_012_1 (fun _ b => b) (fun _ => zero) idx
        (Host.gather Cert.ReferenceIdeal.gather_S8x3072x3072_S98304x3_S98304_n_012_n_n_012_1_111 x idx) (ix3 h n m)
      = if h.val = 7 ∧ (∃ e : Fin 98304, (idx (ix2 e (1 : Fin 3))).toInt = (n.val : ℤ) ∧ (idx (ix2 e (2 : Fin 3))).toInt = (m.val : ℤ)) then x (ix3 h n m) else zero := by
  have hd : Cert.ReferenceIdeal.scatter_S8x3072x3072_S98304x3_S98304_n_012_012_1
      = pointScatter3 8 3072 3072 98304 Cert.ReferenceIdeal.Facts₀.scatter_S8x3072x3072_S98304x3_S98304_n_012_012_1_wf := rfl
  have hg : Cert.ReferenceIdeal.gather_S8x3072x3072_S98304x3_S98304_n_012_n_n_012_1_111
      = tripleDims 8 3072 3072 98304 Cert.ReferenceIdeal.Facts₀.gather_S8x3072x3072_S98304x3_S98304_n_012_n_n_012_1_111_wf := rfl
  rw [hd, hg]
  -- every plane word reads 7
  have h7i : ∀ e : Fin 98304, (idx (ix2 e (0 : Fin 3))).toInt = 7 := fun e => by rw [h7 e]; decide
  by_cases hex : h.val = 7 ∧ (∃ e : Fin 98304, (idx (ix2 e (1 : Fin 3))).toInt = (n.val : ℤ) ∧ (idx (ix2 e (2 : Fin 3))).toInt = (m.val : ℤ))
  · rw [if_pos hex]
    obtain ⟨hh, hex'⟩ := hex
    obtain ⟨e₀, he₀, hlast⟩ := exists_last _ hex'
    have hh0 : (idx (ix2 e₀ (0 : Fin 3))).toInt = (h.val : ℤ) := by rw [h7i e₀, hh]; rfl
    refine (scatter_set_last _ _ idx _ (ix3 h n m) (ix1 e₀)
      ((pointScatter3_resultIdx_iff _ idx e₀ h n m).mpr ⟨hh0, he₀.1, he₀.2⟩) ?_).trans ?_
    · intro j hlt hland
      obtain ⟨e, rfl⟩ : ∃ e, j = ix1 e := ⟨j 0, eq_ix1 j⟩
      rw [rowMajor_ix1, rowMajor_ix1] at hlt
      exact hlast e hlt ((pointScatter3_resultIdx_iff _ idx e h n m).mp hland).2
    · exact gather_triple_at _ x idx e₀ h n m hh0 he₀.1 he₀.2
  · rw [if_neg hex]
    refine (scatter_set_none _ _ idx _ (ix3 h n m) ?_).trans rfl
    intro j hland
    obtain ⟨e, rfl⟩ : ∃ e, j = ix1 e := ⟨j 0, eq_ix1 j⟩
    have hl := (pointScatter3_resultIdx_iff _ idx e h n m).mp hland
    refine hex ⟨?_, e, hl.2⟩
    have := hl.1
    rw [h7i e] at this
    omega

end Cert.Hand.ScatterRead

end
-- ==== Proof.HostRead1.lean ====
/-
  What the host operations between the two calls leave in the five arrays the second call reads, entry by entry,
  from any starting contents: with Y the first call's result (nodes × 640, columns [q of head 7 | k of head 7 |
  v of all heads]) and E the edge list (2 × 98304 words),
    q, k  are Y's columns 0–63 and 64–127;
    v     is Y's columns 576–639 (the last head's 64 columns of the 512 columns of v, which start at 128);
    the mean row is, per column c < 448, the sum over the nodes of Y's column 128 + c divided by the f32 word of 3072;
    the indicator is 1 at (n, m) where some edge's normalised source and destination words read n and m, else 0 —
    the scatter of ones into zeros at the table of normalised words.
-/
import proofs.«424312_j34505767256362_2_alg».proof.Proof.Gen.KernelIdeal.Launch
import proofs.«424312_j34505767256362_2_alg».proof.Proof.Spec
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws
import proofs.«424312_j34505767256362_2_alg».proof.Proof.ScatterRead

noncomputable section

open scoped BigOperators

namespace Cert.KernelIdeal.Hand

open Idealize.ShloMosaic Idealize.ShloMosaic.ValueIdx Idealize.SL.Sem
open Cert.KernelIdeal Cert.KernelIdeal.Gen

namespace HostRead1

/-- Summing a 3072 × 448 array over its rows leaves a vector of 448. -/
theorem reduces_S3072x448_S448 : Shape.Reduces S3072x448 [0] S448 := by decide

/-- The bf16 pattern of all zero bits is 0. -/
theorem ofBits_zero_bf16 : Ideal.ofBits .bf16 0x0000#16 = 0 := by
  simp [Ideal.ofBits, Ideal.ieee]

/-- The bf16 pattern with the exponent field at the bias and the fraction zero is 1. -/
theorem ofBits_one_bf16 : Ideal.ofBits .bf16 0x3F80#16 = 1 := by
  simp [Ideal.ofBits, Ideal.ieee, -EReal.coe_mul]; norm_num

/-- The printed normalisation of an index row, entry by entry: where the word is negative as a signed integer the
    extent 3072 is added, elsewhere the word is kept. -/
theorem norm_apply (r : IVec S98304 32) (e : S98304.Idx) :
    select (cmpi .slt r (broadcastInDim S98304 ![] bcast_S_S98304 (constantI S_ 32 0#32)))
        (addi r (broadcastInDim S98304 ![] bcast_S_S98304 (constantI S_ 32 3072#32))) r e
      = Cert.Spec.wrapw (r e) := by
  show Scalar.select (IntOp.cmpi .slt (r e) 0#32) (IntOp.addi (r e) 3072#32) (r e) = _
  unfold Cert.Spec.wrapw
  by_cases h : (r e).toInt < 0
  · rw [if_pos h, (IntOp.cmpi_slt (x := r e) (y := 0#32)).2 (by simpa using h)]
    exact select_one _ _
  · rw [if_neg h]
    have hc : ¬ IntOp.cmpi .slt (r e) 0#32 = 1#1 := fun hc => h (by simpa using (IntOp.cmpi_slt (x := r e) (y := 0#32)).1 hc)
    rw [eq_zero_of_ne_one hc]
    exact select_zero _ _

/-- Row `k` of the edge list as a vector of 98304 words: the slice of that row, its unit axis dropped. -/
theorem row_apply (E : IVec S2x98304 32) (k : Fin 2) (off : Fin 2 → Nat) (hoff : off = ![k.val, 0])
    (hs : S2x98304.Slices off S1x98304) (e : Fin 98304) :
    shapeCast S98304 (extractStridedSlice S1x98304 off E hs) shapeCasts_S1x98304_S98304 (ix1 e) = E (ix2 k e) := by
  subst hoff
  refine (shapeCast_apply _ _ (ix1 e) (ix2 (0 : Fin 1) e) ?_).trans ?_
  · rw [Shape.rowMajor_val_two, Shape.rowMajor_val_one]; show 0 * 98304 + e.val = e.val; omega
  refine extractStridedSlice_apply _ _ _ _ _ fun a => ?_
  match a with
  | ⟨0, _⟩ => show k.val = k.val + 0; omega
  | ⟨1, _⟩ => show e.val = 0 + e.val; omega

/-- One row of the edge list, normalised entry by entry against the extent 3072. -/
def normRow (E : IVec S2x98304 32) (off : Fin 2 → Nat) (hs : S2x98304.Slices off S1x98304) : IVec S98304 32 :=
  select
    (cmpi .slt (shapeCast S98304 (extractStridedSlice S1x98304 off E hs) shapeCasts_S1x98304_S98304)
      (broadcastInDim S98304 ![] bcast_S_S98304 (constantI S_ 32 0#32)))
    (addi (shapeCast S98304 (extractStridedSlice S1x98304 off E hs) shapeCasts_S1x98304_S98304)
      (broadcastInDim S98304 ![] bcast_S_S98304 (constantI S_ 32 3072#32)))
    (shapeCast S98304 (extractStridedSlice S1x98304 off E hs) shapeCasts_S1x98304_S98304)

/-- The scatter's index table, 98304 × 2: column 0 the normalised sources, column 1 the normalised destinations. -/
def table (E : IVec S2x98304 32) : IVec S98304x2 32 :=
  concatenate S98304x2 1
    [⟨S98304x1, broadcastInDim S98304x1 ![0] bcast_S98304_S98304x1_0 (normRow E ![0, 0] slices_S2x98304_S1x98304_0_0)⟩,
     ⟨S98304x1, broadcastInDim S98304x1 ![0] bcast_S98304_S98304x1_0 (normRow E ![1, 0] slices_S2x98304_S1x98304_1_0)⟩]
    concatenates_S98304x1_S98304x1_S98304x2_d1

theorem normRow_apply (E : IVec S2x98304 32) (k : Fin 2) (off : Fin 2 → Nat) (hoff : off = ![k.val, 0])
    (hs : S2x98304.Slices off S1x98304) (e : Fin 98304) :
    normRow E off hs (ix1 e) = Cert.Spec.wrapw (E (ix2 k e)) := by
  unfold normRow
  rw [norm_apply, row_apply E k off hoff hs e]

/-- The table's column 0 at edge `e`: the normalised source word. -/
theorem table_col0 (E : IVec S2x98304 32) (e : Fin 98304) :
    table E (ix2 e (0 : Fin 2)) = Cert.Spec.wrapw (E (ix2 (0 : Fin 2) e)) := by
  unfold table
  refine (concatenate_pair_apply_left (t := S98304x2) (s₁ := S98304x1) (s₂ := S98304x1) 1 _ _ concatenates_S98304x1_S98304x1_S98304x2_d1 (ix2 e (0 : Fin 2)) rfl (ix2 e (0 : Fin 1)) fun b => ?_).trans ?_
  · match b with
    | ⟨0, _⟩ => rfl
    | ⟨1, _⟩ => rfl
  refine (broadcastInDim_apply _ _ _ _ (ix1 e) fun a => ?_).trans ?_
  · match a with
    | ⟨0, _⟩ => rfl
  exact normRow_apply E 0 _ rfl _ e

/-- The table's column 1 at edge `e`: the normalised destination word. -/
theorem table_col1 (E : IVec S2x98304 32) (e : Fin 98304) :
    table E (ix2 e (1 : Fin 2)) = Cert.Spec.wrapw (E (ix2 (1 : Fin 2) e)) := by
  unfold table
  refine (concatenate_pair_apply_right (t := S98304x2) (s₁ := S98304x1) (s₂ := S98304x1) 1 _ _ concatenates_S98304x1_S98304x1_S98304x2_d1 (ix2 e (1 : Fin 2)) rfl rfl (ix2 e (0 : Fin 1)) (fun b hb => ?_) ?_).trans ?_
  · match b with
    | ⟨0, _⟩ => rfl
    | ⟨1, _⟩ => exact absurd rfl hb
  · rfl
  refine (broadcastInDim_apply _ _ _ _ (ix1 e) fun a => ?_).trans ?_
  · match a with
    | ⟨0, _⟩ => rfl
  exact normRow_apply E 1 _ rfl _ e

/-- What the host stretch leaves in the indicator buffer, as one term: the scatter of the bf16 pattern of 1 into
    bf16 zeros at the index table. -/
theorem mask_term (W : Valuation τ sig (Elt Ideal)) :
    StableHlo.after (hostOps1 (F := Ideal)) W (Proc.devRef .tc main_v36)
      = Host.scatter scatter_S3072x3072_S98304x2_S98304_n_01_01_1 (fun _ b => b)
          (broadcastInDim S3072x3072 ![] bcast_S_S3072x3072 (constant (F := Ideal) S_ .bf16 0x0000#16))
          (table (W (Proc.devRef .tc main_arg1)))
          (broadcastInDim S98304 ![] bcast_S_S98304 (constant (F := Ideal) S_ .bf16 0x3F80#16)) := by
  simp only [hostOps1]; after_results_simp
  try rfl

end HostRead1

/-- The query array the second call reads: the first call's columns 0–63. -/
theorem host1_q (W : Valuation τ sig (Elt Ideal)) (n : Fin 3072) (d : Fin 64) :
    (StableHlo.after (hostOps1 (F := Ideal)) W (Proc.devRef .tc main_v8) : S3072x64.Idx → EReal) (ix2 n d)
      = (W (Proc.devRef .tc main_v7) : S3072x640.Idx → EReal) (ix2 n ⟨d.val, by have := d.isLt; omega⟩) := by
  have e : StableHlo.after (hostOps1 (F := Ideal)) W (Proc.devRef .tc main_v8)
      = extractStridedSlice S3072x64 ![0, 0] (W (Proc.devRef .tc main_v7)) slices_S3072x640_S3072x64_0_0 := by
    simp only [hostOps1]; after_results
  rw [e]
  refine extractStridedSlice_apply _ _ _ _ _ fun a => ?_
  match a with
  | ⟨0, _⟩ => show n.val = 0 + n.val; omega
  | ⟨1, _⟩ => show d.val = 0 + d.val; omega

/-- The key array: the first call's columns 64–127. -/
theorem host1_k (W : Valuation τ sig (Elt Ideal)) (n : Fin 3072) (d : Fin 64) :
    (StableHlo.after (hostOps1 (F := Ideal)) W (Proc.devRef .tc main_v9) : S3072x64.Idx → EReal) (ix2 n d)
      = (W (Proc.devRef .tc main_v7) : S3072x640.Idx → EReal) (ix2 n ⟨64 + d.val, by have := d.isLt; omega⟩) := by
  have e : StableHlo.after (hostOps1 (F := Ideal)) W (Proc.devRef .tc main_v9)
      = extractStridedSlice S3072x64 ![0, 64] (W (Proc.devRef .tc main_v7)) slices_S3072x640_S3072x64_0_64 := by
    simp only [hostOps1]; after_results
  rw [e]
  refine extractStridedSlice_apply _ _ _ _ _ fun a => ?_
  match a with
  | ⟨0, _⟩ => show n.val = 0 + n.val; omega
  | ⟨1, _⟩ => show 64 + d.val = 64 + d.val; rfl

/-- The value array of the last head: columns 448–511 of the 512 value columns, which start at column 128. -/
theorem host1_v (W : Valuation τ sig (Elt Ideal)) (n : Fin 3072) (d : Fin 64) :
    (StableHlo.after (hostOps1 (F := Ideal)) W (Proc.devRef .tc main_v12) : S3072x64.Idx → EReal) (ix2 n d)
      = (W (Proc.devRef .tc main_v7) : S3072x640.Idx → EReal) (ix2 n ⟨576 + d.val, by have := d.isLt; omega⟩) := by
  have e : StableHlo.after (hostOps1 (F := Ideal)) W (Proc.devRef .tc main_v12)
      = extractStridedSlice S3072x64 ![0, 448]
          (extractStridedSlice S3072x512 ![0, 128] (W (Proc.devRef .tc main_v7)) slices_S3072x640_S3072x512_0_128)
          slices_S3072x512_S3072x64_0_448 := by
    simp only [hostOps1]; after_results
  rw [e]
  refine (extractStridedSlice_apply _ _ _ _ (ix2 n ⟨448 + d.val, by have := d.isLt; omega⟩) fun a => ?_).trans ?_
  · match a with
    | ⟨0, _⟩ => show n.val = 0 + n.val; omega
    | ⟨1, _⟩ => show 448 + d.val = 448 + d.val; rfl
  refine extractStridedSlice_apply _ _ _ _ _ fun a => ?_
  match a with
  | ⟨0, _⟩ => show n.val = 0 + n.val; omega
  | ⟨1, _⟩ => show 576 + d.val = 128 + (448 + d.val); omega

open HostRead1 in
/-- The mean row at column c: the sum from the zero pattern (which is 0) over the 3072 nodes of value column c,
    divided by the f32 word of 3072. -/
theorem host1_vm (W : Valuation τ sig (Elt Ideal)) (c : Fin 448) :
    (StableHlo.after (hostOps1 (F := Ideal)) W (Proc.devRef .tc main_v16) : S1x448.Idx → EReal) (ix2 (0 : Fin 1) c)
      = Ideal.div (∑ m : Fin 3072, (W (Proc.devRef .tc main_v7) : S3072x640.Idx → EReal) (ix2 m ⟨128 + c.val, by have := c.isLt; omega⟩))
          (Ideal.ofBits .f32 0x45400000#32) := by
  have e : StableHlo.after (hostOps1 (F := Ideal)) W (Proc.devRef .tc main_v16)
      = Host.divf (F := Ideal)
          (broadcastInDim S1x448 ![1] bcast_S448_S1x448_1
            (Host.reduceAdd
              (extractStridedSlice S3072x448 ![0, 0]
                (extractStridedSlice S3072x512 ![0, 128] (W (Proc.devRef .tc main_v7)) slices_S3072x640_S3072x512_0_128)
                slices_S3072x512_S3072x448_0_0)
              (constant S_ .f32 0x00000000#32) reducesTo_S3072x448_S448_d0 h_S_))
          (broadcastInDim S1x448 ![] bcast_S_S1x448 (constant S_ .f32 0x45400000#32)) := by
    simp only [hostOps1]; after_results
  rw [e]
  show Ideal.div _ _ = _
  congr 1
  refine (broadcastInDim_apply _ _ _ _ (ix1 c) fun a => ?_).trans ?_
  · match a with
    | ⟨0, _⟩ => rfl
  show Ideal.hostReduceAdd reducesTo_S3072x448_S448_d0 _ (Ideal.ofBits .f32 0x00000000#32) (ix1 c) = _
  rw [Ideal.hostReduceAdd_single reducesTo_S3072x448_S448_d0 reduces_S3072x448_S448, Ideal.ofBits_zero_f32, zero_add]
  refine Finset.sum_congr rfl fun m _ => ?_
  refine (extractStridedSlice_apply _ _ _ _ (ix2 m ⟨c.val, by have := c.isLt; omega⟩) fun a => ?_).trans ?_
  · match a with
    | ⟨0, _⟩ => show m.val = 0 + m.val; omega
    | ⟨1, _⟩ => show c.val = 0 + c.val; omega
  refine extractStridedSlice_apply _ _ _ _ _ fun a => ?_
  match a with
  | ⟨0, _⟩ => show m.val = 0 + m.val; omega
  | ⟨1, _⟩ => show 128 + c.val = 128 + c.val; rfl

open HostRead1 in
open Classical in
/-- The indicator at (n, m): 1 where some edge's normalised words read n and m as signed integers, 0 elsewhere. -/
theorem host1_mask (W : Valuation τ sig (Elt Ideal)) (n m : Fin 3072) :
    (StableHlo.after (hostOps1 (F := Ideal)) W (Proc.devRef .tc main_v36) : S3072x3072.Idx → EReal) (ix2 n m)
      = if Cert.Spec.hit (W (Proc.devRef .tc main_arg1)) n m then (1 : EReal) else 0 := by
  rw [mask_term]
  show Host.scatter scatter_S3072x3072_S98304x2_S98304_n_01_01_1 (fun _ b => b) (fun _ => Ideal.ofBits .bf16 0x0000#16)
      (table (W (Proc.devRef .tc main_arg1))) (fun _ => Ideal.ofBits .bf16 0x3F80#16) (ix2 n m) = _
  rw [Cert.Hand.ScatterRead.mask_read, ofBits_one_bf16, ofBits_zero_bf16]
  refine if_congr ?_ rfl rfl
  unfold Cert.Spec.hit
  simp only [table_col0, table_col1]

end Cert.KernelIdeal.Hand

end
-- ==== Proof.KBridge.lean ====
/-
  The kernel's result array is `Gk`.  The first call's 640 columns are [q of head 7 | k of head 7 | v of all heads]:
  its weight operand is the concatenation of the last 64 columns of Wq, the last 64 of Wk and all of Wv, and its bias
  row the same concatenation of the biases.  So entry (n, j) of its result is the dense layer's entry of the matching
  layer and column.  The second call is handed columns [0, 64) as q, [64, 128) as k, [576, 640) as the last head's v,
  the mean over the nodes of columns [128, 576) as the mean row, and the edge indicator; substituting gives `Gk`.
-/
import proofs.«424312_j34505767256362_2_alg».proof.Proof.KSpec

noncomputable section

open scoped BigOperators

namespace Cert.Spec

open Idealize.ShloMosaic Idealize.ShloMosaic.ValueIdx

section
variable (x : SX.Idx → EReal) (ei : SE.Idx → BitVec 32) (Wq Wk Wv : SW.Idx → EReal) (bq bk bv : SB.Idx → EReal)
variable (Wc : SWc.Idx → EReal) (bc : SBc.Idx → EReal)

/-- The first call's weight operand, column by column: the last head's columns of Wq, then of Wk, then all of Wv. -/
def WcSpec : Prop := ∀ (k : Fin 512) (j : Fin 640), Wc (ix2 k j) =
  if h : j.val < 64 then Wq (ix2 k (⟨448 + j.val, by omega⟩ : Fin 512))
  else if h' : j.val < 128 then Wk (ix2 k (⟨448 + (j.val - 64), by omega⟩ : Fin 512))
  else Wv (ix2 k (⟨j.val - 128, by have := j.isLt; omega⟩ : Fin 512))

/-- Its bias row, the same concatenation of the three biases. -/
def bcSpec : Prop := ∀ j : Fin 640, bc (ix2 (0 : Fin 1) j) =
  if h : j.val < 64 then bq (ix1 (⟨448 + j.val, by omega⟩ : Fin 512))
  else if h' : j.val < 128 then bk (ix1 (⟨448 + (j.val - 64), by omega⟩ : Fin 512))
  else bv (ix1 (⟨j.val - 128, by have := j.isLt; omega⟩ : Fin 512))

variable {x Wq Wk Wv bq bk bv Wc bc}

/-- Columns [0, 64) of the first call's result are the last head's q. -/
theorem Yarr_q (hW : WcSpec Wq Wk Wv Wc) (hb : bcSpec bq bk bv bc) (n : Fin 3072) (d : Fin 64) :
    Yarr x Wc bc (ix2 n (⟨d.val, by have := d.isLt; omega⟩ : Fin 640)) = lin x Wq bq n (col7 d) := by
  have hd : d.val < 64 := d.isLt
  show (∑ k : Fin 512, x (ix2 n k) * Wc (ix2 k (⟨d.val, _⟩ : Fin 640))) + bc (ix2 (0 : Fin 1) (⟨d.val, _⟩ : Fin 640)) = _
  unfold lin
  rw [hb, dif_pos (show (⟨d.val, _⟩ : Fin 640).val < 64 from hd)]
  refine congrArg₂ (· + ·) (Finset.sum_congr rfl fun k _ => ?_) rfl
  rw [hW, dif_pos (show (⟨d.val, _⟩ : Fin 640).val < 64 from hd)]
  rfl

/-- Columns [64, 128) are the last head's k. -/
theorem Yarr_k (hW : WcSpec Wq Wk Wv Wc) (hb : bcSpec bq bk bv bc) (n : Fin 3072) (d : Fin 64) :
    Yarr x Wc bc (ix2 n (⟨64 + d.val, by have := d.isLt; omega⟩ : Fin 640)) = lin x Wk bk n (col7 d) := by
  have hd : d.val < 64 := d.isLt
  have h1 : ¬ (⟨64 + d.val, by omega⟩ : Fin 640).val < 64 := by show ¬ 64 + d.val < 64; omega
  have h2 : (⟨64 + d.val, by omega⟩ : Fin 640).val < 128 := by show 64 + d.val < 128; omega
  show (∑ k : Fin 512, x (ix2 n k) * Wc (ix2 k (⟨64 + d.val, _⟩ : Fin 640))) + bc (ix2 (0 : Fin 1) (⟨64 + d.val, _⟩ : Fin 640)) = _
  unfold lin
  have ec : (⟨448 + ((⟨64 + d.val, by omega⟩ : Fin 640).val - 64), by show 448 + (64 + d.val - 64) < 512; omega⟩ : Fin 512) = col7 d :=
    Fin.ext (by show 448 + (64 + d.val - 64) = 448 + d.val; omega)
  rw [hb, dif_neg h1, dif_pos h2, ec]
  refine congrArg₂ (· + ·) (Finset.sum_congr rfl fun k _ => ?_) rfl
  rw [hW, dif_neg h1, dif_pos h2, ec]

/-- Column 128 + c is column c of v, for every one of v's 512 columns. -/
theorem Yarr_v (hW : WcSpec Wq Wk Wv Wc) (hb : bcSpec bq bk bv bc) (n : Fin 3072) (c : Fin 512) :
    Yarr x Wc bc (ix2 n (⟨128 + c.val, by have := c.isLt; omega⟩ : Fin 640)) = lin x Wv bv n c := by
  have hc : c.val < 512 := c.isLt
  have h1 : ¬ (⟨128 + c.val, by omega⟩ : Fin 640).val < 64 := by show ¬ 128 + c.val < 64; omega
  have h2 : ¬ (⟨128 + c.val, by omega⟩ : Fin 640).val < 128 := by show ¬ 128 + c.val < 128; omega
  show (∑ k : Fin 512, x (ix2 n k) * Wc (ix2 k (⟨128 + c.val, _⟩ : Fin 640))) + bc (ix2 (0 : Fin 1) (⟨128 + c.val, _⟩ : Fin 640)) = _
  unfold lin
  have ec : (⟨(⟨128 + c.val, by omega⟩ : Fin 640).val - 128, by show 128 + c.val - 128 < 512; omega⟩ : Fin 512) = c :=
    Fin.ext (by show 128 + c.val - 128 = c.val; omega)
  rw [hb, dif_neg h1, dif_neg h2, ec]
  refine congrArg₂ (· + ·) (Finset.sum_congr rfl fun k _ => ?_) rfl
  rw [hW, dif_neg h1, dif_neg h2, ec]

open Classical in
/-- The second call's result, from what the host operations hand it, is the kernel's arrangement of the result. -/
theorem Oarr_eq_Gk (hW : WcSpec Wq Wk Wv Wc) (hb : bcSpec bq bk bv bc)
    (q k v : SQ.Idx → EReal) (vm : SVm.Idx → EReal) (mask : SM.Idx → EReal)
    (hq : ∀ (n : Fin 3072) (d : Fin 64), q (ix2 n d) = Yarr x Wc bc (ix2 n (⟨d.val, by have := d.isLt; omega⟩ : Fin 640)))
    (hk : ∀ (n : Fin 3072) (d : Fin 64), k (ix2 n d) = Yarr x Wc bc (ix2 n (⟨64 + d.val, by have := d.isLt; omega⟩ : Fin 640)))
    (hv : ∀ (n : Fin 3072) (d : Fin 64), v (ix2 n d) = Yarr x Wc bc (ix2 n (⟨576 + d.val, by have := d.isLt; omega⟩ : Fin 640)))
    (hvm : ∀ c : Fin 448, vm (ix2 (0 : Fin 1) c)
      = Ideal.div (∑ m : Fin 3072, Yarr x Wc bc (ix2 m (⟨128 + c.val, by have := c.isLt; omega⟩ : Fin 640))) (Ideal.ofBits .f32 0x45400000#32))
    (hmask : ∀ n m : Fin 3072, mask (ix2 n m) = if hit ei n m then 1 else 0) :
    Oarr q k v vm mask = Gk x ei Wq Wk Wv bq bk bv := by
  funext i
  obtain ⟨n, c, rfl⟩ : ∃ (n : Fin 3072) (c : Fin 512), i = ix2 n c := ⟨i 0, i 1, eq_ix2 i⟩
  have hc : c.val < 512 := c.isLt
  unfold Oarr Gk
  show (if h : c.val < 448 then vm (ix2 (0 : Fin 1) (⟨c.val, h⟩ : Fin 448))
      else ∑ m : Fin 3072, smax (rowA q k mask n) m * v (ix2 m (⟨c.val - 448, _⟩ : Fin 64)))
    = if c.val < 448 then Ideal.div (∑ m : Fin 3072, lin x Wv bv m c) (Ideal.ofBits .f32 0x45400000#32)
      else ∑ m : Fin 3072, smax (rowK x ei Wq Wk bq bk n) m * lin x Wv bv m c
  by_cases h : c.val < 448
  · rw [dif_pos h, if_pos h, hvm]
    refine congrArg (fun s => Ideal.div s _) (Finset.sum_congr rfl fun m _ => ?_)
    exact (Yarr_v hW hb m c)
  · rw [dif_neg h, if_neg h]
    have hrow : rowA q k mask n = rowK x ei Wq Wk bq bk n := by
      funext m
      unfold rowA rowK
      rw [hmask]
      refine congrArg (fun s : EReal => s * (if hit ei n m then (1 : EReal) else 0)) (Finset.sum_congr rfl fun d _ => ?_)
      rw [hq, hk, Yarr_q hW hb, Yarr_k hW hb]
    rw [hrow]
    refine Finset.sum_congr rfl fun m _ => ?_
    refine congrArg (fun t : EReal => smax (rowK x ei Wq Wk bq bk n) m * t) ?_
    rw [hv]
    have e : (⟨576 + (⟨c.val - 448, by omega⟩ : Fin 64).val, by show 576 + (c.val - 448) < 640; omega⟩ : Fin 640)
        = (⟨128 + c.val, by omega⟩ : Fin 640) := Fin.ext (by show 576 + (c.val - 448) = 128 + c.val; omega)
    rw [e]
    exact Yarr_v hW hb m c

end

end Cert.Spec

end
-- ==== Proof.KVal.lean ====
/-
  The idealized kernel's result array, after its whole run, is `Gk` of the launch contents of its arguments.
  The run's last valuation holds, at the second call's result buffer, that call's result array over the contents its
  operands had when it was entered; those are what the second host stretch makes of the first call's result array and
  of the edge list; the first call's result array is the dense layer over what the first host stretch makes of the
  weights and biases.  Each step is read at an index by the module that owns it; here they are composed.
-/
import proofs.«424312_j34505767256362_2_alg».proof.Proof.RunKI
import proofs.«424312_j34505767256362_2_alg».proof.Proof.Val0
import proofs.«424312_j34505767256362_2_alg».proof.Proof.HostRead0
import proofs.«424312_j34505767256362_2_alg».proof.Proof.Val1
import proofs.«424312_j34505767256362_2_alg».proof.Proof.HostRead1
import proofs.«424312_j34505767256362_2_alg».proof.Proof.KBridge

noncomputable section

namespace Cert.KernelIdeal.Hand

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The edge list reaches the second call's entry as launched: the first host stretch does not write it and it is
    no array of the first call. -/
theorem W2_edges (c : Dev nD) : W2 m ρ c (Proc.devRef .tc main_arg1) = m ((c : Thread nD τ).loc main_arg1) :=
  (W2_of_ne m ρ c main_arg1 (by decide)).trans
    (StableHlo.after_of_writes_sub hostOps0 _ Gen.hostOps0_writes (by decide))

/-- The first call's result array over the launch contents: the dense layer of `x` against the concatenated weights
    and biases the first host stretch builds. -/
theorem W2_Y (c : Dev nD) :
    (W2 m ρ c (Proc.devRef .tc main_v7) : S3072x640.Idx → EReal)
      = Cert.Spec.Yarr (m ((c : Thread nD τ).loc main_arg0)) (V1 m ρ c main_v2) (V1 m ρ c main_v6) := by
  have hx : V1 m ρ c main_arg0 = m ((c : Thread nD τ).loc main_arg0) := host0_x (W0 m ρ c)
  have h := (W2_arr m ρ c 3).trans (final0 (V1 m ρ) c)
  rw [hx] at h
  exact h

/-- THE KERNEL'S VALUE: the result buffer after the run holds `Gk` of the arguments' launch contents. -/
theorem kernel_value (c : Dev nD) :
    W4 (F := Ideal) m ρ c (Proc.devRef .tc main_v37)
      = Cert.Spec.Gk (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  refine ((W4_arr m ρ c 5).trans (final1 (V3 m ρ) c)).trans ?_
  have hY := W2_Y m ρ c
  refine Cert.Spec.Oarr_eq_Gk (m ((c.tc : Thread nD τ).loc main_arg1)) (Wc := V1 m ρ c main_v2) (bc := V1 m ρ c main_v6)
    (fun k j => host0_w (W0 m ρ c) k j) (fun j => host0_b (W0 m ρ c) j) _ _ _ _ _
    (fun n d => ?_) (fun n d => ?_) (fun n d => ?_) (fun c' => ?_) (fun n m' => ?_)
  · exact (host1_q (W2 m ρ c) n d).trans (congrFun hY _)
  · exact (host1_k (W2 m ρ c) n d).trans (congrFun hY _)
  · exact (host1_v (W2 m ρ c) n d).trans (congrFun hY _)
  · refine (host1_vm (W2 m ρ c) c').trans ?_
    rw [hY]
  · refine (host1_mask (W2 m ρ c) n m').trans ?_
    rw [W2_edges]

end Cert.KernelIdeal.Hand

end
-- ==== Proof.RefVal.lean ====
/-
  The reference program's result, read index by index over the extended reals, is the array `Gr` of module Spec.

  Entry (n, c) of the result belongs to head h = c / 64 and lane d = c % 64.  It is the sum over the nodes m of the
  softmax weight of (h, n, m) times entry (h, m, d) of the value layer, and 64 h + d = c, so that factor is the dense
  layer x·Wv + bv at (m, c).  The softmax is taken of the masked scores of head h at row n: the reference gathers the
  scores q·kᵀ/√64 at the triples (7, source, destination) of the edge list, each word normalised against the axis, and
  scatters them, by replacement, at the same triples into an array of zeros.  The two index tables are one function of
  the edge list, so the masked array holds the score itself wherever it holds anything: in head 7, at the pairs some
  edge names; it is zero everywhere else.  The row maximum is a fold of `max` from −∞, taking the maximum with −∞ once
  more changes nothing, and a sum started from the zero word is the sum; so each row goes through exactly the
  subtraction of its maximum, the exponentials, and the division by their sum that `smax` writes.
-/
import proofs.«424312_j34505767256362_2_alg».proof.Proof.Gen.ReferenceIdeal.Read
import proofs.«424312_j34505767256362_2_alg».proof.Proof.Spec
import proofs.«424312_j34505767256362_2_alg».proof.Proof.ScatterRead
import Idealize.ShloMosaic.PureOps.Reduce
import Mathlib.Data.Finset.Fold

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

/-- The column of head `h`, lane `d`, among a layer's 512 columns. -/
def hcol (h : Fin 8) (d : Fin 64) : Fin 512 := ⟨64 * h.val + d.val, by have := h.isLt; have := d.isLt; omega⟩

/-- Entry (h, m, d) of the heads-first arrangement is entry (m, 64 h + d) of the nodes × features one. -/
theorem idx_heads (h : Fin 8) (m : Fin 3072) (d : Fin 64) :
    idx_main_v16 (idx_main_v17 (ix3 h m d)) = ix2 m (hcol h d) := by
  funext a
  refine Fin.ext ?_
  have := h.isLt; have := d.isLt; have := m.isLt
  match a with
  | ⟨0, _⟩ => show ((m.val * 8 + h.val) * 64 + d.val) / 512 = m.val; omega
  | ⟨1, _⟩ => show ((m.val * 8 + h.val) * 64 + d.val) % 512 = 64 * h.val + d.val; omega

theorem lidx_ix2 (m : Fin 3072) (j k : Fin 512) : lidx_main_v12 (ix2 m j) k = ix2 m k := by
  funext a; match a with | ⟨0, _⟩ => rfl | ⟨1, _⟩ => rfl

theorem ridx_ix2 (m : Fin 3072) (j k : Fin 512) : ridx_main_v12 (ix2 m j) k = ix2 k j := by
  funext a; match a with | ⟨0, _⟩ => rfl | ⟨1, _⟩ => rfl

theorem bidx_ix2 (m : Fin 3072) (j : Fin 512) : idx_main_v13 (idx_main_v14 (ix2 m j)) = ix1 j := by
  funext a; match a with | ⟨0, _⟩ => rfl

/-- A dense layer read at (m, j): the contraction of row `m` with column `j`, plus the bias at `j`. -/
theorem lin_of_reads (x : Cert.Spec.SX.Idx → EReal) (W : Cert.Spec.SW.Idx → EReal) (b : Cert.Spec.SB.Idx → EReal)
    (m : Fin 3072) (j : Fin 512) (L : Fin 512 → Cert.Spec.SX.Idx) (R : Fin 512 → Cert.Spec.SW.Idx) (B : Cert.Spec.SB.Idx)
    (hL : ∀ k, L k = ix2 m k) (hR : ∀ k, R k = ix2 k j) (hB : B = ix1 j) :
    (∑ k : Fin 512, x (L k) * W (R k)) + b B = Cert.Spec.lin x W b m j := by
  subst hB
  unfold Cert.Spec.lin
  refine congrArg (· + _) (Finset.sum_congr rfl fun k _ => ?_)
  rw [hL, hR]

theorem v17_eq (x0 : (⟨S3072x512, .f32⟩ : BufTy).Contents (Elt Ideal)) (x4 : (⟨S512x512, .f32⟩ : BufTy).Contents (Elt Ideal))
    (x7 : (⟨S512, .f32⟩ : BufTy).Contents (Elt Ideal)) (h : Fin 8) (m : Fin 3072) (d : Fin 64) :
    val_main_v17 (F := Ideal) x0 x4 x7 (ix3 h m d) = Cert.Spec.lin x0 x4 x7 m (hcol h d) := by
  rw [val_main_v17_apply, val_main_v16_apply, idx_heads, val_main_v15_apply, val_main_v12_apply, val_main_v14_apply,
    val_main_v13_apply]
  exact lin_of_reads x0 x4 x7 m (hcol h d) _ _ _ (lidx_ix2 m _) (ridx_ix2 m _) (bidx_ix2 m _)

theorem v11_eq (x0 : (⟨S3072x512, .f32⟩ : BufTy).Contents (Elt Ideal)) (x3 : (⟨S512x512, .f32⟩ : BufTy).Contents (Elt Ideal))
    (x6 : (⟨S512, .f32⟩ : BufTy).Contents (Elt Ideal)) (h : Fin 8) (m : Fin 3072) (d : Fin 64) :
    val_main_v11 (F := Ideal) x0 x3 x6 (ix3 h m d) = Cert.Spec.lin x0 x3 x6 m (hcol h d) := by
  rw [val_main_v11_apply, val_main_v10_apply, show idx_main_v10 (idx_main_v11 (ix3 h m d)) = ix2 m (hcol h d) from idx_heads h m d,
    val_main_v9_apply, val_main_v6_apply, val_main_v8_apply, val_main_v7_apply]
  exact lin_of_reads x0 x3 x6 m (hcol h d) _ _ _ (lidx_ix2 m _) (ridx_ix2 m _) (bidx_ix2 m _)

theorem v5_eq (x0 : (⟨S3072x512, .f32⟩ : BufTy).Contents (Elt Ideal)) (x2 : (⟨S512x512, .f32⟩ : BufTy).Contents (Elt Ideal))
    (x5 : (⟨S512, .f32⟩ : BufTy).Contents (Elt Ideal)) (h : Fin 8) (m : Fin 3072) (d : Fin 64) :
    val_main_v5 (F := Ideal) x0 x2 x5 (ix3 h m d) = Cert.Spec.lin x0 x2 x5 m (hcol h d) := by
  rw [val_main_v5_apply, val_main_v4_apply, show idx_main_v4 (idx_main_v5 (ix3 h m d)) = ix2 m (hcol h d) from idx_heads h m d,
    val_main_v3_apply, val_main_v0_apply, val_main_v2_apply, val_main_v1_apply]
  exact lin_of_reads x0 x2 x5 m (hcol h d) _ _ _ (lidx_ix2 m _) (ridx_ix2 m _) (bidx_ix2 m _)

/-- The reference's normalisation of an index word (add the extent where the signed compare with zero holds) is
    the specification's. -/
theorem wrap_eq (w : BitVec 32) :
    Scalar.select (IntOp.cmpi .slt w 0#32) (IntOp.addi w 3072#32) w = Cert.Spec.wrapw w := by
  have e : (IntOp.cmpi .slt w 0#32 = 1) ↔ w.toInt < 0 := by
    have h0 : (0#32 : BitVec 32).toInt = 0 := by decide
    unfold IntOp.cmpi
    show BitVec.ofBool (w.slt 0#32) = 1 ↔ w.toInt < 0
    rw [← h0, ← BitVec.slt_iff_toInt_lt]
    cases w.slt 0#32 <;> decide
  unfold Scalar.select Cert.Spec.wrapw IntOp.addi
  exact if_congr e rfl rfl

section Concat3
variable {α : Type} (p0 p1 p2 : S98304x1.Idx → α)
  (H : Shape.Concatenates [S98304x1, S98304x1, S98304x1] S98304x3 1)

/-- Three one-column pieces joined along the columns: column 0 of the result is the first piece. -/
theorem concat3_col0 (e : Fin 98304) :
    concatenate S98304x3 1 [⟨S98304x1, p0⟩, ⟨S98304x1, p1⟩, ⟨S98304x1, p2⟩] H (ix2 e (0 : Fin 3)) = p0 (ix2 e (0 : Fin 1)) := by
  refine concatenate_apply_piece (t := S98304x3) (1 : Fin 2) ([⟨S98304x1, p0⟩, ⟨S98304x1, p1⟩, ⟨S98304x1, p2⟩] : List ((s : Shape) × (s.Idx → α))) H _ 0 (show 0 < 3 by omega) S98304x1 p0 rfl rfl 0 rfl (ix2 e 0) ?_ rfl
  intro b hb
  match b with
  | ⟨0, _⟩ => rfl
  | ⟨1, _⟩ => exact absurd rfl hb

/-- Column 1 is the second piece. -/
theorem concat3_col1 (e : Fin 98304) :
    concatenate S98304x3 1 [⟨S98304x1, p0⟩, ⟨S98304x1, p1⟩, ⟨S98304x1, p2⟩] H (ix2 e (1 : Fin 3)) = p1 (ix2 e (0 : Fin 1)) := by
  refine concatenate_apply_piece (t := S98304x3) (1 : Fin 2) ([⟨S98304x1, p0⟩, ⟨S98304x1, p1⟩, ⟨S98304x1, p2⟩] : List ((s : Shape) × (s.Idx → α))) H _ 1 (show 1 < 3 by omega) S98304x1 p1 rfl rfl 1 rfl (ix2 e 0) ?_ rfl
  intro b hb
  match b with
  | ⟨0, _⟩ => rfl
  | ⟨1, _⟩ => exact absurd rfl hb

/-- Column 2 is the third piece. -/
theorem concat3_col2 (e : Fin 98304) :
    concatenate S98304x3 1 [⟨S98304x1, p0⟩, ⟨S98304x1, p1⟩, ⟨S98304x1, p2⟩] H (ix2 e (2 : Fin 3)) = p2 (ix2 e (0 : Fin 1)) := by
  refine concatenate_apply_piece (t := S98304x3) (1 : Fin 2) ([⟨S98304x1, p0⟩, ⟨S98304x1, p1⟩, ⟨S98304x1, p2⟩] : List ((s : Shape) × (s.Idx → α))) H _ 2 (show 2 < 3 by omega) S98304x1 p2 rfl rfl 2 rfl (ix2 e 0) ?_ rfl
  intro b hb
  match b with
  | ⟨0, _⟩ => rfl
  | ⟨1, _⟩ => exact absurd rfl hb
end Concat3

/-- Row 0 of the edge list, as a vector: the source words. -/
theorem v23_eq (x1 : (⟨S2x98304, .i32⟩ : BufTy).Contents (Elt Ideal)) (e : Fin 98304) :
    val_main_v23 (F := Ideal) x1 (ix1 e) = x1 (ix2 (0 : Fin 2) e) := by
  rw [val_main_v23_apply, val_main_v22_apply]
  exact congrArg x1 (funext fun a => Fin.ext (by
    match a with
    | ⟨0, _⟩ => rfl
    | ⟨1, _⟩ => exact Nat.mod_eq_of_lt e.isLt))

/-- Row 1 of the edge list, as a vector: the destination words. -/
theorem v25_eq (x1 : (⟨S2x98304, .i32⟩ : BufTy).Contents (Elt Ideal)) (e : Fin 98304) :
    val_main_v25 (F := Ideal) x1 (ix1 e) = x1 (ix2 (1 : Fin 2) e) := by
  rw [val_main_v25_apply, val_main_v24_apply]
  exact congrArg x1 (funext fun a => Fin.ext (by
    match a with
    | ⟨0, _⟩ => rfl
    | ⟨1, _⟩ => exact Nat.mod_eq_of_lt e.isLt))

theorem v31_eq (x1 : (⟨S2x98304, .i32⟩ : BufTy).Contents (Elt Ideal)) (e : Fin 98304) :
    val_main_v31 (F := Ideal) x1 (ix1 e) = Cert.Spec.wrapw (x1 (ix2 (0 : Fin 2) e)) := by
  rw [val_main_v31_apply, val_main_v28_apply, val_main_v30_apply, v23_eq]
  exact wrap_eq _

theorem v36_eq (x1 : (⟨S2x98304, .i32⟩ : BufTy).Contents (Elt Ideal)) (e : Fin 98304) :
    val_main_v36 (F := Ideal) x1 (ix1 e) = Cert.Spec.wrapw (x1 (ix2 (1 : Fin 2) e)) := by
  rw [val_main_v36_apply, val_main_v33_apply, val_main_v35_apply, v25_eq]
  exact wrap_eq _

theorem v48_eq (x1 : (⟨S2x98304, .i32⟩ : BufTy).Contents (Elt Ideal)) (e : Fin 98304) :
    val_main_v48 (F := Ideal) x1 (ix1 e) = Cert.Spec.wrapw (x1 (ix2 (0 : Fin 2) e)) := by
  rw [val_main_v48_apply, val_main_v45_apply, val_main_v47_apply, v23_eq]
  exact wrap_eq _

theorem v53_eq (x1 : (⟨S2x98304, .i32⟩ : BufTy).Contents (Elt Ideal)) (e : Fin 98304) :
    val_main_v53 (F := Ideal) x1 (ix1 e) = Cert.Spec.wrapw (x1 (ix2 (1 : Fin 2) e)) := by
  rw [val_main_v53_apply, val_main_v50_apply, val_main_v52_apply, v25_eq]
  exact wrap_eq _

/-- A vector viewed as a column is read at its row. -/
theorem col_idx (e : Fin 98304) : idx_main_v40 (ix2 e (0 : Fin 1)) = ix1 e := by
  funext a; match a with | ⟨0, _⟩ => rfl

/-- The gather's index table: the word 7, the normalised source, the normalised destination. -/
theorem v42_col0 (x1 : (⟨S2x98304, .i32⟩ : BufTy).Contents (Elt Ideal)) (e : Fin 98304) : val_main_v42 (F := Ideal) x1 (ix2 e (0 : Fin 3)) = 7#32 := by
  unfold val_main_v42
  rw [concat3_col0, val_main_v39_apply]
  rfl

theorem v42_col1 (x1 : (⟨S2x98304, .i32⟩ : BufTy).Contents (Elt Ideal)) (e : Fin 98304) :
    val_main_v42 (F := Ideal) x1 (ix2 e (1 : Fin 3)) = Cert.Spec.wrapw (x1 (ix2 (0 : Fin 2) e)) := by
  unfold val_main_v42
  rw [concat3_col1, val_main_v40_apply, col_idx, v31_eq]

theorem v42_col2 (x1 : (⟨S2x98304, .i32⟩ : BufTy).Contents (Elt Ideal)) (e : Fin 98304) :
    val_main_v42 (F := Ideal) x1 (ix2 e (2 : Fin 3)) = Cert.Spec.wrapw (x1 (ix2 (1 : Fin 2) e)) := by
  unfold val_main_v42
  rw [concat3_col2, val_main_v41_apply, show idx_main_v41 (ix2 e (0 : Fin 1)) = ix1 e from col_idx e, v36_eq]

/-- The scatter's index table: the same three columns. -/
theorem v59_col0 (x1 : (⟨S2x98304, .i32⟩ : BufTy).Contents (Elt Ideal)) (e : Fin 98304) : val_main_v59 (F := Ideal) x1 (ix2 e (0 : Fin 3)) = 7#32 := by
  unfold val_main_v59
  rw [concat3_col0, val_main_v56_apply]
  rfl

theorem v59_col1 (x1 : (⟨S2x98304, .i32⟩ : BufTy).Contents (Elt Ideal)) (e : Fin 98304) :
    val_main_v59 (F := Ideal) x1 (ix2 e (1 : Fin 3)) = Cert.Spec.wrapw (x1 (ix2 (0 : Fin 2) e)) := by
  unfold val_main_v59
  rw [concat3_col1, val_main_v57_apply, show idx_main_v57 (ix2 e (0 : Fin 1)) = ix1 e from col_idx e, v48_eq]

theorem v59_col2 (x1 : (⟨S2x98304, .i32⟩ : BufTy).Contents (Elt Ideal)) (e : Fin 98304) :
    val_main_v59 (F := Ideal) x1 (ix2 e (2 : Fin 3)) = Cert.Spec.wrapw (x1 (ix2 (1 : Fin 2) e)) := by
  unfold val_main_v59
  rw [concat3_col2, val_main_v58_apply, show idx_main_v58 (ix2 e (0 : Fin 1)) = ix1 e from col_idx e, v53_eq]

/-- The two tables are one function of the edge list. -/
theorem v42_eq_v59 (x1 : (⟨S2x98304, .i32⟩ : BufTy).Contents (Elt Ideal)) : val_main_v42 (F := Ideal) x1 = val_main_v59 (F := Ideal) x1 := by
  funext i
  obtain ⟨e, j, rfl⟩ : ∃ (e : Fin 98304) (j : Fin 3), i = ix2 e j := ⟨i 0, i 1, eq_ix2 i⟩
  match j with
  | ⟨0, _⟩ => exact (v42_col0 x1 e).trans (v59_col0 x1 e).symm
  | ⟨1, _⟩ => exact (v42_col1 x1 e).trans (v59_col1 x1 e).symm
  | ⟨2, _⟩ => exact (v42_col2 x1 e).trans (v59_col2 x1 e).symm

theorem hcol_seven (h : Fin 8) (hh : h.val = 7) (d : Fin 64) : hcol h d = Cert.Spec.col7 d := by
  refine Fin.ext ?_
  show 64 * h.val + d.val = 448 + d.val
  omega

/-- The last head's score at (n, m): the reference's `sR`. -/
theorem v21_eq (x0 : (⟨S3072x512, .f32⟩ : BufTy).Contents (Elt Ideal)) (x2 x3 : (⟨S512x512, .f32⟩ : BufTy).Contents (Elt Ideal)) (x5 x6 : (⟨S512, .f32⟩ : BufTy).Contents (Elt Ideal)) (h : Fin 8) (hh : h.val = 7) (n m : Fin 3072) :
    val_main_v21 (F := Ideal) x0 x2 x3 x5 x6 (ix3 h n m) = Cert.Spec.sR x0 x2 x3 x5 x6 n m := by
  rw [val_main_v21_apply, val_main_v18_apply, val_main_v20_apply, val_main_v19_apply]
  unfold Cert.Spec.sR
  refine congrArg (Ideal.div · _) (Finset.sum_congr rfl fun d _ => ?_)
  rw [show lidx_main_v18 (ix3 h n m) d = ix3 h n d from funext fun a => by
        match a with | ⟨0, _⟩ => rfl | ⟨1, _⟩ => rfl | ⟨2, _⟩ => rfl,
      show ridx_main_v18 (ix3 h n m) d = ix3 h m d from funext fun a => by
        match a with | ⟨0, _⟩ => rfl | ⟨1, _⟩ => rfl | ⟨2, _⟩ => rfl,
      v5_eq, v11_eq, hcol_seven h hh]

/-- The array the scatter writes into is zero everywhere. -/
theorem v26_eq : val_main_v26 (F := Ideal) = fun _ => (0 : EReal) := by
  funext i
  rw [val_main_v26_apply]
  exact Ideal.ofBits_zero_f32

open Classical in
/-- The masked scores: in the last head, where an edge names the pair, the score; zero everywhere else. -/
theorem v60_eq (x0 : (⟨S3072x512, .f32⟩ : BufTy).Contents (Elt Ideal)) (x1 : (⟨S2x98304, .i32⟩ : BufTy).Contents (Elt Ideal)) (x2 x3 : (⟨S512x512, .f32⟩ : BufTy).Contents (Elt Ideal)) (x5 x6 : (⟨S512, .f32⟩ : BufTy).Contents (Elt Ideal)) (h : Fin 8) (n m : Fin 3072) :
    val_main_v60 (F := Ideal) x0 x1 x2 x3 x5 x6 (ix3 h n m)
      = if h.val = 7 ∧ Cert.Spec.hit x1 n m then Cert.Spec.sR x0 x2 x3 x5 x6 n m else 0 := by
  unfold val_main_v60 val_main_v43
  rw [v42_eq_v59, v26_eq]
  have hit_iff : (∃ e : Fin 98304, (val_main_v59 (F := Ideal) x1 (ix2 e (1 : Fin 3))).toInt = (n.val : ℤ)
        ∧ (val_main_v59 (F := Ideal) x1 (ix2 e (2 : Fin 3))).toInt = (m.val : ℤ)) ↔ Cert.Spec.hit x1 n m := by
    unfold Cert.Spec.hit
    simp only [v59_col1, v59_col2]
  refine (Cert.Hand.ScatterRead.masked_read _ _ _ (fun e => v59_col0 x1 e) h n m).trans ?_
  by_cases hc : h.val = 7 ∧ Cert.Spec.hit x1 n m
  · rw [if_pos hc, if_pos ⟨hc.1, hit_iff.mpr hc.2⟩, v21_eq x0 x2 x3 x5 x6 h hc.1]
  · rw [if_neg hc, if_neg (fun hc' => hc ⟨hc'.1, hit_iff.mp hc'.2⟩)]

/-- The masked scores of head `h` at row `n`, as a row over the columns. -/
def row (x0 : (⟨S3072x512, .f32⟩ : BufTy).Contents (Elt Ideal)) (x1 : (⟨S2x98304, .i32⟩ : BufTy).Contents (Elt Ideal)) (x2 x3 : (⟨S512x512, .f32⟩ : BufTy).Contents (Elt Ideal)) (x5 x6 : (⟨S512, .f32⟩ : BufTy).Contents (Elt Ideal)) (h : Fin 8) (n : Fin 3072) : Fin 3072 → EReal :=
  fun m' => val_main_v60 (F := Ideal) x0 x1 x2 x3 x5 x6 (ix3 h n m')

/-- The reduction over the last axis takes each row's maximum from −∞. -/
theorem v61_eq (x0 : (⟨S3072x512, .f32⟩ : BufTy).Contents (Elt Ideal)) (x1 : (⟨S2x98304, .i32⟩ : BufTy).Contents (Elt Ideal)) (x2 x3 : (⟨S512x512, .f32⟩ : BufTy).Contents (Elt Ideal)) (x5 x6 : (⟨S512, .f32⟩ : BufTy).Contents (Elt Ideal)) (h : Fin 8) (n : Fin 3072) :
    val_main_v61 (F := Ideal) x0 x1 x2 x3 x5 x6 (ix2 h n) = Cert.Spec.rowMax (row x0 x1 x2 x3 x5 x6 h n) := by
  unfold val_main_v61 Cert.Spec.rowMax row
  generalize val_main_v60 (F := Ideal) x0 x1 x2 x3 x5 x6 = y
  have R : S8x3072x3072.Reduces [2] S8x3072 := by decide
  refine (Host.reduce_eq_fold_single (FloatOps.maximumf (F := Ideal) (φ := .f32)) y _ reducesTo_S8x3072x3072_S8x3072_d2 R h_S_ (ix2 h n)).trans ?_
  have e : (y ∘ R.lift (ix2 h n)) = fun m' : Fin 3072 => y (ix3 h n m') :=
    funext fun k => congrArg y (funext fun a => Fin.ext (by
      match a with | ⟨0, _⟩ => rfl | ⟨1, _⟩ => rfl | ⟨2, _⟩ => rfl))
  rw [e]
  rfl

/-- Taking the maximum with −∞ once more changes nothing. -/
theorem v63_eq (x0 : (⟨S3072x512, .f32⟩ : BufTy).Contents (Elt Ideal)) (x1 : (⟨S2x98304, .i32⟩ : BufTy).Contents (Elt Ideal)) (x2 x3 : (⟨S512x512, .f32⟩ : BufTy).Contents (Elt Ideal)) (x5 x6 : (⟨S512, .f32⟩ : BufTy).Contents (Elt Ideal)) (h : Fin 8) (n : Fin 3072) :
    val_main_v63 (F := Ideal) x0 x1 x2 x3 x5 x6 (ix2 h n) = Cert.Spec.rowMax (row x0 x1 x2 x3 x5 x6 h n) := by
  rw [val_main_v63_apply, val_main_v62_apply, v61_eq]
  show max (Ideal.ofBits .f32 0xFF800000#32) (Cert.Spec.rowMax (row x0 x1 x2 x3 x5 x6 h n)) = _
  refine max_eq_right ?_
  unfold Cert.Spec.rowMax
  exact (Finset.le_fold_max _).mpr (Or.inl le_rfl)

theorem v65_eq (x0 : (⟨S3072x512, .f32⟩ : BufTy).Contents (Elt Ideal)) (x1 : (⟨S2x98304, .i32⟩ : BufTy).Contents (Elt Ideal)) (x2 x3 : (⟨S512x512, .f32⟩ : BufTy).Contents (Elt Ideal)) (x5 x6 : (⟨S512, .f32⟩ : BufTy).Contents (Elt Ideal)) (h : Fin 8) (n m : Fin 3072) :
    val_main_v65 (F := Ideal) x0 x1 x2 x3 x5 x6 (ix3 h n m) = Cert.Spec.rowMax (row x0 x1 x2 x3 x5 x6 h n) := by
  rw [val_main_v65_apply, val_main_v64_apply,
    show idx_main_v64 (idx_main_v65 (ix3 h n m)) = ix2 h n from funext fun a => by
      match a with | ⟨0, _⟩ => rfl | ⟨1, _⟩ => rfl,
    v63_eq]

/-- The exponentials of the row less its maximum. -/
theorem v67_eq (x0 : (⟨S3072x512, .f32⟩ : BufTy).Contents (Elt Ideal)) (x1 : (⟨S2x98304, .i32⟩ : BufTy).Contents (Elt Ideal)) (x2 x3 : (⟨S512x512, .f32⟩ : BufTy).Contents (Elt Ideal)) (x5 x6 : (⟨S512, .f32⟩ : BufTy).Contents (Elt Ideal)) (h : Fin 8) (n m : Fin 3072) :
    val_main_v67 (F := Ideal) x0 x1 x2 x3 x5 x6 (ix3 h n m)
      = Ideal.exp (row x0 x1 x2 x3 x5 x6 h n m - Cert.Spec.rowMax (row x0 x1 x2 x3 x5 x6 h n)) := by
  rw [val_main_v67_apply, val_main_v66_apply, v65_eq]
  simp only [Ideal.hostUnary_exp_def, Ideal.subf_def]
  rfl

/-- Their sum along the row. -/
theorem v68_eq (x0 : (⟨S3072x512, .f32⟩ : BufTy).Contents (Elt Ideal)) (x1 : (⟨S2x98304, .i32⟩ : BufTy).Contents (Elt Ideal)) (x2 x3 : (⟨S512x512, .f32⟩ : BufTy).Contents (Elt Ideal)) (x5 x6 : (⟨S512, .f32⟩ : BufTy).Contents (Elt Ideal)) (h : Fin 8) (n : Fin 3072) :
    val_main_v68 (F := Ideal) x0 x1 x2 x3 x5 x6 (ix2 h n)
      = ∑ m' : Fin 3072, Ideal.exp (row x0 x1 x2 x3 x5 x6 h n m' - Cert.Spec.rowMax (row x0 x1 x2 x3 x5 x6 h n)) := by
  rw [val_main_v68_apply]
  show Ideal.ofBits .f32 0x00000000#32 + _ = _
  rw [Ideal.ofBits_zero_f32, zero_add]
  refine Finset.sum_congr rfl fun k _ => ?_
  rw [show idx_main_v68 (ix2 h n) k = ix3 h n k from funext fun a => by
      match a with | ⟨0, _⟩ => rfl | ⟨1, _⟩ => rfl | ⟨2, _⟩ => rfl,
    v67_eq]

/-- The softmax of the masked row. -/
theorem v71_eq (x0 : (⟨S3072x512, .f32⟩ : BufTy).Contents (Elt Ideal)) (x1 : (⟨S2x98304, .i32⟩ : BufTy).Contents (Elt Ideal)) (x2 x3 : (⟨S512x512, .f32⟩ : BufTy).Contents (Elt Ideal)) (x5 x6 : (⟨S512, .f32⟩ : BufTy).Contents (Elt Ideal)) (h : Fin 8) (n m : Fin 3072) :
    val_main_v71 (F := Ideal) x0 x1 x2 x3 x5 x6 (ix3 h n m) = Cert.Spec.smax (row x0 x1 x2 x3 x5 x6 h n) m := by
  rw [val_main_v71_apply, val_main_v70_apply, val_main_v69_apply,
    show idx_main_v69 (idx_main_v70 (ix3 h n m)) = ix2 h n from funext fun a => by
      match a with | ⟨0, _⟩ => rfl | ⟨1, _⟩ => rfl,
    v67_eq, v68_eq]
  rfl

open Classical in
/-- The masked row of the head that owns column `c` is the specification's. -/
theorem row_eq (x0 : (⟨S3072x512, .f32⟩ : BufTy).Contents (Elt Ideal)) (x1 : (⟨S2x98304, .i32⟩ : BufTy).Contents (Elt Ideal)) (x2 x3 : (⟨S512x512, .f32⟩ : BufTy).Contents (Elt Ideal)) (x5 x6 : (⟨S512, .f32⟩ : BufTy).Contents (Elt Ideal)) (c : Fin 512) (h : Fin 8) (hh : h.val = c.val / 64) (n : Fin 3072) :
    row x0 x1 x2 x3 x5 x6 h n = Cert.Spec.rowR x0 x1 x2 x3 x5 x6 c n := by
  funext m'
  show val_main_v60 (F := Ideal) x0 x1 x2 x3 x5 x6 (ix3 h n m') = _
  rw [v60_eq]
  unfold Cert.Spec.rowR
  have hc := c.isLt
  have e7 : h.val = 7 ↔ 448 ≤ c.val := by omega
  by_cases hp : h.val = 7 ∧ Cert.Spec.hit x1 n m'
  · rw [if_pos hp, if_pos ⟨e7.mp hp.1, hp.2⟩]
  · rw [if_neg hp, if_neg (fun hq => hp ⟨e7.mpr hq.1, hq.2⟩)]

/-- THE REFERENCE'S RESULT is the specification's array in the reference's arrangement. -/
theorem ref_eq (x0 : (⟨S3072x512, .f32⟩ : BufTy).Contents (Elt Ideal)) (x1 : (⟨S2x98304, .i32⟩ : BufTy).Contents (Elt Ideal)) (x2 x3 x4 : (⟨S512x512, .f32⟩ : BufTy).Contents (Elt Ideal)) (x5 x6 x7 : (⟨S512, .f32⟩ : BufTy).Contents (Elt Ideal)) :
    Cert.ReferenceIdeal.Read.val_main_v74 (F := Ideal) x0 x1 x2 x3 x4 x5 x6 x7 = Cert.Spec.Gr x0 x1 x2 x3 x4 x5 x6 x7 := by
  funext i
  obtain ⟨n, c, rfl⟩ : ∃ (n : Fin 3072) (c : Fin 512), i = ix2 n c := ⟨i 0, i 1, eq_ix2 i⟩
  have hc := c.isLt
  have hn := n.isLt
  obtain ⟨h, hh⟩ : ∃ h : Fin 8, h.val = c.val / 64 := ⟨⟨c.val / 64, by omega⟩, rfl⟩
  obtain ⟨d, hd⟩ : ∃ d : Fin 64, d.val = c.val % 64 := ⟨⟨c.val % 64, by omega⟩, rfl⟩
  have hcol_c : hcol h d = c := Fin.ext (by show 64 * h.val + d.val = c.val; omega)
  rw [val_main_v74_apply, val_main_v73_apply,
    show idx_main_v73 (idx_main_v74 (ix2 n c)) = ix3 h n d from funext fun a => Fin.ext (by
      match a with
      | ⟨0, _⟩ => show (n.val * 512 + c.val) / 64 % 8 = h.val; omega
      | ⟨1, _⟩ => show (n.val * 512 + c.val) / 512 = n.val; omega
      | ⟨2, _⟩ => show (n.val * 512 + c.val) % 64 = d.val; omega),
    val_main_v72_apply]
  unfold Cert.Spec.Gr
  show _ = ∑ m : Fin 3072, Cert.Spec.smax (Cert.Spec.rowR x0 x1 x2 x3 x5 x6 c n) m * Cert.Spec.lin x0 x4 x7 m c
  refine Finset.sum_congr rfl fun m _ => ?_
  rw [show lidx_main_v72 (ix3 h n d) m = ix3 h n m from funext fun a => by
        match a with | ⟨0, _⟩ => rfl | ⟨1, _⟩ => rfl | ⟨2, _⟩ => rfl,
      show ridx_main_v72 (ix3 h n d) m = ix3 h m d from funext fun a => by
        match a with | ⟨0, _⟩ => rfl | ⟨1, _⟩ => rfl | ⟨2, _⟩ => rfl,
      v71_eq, v17_eq, hcol_c, row_eq x0 x1 x2 x3 x5 x6 c h hh n]

end Cert.ReferenceIdeal.RefValue

end
-- ==== Proof.Math.lean ====
/-
  The law that joins the two arrangements of the result (module Spec): when every float input is a real number,
  `Gk = Gr` index by index.  Heads 0 to 6: a row of zeros has maximum zero, every exponential is one, the sum of
  3072 ones is 3072, and (1/3072)·v summed over the nodes is the sum divided by 3072 — distributivity, which needs
  the entries of `v` real.  Head 7: the two masked scores agree entry by entry — scaling the query row by 1/8
  before the contraction is dividing the contraction by √64 = 8 (again distributivity over reals), and multiplying
  by the edge indicator is keeping the score on an edge and writing zero off it — so the two softmaxes are one.
-/
import proofs.«424312_j34505767256362_2_alg».proof.Proof.Spec

noncomputable section

open scoped BigOperators

namespace Cert.Spec

open Idealize.ShloMosaic Idealize.ShloMosaic.ValueIdx

/-- Every entry of an array is a real number. -/
def AllReal {ι : Type} (f : ι → EReal) : Prop := ∀ i, ∃ r : ℝ, f i = (r : EReal)

/-! ### The four float words the two arrangements spell, as extended reals -/

/-- The f32 word of −∞ is the bottom of the extended reals. -/
theorem ofBits_negInf : Ideal.ofBits .f32 0xFF800000#32 = (⊥ : EReal) := by
  simp [Ideal.ofBits, Ideal.ieee]

/-- The f32 word `0x3E000000` is the real 1/8. -/
theorem ofBits_eighth : Ideal.ofBits .f32 0x3E000000#32 = (((1 : ℝ) / 8 : ℝ) : EReal) := by
  simp [Ideal.ofBits, Ideal.ieee, -EReal.coe_mul]; norm_num

/-- The f32 word `0x42800000` is the real 64. -/
theorem ofBits_64 : Ideal.ofBits .f32 0x42800000#32 = ((64 : ℝ) : EReal) := by
  simp [Ideal.ofBits, Ideal.ieee, -EReal.coe_mul]; norm_num

/-- The f32 word `0x45400000` is the real 3072. -/
theorem ofBits_3072 : Ideal.ofBits .f32 0x45400000#32 = ((3072 : ℝ) : EReal) := by
  simp [Ideal.ofBits, Ideal.ieee, -EReal.coe_mul]; norm_num

/-- The square root of the real 64 is the real 8. -/
theorem sqrt_64 : Ideal.sqrt ((64 : ℝ) : EReal) = ((8 : ℝ) : EReal) := by
  rw [Ideal.sqrt_coe, if_neg (by norm_num)]
  congr 1
  rw [show (64 : ℝ) = 8 ^ 2 by norm_num, Real.sqrt_sq (by norm_num)]

/-! ### Finite sums of reals inside the extended reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An entry of a dense layer of real arrays is a real number: a finite sum of products of reals plus a real. -/
theorem lin_real {x : SX.Idx → EReal} {W : SW.Idx → EReal} {b : SB.Idx → EReal}
    (hx : AllReal x) (hW : AllReal W) (hb : AllReal b) (n : Fin 3072) (j : Fin 512) :
    ∃ r : ℝ, lin x W b n j = (r : EReal) := by
  choose xr hxr using hx
  choose Wr hWr using hW
  choose br hbr using hb
  refine ⟨(∑ k : Fin 512, xr (ix2 n k) * Wr (ix2 k j)) + br (ix1 j), ?_⟩
  unfold lin
  simp only [hxr, hWr, hbr]
  rw [EReal.coe_add, coe_sum]
  simp only [EReal.coe_mul]

/-! ### Heads 0 to 6: the softmax of a row of zeros is uniform -/

/-- The maximum of a row of zeros, folded from −∞, is zero. -/
theorem rowMax_zero : rowMax (fun _ => (0 : EReal)) = 0 := by
  unfold rowMax
  rw [ofBits_negInf]
  apply le_antisymm
  · exact (Finset.fold_max_le _).mpr ⟨bot_le, fun _ _ => le_refl _⟩
  · exact (Finset.le_fold_max _).mpr (Or.inr ⟨(0 : Fin 3072), Finset.mem_univ _, le_refl _⟩)

/-- The softmax of a row of 3072 zeros is 1/3072 at every entry. -/
theorem smax_zero (m : Fin 3072) : smax (fun _ => (0 : EReal)) m = (((1 : ℝ) / 3072 : ℝ) : EReal) := by
  unfold smax
  rw [rowMax_zero]
  have h1 : Ideal.exp ((0 : EReal) - 0) = ((1 : ℝ) : EReal) := by
    rw [sub_zero, ← EReal.coe_zero, Ideal.exp_coe, Real.exp_zero]
  simp only [h1]
  rw [← coe_sum]
  have h2 : (∑ _m' : Fin 3072, (1 : ℝ)) = 3072 := by simp
  rw [h2, Ideal.div_coe (by norm_num), ← EReal.coe_mul, one_mul]

/-- Below column 448 the reference's masked row is a row of zeros. -/
theorem rowR_of_lt (x : SX.Idx → EReal) (ei : SE.Idx → BitVec 32) (Wq Wk : SW.Idx → EReal) (bq bk : SB.Idx → EReal)
    (c : Fin 512) (n : Fin 3072) (h : c.val < 448) :
    rowR x ei Wq Wk bq bk c n = fun _ => (0 : EReal) := by
  funext m
  unfold rowR
  rw [if_neg (fun hc => absurd hc.1 (by omega))]

/-! ### Head 7: the two masked scores agree entry by entry -/

/-- Scaling the query row by 1/8 before the contraction, times the edge indicator, is the contraction divided by
    √64 on an edge and zero off it. -/
theorem rowK_eq_rowR (x : SX.Idx → EReal) (ei : SE.Idx → BitVec 32) (Wq Wk : SW.Idx → EReal) (bq bk : SB.Idx → EReal)
    (hx : AllReal x) (hWq : AllReal Wq) (hWk : AllReal Wk) (hbq : AllReal bq) (hbk : AllReal bk)
    (c : Fin 512) (n : Fin 3072) (h : 448 ≤ c.val) :
    rowK x ei Wq Wk bq bk n = rowR x ei Wq Wk bq bk c n := by
  funext m
  have hq : ∀ d : Fin 64, ∃ r : ℝ, lin x Wq bq n (col7 d) = (r : EReal) := fun d => lin_real hx hWq hbq n (col7 d)
  have hk : ∀ d : Fin 64, ∃ r : ℝ, lin x Wk bk m (col7 d) = (r : EReal) := fun d => lin_real hx hWk hbk m (col7 d)
  choose q hq using hq
  choose k hk using hk
  unfold rowK rowR
  by_cases hh : hit ei n m
  · rw [if_pos hh, if_pos ⟨h, hh⟩, mul_one]
    unfold sR
    rw [ofBits_eighth, ofBits_64, sqrt_64, Ideal.div_coe (by norm_num)]
    simp only [hq, hk, ← EReal.coe_mul]
    rw [← coe_sum, ← coe_sum, ← EReal.coe_mul]
    congr 1
    rw [Finset.sum_mul]
    exact Finset.sum_congr rfl (fun d _ => by ring)
  · rw [if_neg hh, if_neg (fun hc => hh hc.2), mul_zero]

theorem Gk_eq_Gr (x : SX.Idx → EReal) (ei : SE.Idx → BitVec 32) (Wq Wk Wv : SW.Idx → EReal) (bq bk bv : SB.Idx → EReal)
    (hx : AllReal x) (hWq : AllReal Wq) (hWk : AllReal Wk) (hWv : AllReal Wv)
    (hbq : AllReal bq) (hbk : AllReal bk) (hbv : AllReal bv) :
    Gk x ei Wq Wk Wv bq bk bv = Gr x ei Wq Wk Wv bq bk bv := by
  funext i
  by_cases h : (i 1).val < 448
  · have hv : ∀ m : Fin 3072, ∃ r : ℝ, lin x Wv bv m (i 1) = (r : EReal) := fun m => lin_real hx hWv hbv m (i 1)
    choose v hv using hv
    unfold Gk Gr
    rw [if_pos h, rowR_of_lt x ei Wq Wk bq bk (i 1) (i 0) h, ofBits_3072, Ideal.div_coe (by norm_num)]
    simp only [smax_zero, hv, ← EReal.coe_mul]
    rw [← coe_sum, ← coe_sum, ← EReal.coe_mul]
    congr 1
    rw [Finset.sum_mul]
    exact Finset.sum_congr rfl (fun m _ => mul_comm _ _)
  · unfold Gk Gr
    rw [if_neg h, rowK_eq_rowR x ei Wq Wk bq bk hx hWq hWk hbq hbk (i 1) (i 0) (by omega)]

end Cert.Spec

end
-- ==== Proof.PreReal.lean ====
/-
  Finiteness out of the precondition.  The precondition is the conjunction, over the seven float inputs, of
  "every entry a satisfies |a| < +∞", each taken as an and-reduction of the entrywise comparison from the constant
  true.  Over the extended reals |a| is max a (−a), which is +∞ at either infinity, so each conjunct says that
  every entry of that input is a real number.
-/
import proofs.«424312_j34505767256362_2_alg».proof.Defs
import proofs.«424312_j34505767256362_2_alg».proof.Proof.Gen.Pre_finite_inputs
import proofs.«424312_j34505767256362_2_alg».proof.Proof.Math
import Idealize.ShloMosaic.Lib.ReduceAll
import Idealize.ShloMosaic.Lib.ValueIdx
import Idealize.ShloMosaic.PureOps.Ideal.Laws

noncomputable section

namespace Cert.KernelIdeal.Hand.PreReal

open Idealize.ShloMosaic Idealize.ShloMosaic.ValueIdx Idealize.SL.Sem

/-- The f32 pattern with the exponent field all ones and the fraction zero is +∞. -/
theorem ofBits_inf_f32 : Ideal.ofBits .f32 0x7F800000#32 = ⊤ := by
  simp [Ideal.ofBits, Ideal.ieee]

/-- An extended real whose absolute value max x (−x) lies strictly below +∞ is a real number: at either infinity
    the maximum is +∞. -/
theorem real_of_abs_lt_top (x : EReal) (h : max x (-x) < ⊤) : ∃ r : ℝ, x = (r : EReal) := by
  induction x using EReal.rec with
  | bot => simp at h
  | coe r => exact ⟨r, rfl⟩
  | top => simp at h

/-- The scalar shape has exactly one index. -/
instance scalarIdxSubsingleton : Subsingleton Cert.Pre_finite_inputs.S_.Idx := ⟨fun a b => funext fun d => d.elim0⟩

/-- One conjunct of the precondition read back: if the and-reduction over all entries of |a| < +∞ is true, then
    every entry of the array is a real number. -/
theorem allReal_of_all {s : Shape} {axes : List (Fin s.rank)} (A : FVec Ideal s .f32)
    (bc : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf A) (broadcastInDim s ![] bc (constant Cert.Pre_finite_inputs.S_ .f32 0x7F800000#32)))
          (constantI Cert.Pre_finite_inputs.S_ 1 1#1) hr hu ix0 = 1#1) :
    Cert.Spec.AllReal A := by
  intro i
  have hi := Host.reduce_andi_all _ _ hr hu ix0 e i
  -- the entry of the comparison array at i: |A i| < the pattern of +∞, as a one-bit word
  have hi' : Ideal.cmp .olt (max (A i) (-(A i))) (Ideal.ofBits .f32 0x7F800000#32) = 1#1 := hi
  rw [ofBits_inf_f32] at hi'
  refine real_of_abs_lt_top (A i) ?_
  by_contra hn
  have h2 : Ideal.cmp .olt (max (A i) (-(A i))) ⊤ = BitVec.ofBool (decide (max (A i) (-(A i)) < ⊤)) := rfl
  rw [h2, decide_eq_false hn] at hi'
  exact absurd hi' (by decide)

end Cert.KernelIdeal.Hand.PreReal

namespace Cert.KernelIdeal.Hand

open Idealize.ShloMosaic Idealize.ShloMosaic.ValueIdx Idealize.SL.Sem
open Cert.KernelIdeal.Hand.PreReal

/-- Under the precondition every float input of the program is an array of real numbers, on every device: the
    precondition's value at its one index is a six-fold `and` of seven reductions, split conjunct by conjunct. -/
theorem pre_real [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Spec.AllReal (m ((c.tc : Thread Cert.KernelIdeal.nD Cert.KernelIdeal.τ).loc Cert.KernelIdeal.main_arg0))
    ∧ Cert.Spec.AllReal (m ((c.tc : Thread Cert.KernelIdeal.nD Cert.KernelIdeal.τ).loc Cert.KernelIdeal.main_arg2))
    ∧ Cert.Spec.AllReal (m ((c.tc : Thread Cert.KernelIdeal.nD Cert.KernelIdeal.τ).loc Cert.KernelIdeal.main_arg3))
    ∧ Cert.Spec.AllReal (m ((c.tc : Thread Cert.KernelIdeal.nD Cert.KernelIdeal.τ).loc Cert.KernelIdeal.main_arg4))
    ∧ Cert.Spec.AllReal (m ((c.tc : Thread Cert.KernelIdeal.nD Cert.KernelIdeal.τ).loc Cert.KernelIdeal.main_arg5))
    ∧ Cert.Spec.AllReal (m ((c.tc : Thread Cert.KernelIdeal.nD Cert.KernelIdeal.τ).loc Cert.KernelIdeal.main_arg6))
    ∧ Cert.Spec.AllReal (m ((c.tc : Thread Cert.KernelIdeal.nD Cert.KernelIdeal.τ).loc Cert.KernelIdeal.main_arg7)) := by
  have h0 := congrFun (h c) ix0
  dsimp only [Cert.Pre_finite_inputs.fn, Cert.Pre_finite_inputs.fn_part1] at h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  exact ⟨allReal_of_all _ _ _ _ h0, allReal_of_all _ _ _ _ h2, allReal_of_all _ _ _ _ h3, allReal_of_all _ _ _ _ h4,
    allReal_of_all _ _ _ _ h5, allReal_of_all _ _ _ _ h6, allReal_of_all _ _ _ _ h7⟩

end Cert.KernelIdeal.Hand

end
-- ==== Proof.lean ====
/-
  The certificate of a masked graph-attention layer: a Pallas kernel pair against its jnp reference, equal over the
  extended reals when every float input is finite.

  The reference projects x to q, k, v for eight heads, scores every head densely, keeps a score only on the last
  head and only where the edge list names the pair, writes zero everywhere else, takes a row softmax and sums v with
  those weights.  On the seven heads whose masked scores are all zero the softmax is uniform, so the output is the
  column mean of v; the kernel computes that mean directly, projects q and k for the last head only, scales q by 1/8
  where the reference divides the scores by √64, and multiplies the scores by an edge indicator where the reference
  scatters the gathered scores into zeros.  Both indicator and scatter read the normalised edge words signed and drop
  a pair that falls outside the axes, so they mark the same pairs.

  Frames: the kernel program is two pipelined calls among host operations; each call's body loads whole blocks,
  computes, and stores rectangles that tile its output block, so each region's proof data names the output buffer
  after the body, and the run threads the buffers' contents through the four segments (module RunKI; RunK for the
  word-level program, whose text is the same).  The reference is host operations only; its run is read back one
  operation at a time.
  Values: the kernel's result buffer after the run is `Gk` of the arguments (module KVal), the reference's is `Gr`
  (module RefVal), and `Gk = Gr` when the float arguments are real numbers (module Math), which the precondition
  says (module PreReal).
-/
import proofs.«424312_j34505767256362_2_alg».proof.Defs
import proofs.«424312_j34505767256362_2_alg».proof.Proof.Gen.Kernel
import proofs.«424312_j34505767256362_2_alg».proof.Proof.Gen.KernelIdeal
import proofs.«424312_j34505767256362_2_alg».proof.Proof.Gen.ReferenceIdeal
import proofs.«424312_j34505767256362_2_alg».proof.Proof.Gen.ReferenceIdeal.Run
import proofs.«424312_j34505767256362_2_alg».proof.Proof.Gen.ReferenceIdeal.Read
import proofs.«424312_j34505767256362_2_alg».proof.Proof.Gen.Pre_finite_inputs
import proofs.«424312_j34505767256362_2_alg».proof.Proof.RunK
import proofs.«424312_j34505767256362_2_alg».proof.Proof.RunKI
import proofs.«424312_j34505767256362_2_alg».proof.Proof.KVal
import proofs.«424312_j34505767256362_2_alg».proof.Proof.RefVal
import proofs.«424312_j34505767256362_2_alg».proof.Proof.Math
import proofs.«424312_j34505767256362_2_alg».proof.Proof.PreReal
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Hand.frame (F := Bits) m ρ

/-- The idealized kernel program runs and leaves its arguments as launched. -/
theorem frame_ki : Cert.frame_KernelIdeal := fun m ρ _ => Cert.KernelIdeal.Hand.frame (F := Ideal) m ρ

/-- The idealized reference runs and leaves its arguments as launched: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read at the ideal instance. -/
theorem preserves : Cert.preserves_Kernel_KernelIdeal := trivial

open Cert.KernelIdeal in
/-- From memories that agree on the arguments, both idealized programs end with the result `Gk` of the arguments:
    the kernel by its run and value, the reference by its run, its value `Gr`, and `Gk = Gr` on real inputs. -/
theorem algebraic : Cert.algebraic_KernelIdeal_ReferenceIdeal := by
  intro m ρ m' ρ' hpre hagree
  refine ⟨fun c => Cert.Spec.Gk (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7)), ?_, ?_⟩
  · refine (θ_run Cert.KernelIdeal.defs _ _).mono (fun r h c => ?_) (Cert.KernelIdeal.Hand.run_main (F := Ideal) m ρ)
    have hb := fun (b : Ref sig .tc) (hs : ¬ (Proc.devRef .tc b : DevRef τ sig).isScoped) =>
      h c _ (Cert.KernelIdeal.Hand.mem_uc b hs)
    exact ⟨(hb main_v37 (by decide)).trans (Cert.KernelIdeal.Hand.kernel_value m ρ c),
      (hb main_arg0 (by decide)).trans (Cert.KernelIdeal.Hand.W4_main_arg0 m ρ c),
      (hb main_arg1 (by decide)).trans (Cert.KernelIdeal.Hand.W4_main_arg1 m ρ c),
      (hb main_arg2 (by decide)).trans (Cert.KernelIdeal.Hand.W4_main_arg2 m ρ c),
      (hb main_arg3 (by decide)).trans (Cert.KernelIdeal.Hand.W4_main_arg3 m ρ c),
      (hb main_arg4 (by decide)).trans (Cert.KernelIdeal.Hand.W4_main_arg4 m ρ c),
      (hb main_arg5 (by decide)).trans (Cert.KernelIdeal.Hand.W4_main_arg5 m ρ c),
      (hb main_arg6 (by decide)).trans (Cert.KernelIdeal.Hand.W4_main_arg6 m ρ c),
      (hb main_arg7 (by decide)).trans (Cert.KernelIdeal.Hand.W4_main_arg7 m ρ c)⟩
  · refine (θ_run Cert.ReferenceIdeal.defs _ _).mono (fun r h c => ⟨(h c).1.trans ?_, (h c).2⟩)
      (Cert.ReferenceIdeal.Value.run (F := Ideal) m' ρ')
    obtain ⟨r0, r2, r3, r4, r5, r6, r7⟩ := Cert.KernelIdeal.Hand.pre_real m hpre c
    rw [Cert.ReferenceIdeal.Read.val_main_v74_eq, Cert.ReferenceIdeal.RefValue.ref_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2]
    exact (Cert.Spec.Gk_eq_Gr _ _ _ _ _ _ _ _ r0 r2 r3 r4 r5 r6 r7).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
